-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S59392x115 : Shape := ⟨2, ![59392, 115]⟩
abbrev S2x3444736 : Shape := ⟨2, ![2, 3444736]⟩
abbrev S3444736 : Shape := ⟨1, ![3444736]⟩
abbrev S59392 : Shape := ⟨1, ![59392]⟩
abbrev S115x128 : Shape := ⟨2, ![115, 128]⟩
abbrev S128 : Shape := ⟨1, ![128]⟩
abbrev S232x512 : Shape := ⟨2, ![232, 512]⟩
abbrev S512 : Shape := ⟨1, ![512]⟩
abbrev S512x1 : Shape := ⟨2, ![512, 1]⟩
abbrev S1 : Shape := ⟨1, ![1]⟩
abbrev S_ : Shape := ⟨0, ![]⟩
abbrev S2x256x13456 : Shape := ⟨3, ![2, 256, 13456]⟩
abbrev S256 : Shape := ⟨1, ![256]⟩
abbrev S1x256x1 : Shape := ⟨3, ![1, 256, 1]⟩
abbrev S2x256x6670 : Shape := ⟨3, ![2, 256, 6670]⟩
abbrev S256x13456 : Shape := ⟨2, ![256, 13456]⟩
abbrev S2x1707520 : Shape := ⟨2, ![2, 1707520]⟩
abbrev S256x6670 : Shape := ⟨2, ![256, 6670]⟩
abbrev S1707520 : Shape := ⟨1, ![1707520]⟩
abbrev S1x1707520 : Shape := ⟨2, ![1, 1707520]⟩
abbrev S29696 : Shape := ⟨1, ![29696]⟩
abbrev S1707520x1 : Shape := ⟨2, ![1707520, 1]⟩

class Facts : Prop where
  bcast_S_S59392x115 : S_.BroadcastsInDim S59392x115 (![] : Fin 0 → Fin S59392x115.rank)
  reducesTo_S59392x115_S_d0_1 : S59392x115.ReducesTo [0, 1] S_
  h_S_ : 0 < S_.numel
  bcast_S_S3444736 : S_.BroadcastsInDim S3444736 (![] : Fin 0 → Fin S3444736.rank)
  reducesTo_S3444736_S_d0 : S3444736.ReducesTo [0] S_
  bcast_S_S115x128 : S_.BroadcastsInDim S115x128 (![] : Fin 0 → Fin S115x128.rank)
  reducesTo_S115x128_S_d0_1 : S115x128.ReducesTo [0, 1] S_
  bcast_S_S128 : S_.BroadcastsInDim S128 (![] : Fin 0 → Fin S128.rank)
  reducesTo_S128_S_d0 : S128.ReducesTo [0] S_
  bcast_S_S232x512 : S_.BroadcastsInDim S232x512 (![] : Fin 0 → Fin S232x512.rank)
  reducesTo_S232x512_S_d0_1 : S232x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  shapeCasts_S2x3444736_S2x256x13456 : S2x3444736.ShapeCasts S2x256x13456
  bcast_S_S256 : S_.BroadcastsInDim S256 (![] : Fin 0 → Fin S256.rank)
  bcast_S256_S1x256x1_1 : S256.BroadcastsInDim S1x256x1 (![1] : Fin 1 → Fin S1x256x1.rank)
  slices_S2x256x13456_S2x256x6670_0_0_0 : S2x256x13456.Slices ![0, 0, 0] S2x256x6670
  slices_S2x256x13456_S2x256x6670_0_0_6670 : S2x256x13456.Slices ![0, 0, 6670] S2x256x6670
  bcast_S1x256x1_S2x256x6670_0_1_2 : S1x256x1.BroadcastsInDim S2x256x6670 (![0, 1, 2] : Fin 3 → Fin S2x256x6670.rank)
  bcast_S_S1x256x1 : S_.BroadcastsInDim S1x256x1 (![] : Fin 0 → Fin S1x256x1.rank)
  reducesTo_S2x256x6670_S_d0_1_2 : S2x256x6670.ReducesTo [0, 1, 2] S_
  shapeCasts_S3444736_S256x13456 : S3444736.ShapeCasts S256x13456
  shapeCasts_S2x256x6670_S2x1707520 : S2x256x6670.ShapeCasts S2x1707520
  slices_S256x13456_S256x6670_0_0 : S256x13456.Slices ![0, 0] S256x6670
  shapeCasts_S256x6670_S1707520 : S256x6670.ShapeCasts S1707520
  slices_S256x13456_S256x6670_0_6670 : S256x13456.Slices ![0, 6670] S256x6670
  slices_S2x1707520_S1x1707520_1_0 : S2x1707520.Slices ![1, 0] S1x1707520
  shapeCasts_S1x1707520_S1707520 : S1x1707520.ShapeCasts S1707520
  bcast_S_S29696 : S_.BroadcastsInDim S29696 (![] : Fin 0 → Fin S29696.rank)
  bcast_S1707520_S1707520x1_0 : S1707520.BroadcastsInDim S1707520x1 (![0] : Fin 1 → Fin S1707520x1.rank)
  reducesTo_S29696_S_d0 : S29696.ReducesTo [0] S_
  scatter_S29696_S1707520x1_S1707520_n_0_0_1_wf : ScatterDims.WF S29696 S1707520x1 S1707520 [] [0] [0] 1

variable [Facts]

def scatter_S29696_S1707520x1_S1707520_n_0_0_1 : ScatterDims S29696 S1707520x1 S1707520 where
  updateWindowDims := []
  insertedWindowDims := [0]
  scatterDimsToOperandDims := [0]
  indexVectorDim := 1
  wf := scatter_S29696_S1707520x1_S1707520_n_0_0_1_wf
def fn_part6 {F : FTy → Type} [FloatOps F] (main_v75 : IVec S_ 1) (main_v105 : FVec F S29696 .f32) (main_v110 : FVec F S29696 .f32) (main_cst_30 : FVec F S_ .f32) : IVec S_ 1 :=
  let main_v111 : FVec F S29696 .f32 := broadcastInDim S29696 ![] bcast_S_S29696 main_cst_30
  let main_v112 : FVec F S29696 .f32 := addf main_v110 main_v111
  let main_cst_31 : FVec F S_ .f32 := constant S_ .f32 0x00000000#32
  let main_v113 : FVec F S29696 .f32 := broadcastInDim S29696 ![] bcast_S_S29696 main_cst_31
  let main_v114 : IVec S29696 1 := cmpf .ogt main_v105 main_v113
  let main_c_32 : IVec S_ 1 := constantI S_ 1 1#1
  let main_v115 : IVec S_ 1 := (fun x v => Host.reduce IntOp.andi x v reducesTo_S29696_S_d0 h_S_) main_v114 main_c_32
  let main_cst_33 : FVec F S_ .f32 := constant S_ .f32 0x00000000#32
  let main_v116 : FVec F S29696 .f32 := broadcastInDim S29696 ![] bcast_S_S29696 main_cst_33
  let main_v117 : IVec S29696 1 := cmpf .ogt main_v112 main_v116
  let main_c_34 : IVec S_ 1 := constantI S_ 1 1#1
  let main_v118 : IVec S_ 1 := (fun x v => Host.reduce IntOp.andi x v reducesTo_S29696_S_d0 h_S_) main_v117 main_c_34
  let main_v119 : IVec S_ 1 := andi main_v115 main_v118
  let main_v120 : IVec S_ 1 := andi main_v75 main_v119
  main_v120

def fn_part5 {F : FTy → Type} [FloatOps F] (main_v75 : IVec S_ 1) (main_v78 : FVec F S256x13456 .f32) (main_v85 : IVec S2x1707520 32) (main_v86 : IVec S2x256x6670 32) (main_v89 : IVec S1x256x1 32) (main_v90 : IVec S1x256x1 32) : IVec S_ 1 :=
  let main_v91 : IVec S1x256x1 32 := muli main_v90 main_v89
  let main_v92 : IVec S2x256x6670 32 := broadcastInDim S2x256x6670 ![0, 1, 2] bcast_S1x256x1_S2x256x6670_0_1_2 main_v91
  let main_v93 : IVec S2x256x6670 32 := subi main_v86 main_v92
  let main_v94 : IVec S2x1707520 32 := shapeCast S2x1707520 main_v93 shapeCasts_S2x256x6670_S2x1707520
  let main_v95 : FVec F S256x6670 .f32 := (extractStridedSlice S256x6670 ![0, 0] · slices_S256x13456_S256x6670_0_0) main_v78
  let main_v96 : FVec F S1707520 .f32 := shapeCast S1707520 main_v95 shapeCasts_S256x6670_S1707520
  let main_v97 : FVec F S256x6670 .f32 := (extractStridedSlice S256x6670 ![0, 6670] · slices_S256x13456_S256x6670_0_6670) main_v78
  let main_v98 : FVec F S1707520 .f32 := shapeCast S1707520 main_v97 shapeCasts_S256x6670_S1707520
  let main_v99 : IVec S1x1707520 32 := (extractStridedSlice S1x1707520 ![1, 0] · slices_S2x1707520_S1x1707520_1_0) main_v85
  let main_v100 : IVec S1707520 32 := shapeCast S1707520 main_v99 shapeCasts_S1x1707520_S1707520
  let main_cst_27 : FVec F S_ .f32 := constant S_ .f32 0x00000000#32
  let main_v101 : FVec F S29696 .f32 := broadcastInDim S29696 ![] bcast_S_S29696 main_cst_27
  let main_v102 : IVec S1707520x1 32 := broadcastInDim S1707520x1 ![0] bcast_S1707520_S1707520x1_0 main_v100
  let main_v103 : FVec F S29696 .f32 := (fun x i u => Host.scatterAdd scatter_S29696_S1707520x1_S1707520_n_0_0_1 x i u) main_v101 main_v102 main_v96
  let main_cst_28 : FVec F S_ .f32 := constant S_ .f32 0x3F800000#32
  let main_v104 : FVec F S29696 .f32 := broadcastInDim S29696 ![] bcast_S_S29696 main_cst_28
  let main_v105 : FVec F S29696 .f32 := addf main_v103 main_v104
  let main_v106 : IVec S1x1707520 32 := (extractStridedSlice S1x1707520 ![1, 0] · slices_S2x1707520_S1x1707520_1_0) main_v94
  let main_v107 : IVec S1707520 32 := shapeCast S1707520 main_v106 shapeCasts_S1x1707520_S1707520
  let main_cst_29 : FVec F S_ .f32 := constant S_ .f32 0x00000000#32
  let main_v108 : FVec F S29696 .f32 := broadcastInDim S29696 ![] bcast_S_S29696 main_cst_29
  let main_v109 : IVec S1707520x1 32 := broadcastInDim S1707520x1 ![0] bcast_S1707520_S1707520x1_0 main_v107
  let main_v110 : FVec F S29696 .f32 := (fun x i u => Host.scatterAdd scatter_S29696_S1707520x1_S1707520_n_0_0_1 x i u) main_v108 main_v109 main_v98
  let main_cst_30 : FVec F S_ .f32 := constant S_ .f32 0x3F800000#32
  fn_part6 (F := F) main_v75 main_v105 main_v110 main_cst_30

def fn_part4 {F : FTy → Type} [FloatOps F] (main_arg1 : IVec S2x3444736 32) (main_arg2 : FVec F S3444736 .f32) (main_v48 : IVec S_ 1) (main_v55 : IVec S2x256x6670 32) (main_v63 : IVec S_ 1) (main_v67 : IVec S2x256x6670 1) (main_v70 : IVec S2x256x6670 32) : IVec S_ 1 :=
  let main_v71 : IVec S2x256x6670 1 := cmpi .slt main_v55 main_v70
  let main_v72 : IVec S2x256x6670 1 := andi main_v67 main_v71
  let main_c_23 : IVec S_ 1 := constantI S_ 1 1#1
  let main_v73 : IVec S_ 1 := (fun x v => Host.reduce IntOp.andi x v reducesTo_S2x256x6670_S_d0_1_2 h_S_) main_v72 main_c_23
  let main_v74 : IVec S_ 1 := andi main_v63 main_v73
  let main_v75 : IVec S_ 1 := andi main_v48 main_v74
  let main_v76 : IVec S256 32 := iotaInDim S256 32 0
  let main_v77 : IVec S2x256x13456 32 := shapeCast S2x256x13456 main_arg1 shapeCasts_S2x3444736_S2x256x13456
  let main_v78 : FVec F S256x13456 .f32 := shapeCast S256x13456 main_arg2 shapeCasts_S3444736_S256x13456
  let main_v79 : IVec S2x256x6670 32 := (extractStridedSlice S2x256x6670 ![0, 0, 0] · slices_S2x256x13456_S2x256x6670_0_0_0) main_v77
  let main_v80 : IVec S1x256x1 32 := broadcastInDim S1x256x1 ![1] bcast_S256_S1x256x1_1 main_v76
  let main_c_24 : IVec S_ 32 := constantI S_ 32 116#32
  let main_v81 : IVec S1x256x1 32 := broadcastInDim S1x256x1 ![] bcast_S_S1x256x1 main_c_24
  let main_v82 : IVec S1x256x1 32 := muli main_v81 main_v80
  let main_v83 : IVec S2x256x6670 32 := broadcastInDim S2x256x6670 ![0, 1, 2] bcast_S1x256x1_S2x256x6670_0_1_2 main_v82
  let main_v84 : IVec S2x256x6670 32 := subi main_v79 main_v83
  let main_v85 : IVec S2x1707520 32 := shapeCast S2x1707520 main_v84 shapeCasts_S2x256x6670_S2x1707520
  let main_v86 : IVec S2x256x6670 32 := (extractStridedSlice S2x256x6670 ![0, 0, 6670] · slices_S2x256x13456_S2x256x6670_0_0_6670) main_v77
  let main_c_25 : IVec S_ 32 := constantI S_ 32 1#32
  let main_v87 : IVec S256 32 := broadcastInDim S256 ![] bcast_S_S256 main_c_25
  let main_v88 : IVec S256 32 := addi main_v76 main_v87
  let main_v89 : IVec S1x256x1 32 := broadcastInDim S1x256x1 ![1] bcast_S256_S1x256x1_1 main_v88
  let main_c_26 : IVec S_ 32 := constantI S_ 32 116#32
  let main_v90 : IVec S1x256x1 32 := broadcastInDim S1x256x1 ![] bcast_S_S1x256x1 main_c_26
  fn_part5 (F := F) main_v75 main_v78 main_v85 main_v86 main_v89 main_v90

def fn_part3 {F : FTy → Type} [FloatOps F] (main_arg1 : IVec S2x3444736 32) (main_arg2 : FVec F S3444736 .f32) (main_v48 : IVec S_ 1) (main_v49 : IVec S2x256x13456 32) (main_v50 : IVec S256 32) (main_c_18 : IVec S_ 32) : IVec S_ 1 :=
  let main_v51 : IVec S256 32 := broadcastInDim S256 ![] bcast_S_S256 main_c_18
  let main_v52 : IVec S256 32 := muli main_v51 main_v50
  let main_v53 : IVec S1x256x1 32 := broadcastInDim S1x256x1 ![1] bcast_S256_S1x256x1_1 main_v52
  let main_v54 : IVec S2x256x6670 32 := (extractStridedSlice S2x256x6670 ![0, 0, 0] · slices_S2x256x13456_S2x256x6670_0_0_0) main_v49
  let main_v55 : IVec S2x256x6670 32 := (extractStridedSlice S2x256x6670 ![0, 0, 6670] · slices_S2x256x13456_S2x256x6670_0_0_6670) main_v49
  let main_v56 : IVec S2x256x6670 32 := broadcastInDim S2x256x6670 ![0, 1, 2] bcast_S1x256x1_S2x256x6670_0_1_2 main_v53
  let main_v57 : IVec S2x256x6670 1 := cmpi .sge main_v54 main_v56
  let main_c_19 : IVec S_ 32 := constantI S_ 32 116#32
  let main_v58 : IVec S1x256x1 32 := broadcastInDim S1x256x1 ![] bcast_S_S1x256x1 main_c_19
  let main_v59 : IVec S1x256x1 32 := addi main_v53 main_v58
  let main_v60 : IVec S2x256x6670 32 := broadcastInDim S2x256x6670 ![0, 1, 2] bcast_S1x256x1_S2x256x6670_0_1_2 main_v59
  let main_v61 : IVec S2x256x6670 1 := cmpi .slt main_v54 main_v60
  let main_v62 : IVec S2x256x6670 1 := andi main_v57 main_v61
  let main_c_20 : IVec S_ 1 := constantI S_ 1 1#1
  let main_v63 : IVec S_ 1 := (fun x v => Host.reduce IntOp.andi x v reducesTo_S2x256x6670_S_d0_1_2 h_S_) main_v62 main_c_20
  let main_c_21 : IVec S_ 32 := constantI S_ 32 116#32
  let main_v64 : IVec S1x256x1 32 := broadcastInDim S1x256x1 ![] bcast_S_S1x256x1 main_c_21
  let main_v65 : IVec S1x256x1 32 := addi main_v53 main_v64
  let main_v66 : IVec S2x256x6670 32 := broadcastInDim S2x256x6670 ![0, 1, 2] bcast_S1x256x1_S2x256x6670_0_1_2 main_v65
  let main_v67 : IVec S2x256x6670 1 := cmpi .sge main_v55 main_v66
  let main_c_22 : IVec S_ 32 := constantI S_ 32 232#32
  let main_v68 : IVec S1x256x1 32 := broadcastInDim S1x256x1 ![] bcast_S_S1x256x1 main_c_22
  let main_v69 : IVec S1x256x1 32 := addi main_v53 main_v68
  let main_v70 : IVec S2x256x6670 32 := broadcastInDim S2x256x6670 ![0, 1, 2] bcast_S1x256x1_S2x256x6670_0_1_2 main_v69
  fn_part4 (F := F) main_arg1 main_arg2 main_v48 main_v55 main_v63 main_v67 main_v70

def fn_part2 {F : FTy → Type} [FloatOps F] (main_arg1 : IVec S2x3444736 32) (main_arg2 : FVec F S3444736 .f32) (main_arg9 : FVec F S512 .f32) (main_arg10 : FVec F S512x1 .f32) (main_arg11 : FVec F S1 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg10
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S2x256x13456 32 := shapeCast S2x256x13456 main_arg1 shapeCasts_S2x3444736_S2x256x13456
  let main_v50 : IVec S256 32 := iotaInDim S256 32 0
  let main_c_18 : IVec S_ 32 := constantI S_ 32 232#32
  fn_part3 (F := F) main_arg1 main_arg2 main_v48 main_v49 main_v50 main_c_18

def fn_part1 {F : FTy → Type} [FloatOps F] (main_arg1 : IVec S2x3444736 32) (main_arg2 : FVec F S3444736 .f32) (main_arg6 : FVec F S115x128 .f32) (main_arg7 : FVec F S128 .f32) (main_arg8 : FVec F S232x512 .f32) (main_arg9 : FVec F S512 .f32) (main_arg10 : FVec F S512x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S115x128 .f32 := Host.absf main_arg6
  let main_cst_6 : FVec F S_ .f32 := constant S_ .f32 0x7F800000#32
  let main_v20 : FVec F S115x128 .f32 := broadcastInDim S115x128 ![] bcast_S_S115x128 main_cst_6
  let main_v21 : IVec S115x128 1 := cmpf .olt main_v19 main_v20
  let main_c_7 : IVec S_ 1 := constantI S_ 1 1#1
  let main_v22 : IVec S_ 1 := (fun x v => Host.reduce IntOp.andi x v reducesTo_S115x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S232x512 .f32 := Host.absf main_arg8
  let main_cst_10 : FVec F S_ .f32 := constant S_ .f32 0x7F800000#32
  let main_v30 : FVec F S232x512 .f32 := broadcastInDim S232x512 ![] bcast_S_S232x512 main_cst_10
  let main_v31 : IVec S232x512 1 := cmpf .olt main_v29 main_v30
  let main_c_11 : IVec S_ 1 := constantI S_ 1 1#1
  let main_v32 : IVec S_ 1 := (fun x v => Host.reduce IntOp.andi x v reducesTo_S232x512_S_d0_1 h_S_) main_v31 main_c_11
  let main_v33 : IVec S_ 1 := andi main_v28 main_v32
  fn_part2 (F := F) main_arg1 main_arg2 main_arg9 main_arg10 main_arg11 main_v33

def fn {F : FTy → Type} [FloatOps F] (main_arg0 : FVec F S59392x115 .f32) (main_arg1 : IVec S2x3444736 32) (main_arg2 : FVec F S3444736 .f32) (main_arg3 : IVec S59392 32) (main_arg4 : FVec F S115x128 .f32) (main_arg5 : FVec F S128 .f32) (main_arg6 : FVec F S115x128 .f32) (main_arg7 : FVec F S128 .f32) (main_arg8 : FVec F S232x512 .f32) (main_arg9 : FVec F S512 .f32) (main_arg10 : FVec F S512x1 .f32) (main_arg11 : FVec F S1 .f32) : IVec S_ 1 :=
  let main_v0 : FVec F S59392x115 .f32 := Host.absf main_arg0
  let main_cst : FVec F S_ .f32 := constant S_ .f32 0x7F800000#32
  let main_v1 : FVec F S59392x115 .f32 := broadcastInDim S59392x115 ![] bcast_S_S59392x115 main_cst
  let main_v2 : IVec S59392x115 1 := cmpf .olt main_v0 main_v1
  let main_c : IVec S_ 1 := constantI S_ 1 1#1
  let main_v3 : IVec S_ 1 := (fun x v => Host.reduce IntOp.andi x v reducesTo_S59392x115_S_d0_1 h_S_) main_v2 main_c
  let main_v4 : FVec F S3444736 .f32 := Host.absf main_arg2
  let main_cst_0 : FVec F S_ .f32 := constant S_ .f32 0x7F800000#32
  let main_v5 : FVec F S3444736 .f32 := broadcastInDim S3444736 ![] bcast_S_S3444736 main_cst_0
  let main_v6 : IVec S3444736 1 := cmpf .olt main_v4 main_v5
  let main_c_1 : IVec S_ 1 := constantI S_ 1 1#1
  let main_v7 : IVec S_ 1 := (fun x v => Host.reduce IntOp.andi x v reducesTo_S3444736_S_d0 h_S_) main_v6 main_c_1
  let main_v8 : IVec S_ 1 := andi main_v3 main_v7
  let main_v9 : FVec F S115x128 .f32 := Host.absf main_arg4
  let main_cst_2 : FVec F S_ .f32 := constant S_ .f32 0x7F800000#32
  let main_v10 : FVec F S115x128 .f32 := broadcastInDim S115x128 ![] bcast_S_S115x128 main_cst_2
  let main_v11 : IVec S115x128 1 := cmpf .olt main_v9 main_v10
  let main_c_3 : IVec S_ 1 := constantI S_ 1 1#1
  let main_v12 : IVec S_ 1 := (fun x v => Host.reduce IntOp.andi x v reducesTo_S115x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_arg9 main_arg10 main_arg11 main_v13 main_v16
-- ==== Kernel.lean ====
abbrev S59392x115 : Shape := ⟨2, ![59392, 115]⟩
abbrev S2x3444736 : Shape := ⟨2, ![2, 3444736]⟩
abbrev S3444736 : Shape := ⟨1, ![3444736]⟩
abbrev S59392 : Shape := ⟨1, ![59392]⟩
abbrev S115x128 : Shape := ⟨2, ![115, 128]⟩
abbrev S128 : Shape := ⟨1, ![128]⟩
abbrev S232x512 : Shape := ⟨2, ![232, 512]⟩
abbrev S512 : Shape := ⟨1, ![512]⟩
abbrev S512x1 : Shape := ⟨2, ![512, 1]⟩
abbrev S1 : Shape := ⟨1, ![1]⟩
abbrev S256 : Shape := ⟨1, ![256]⟩
abbrev S_ : Shape := ⟨0, ![]⟩
abbrev S2x256x13456 : Shape := ⟨3, ![2, 256, 13456]⟩
abbrev S256x13456 : Shape := ⟨2, ![256, 13456]⟩
abbrev S2x256x6670 : Shape := ⟨3, ![2, 256, 6670]⟩
abbrev S1x256x1 : Shape := ⟨3, ![1, 256, 1]⟩
abbrev S256x6670 : Shape := ⟨2, ![256, 6670]⟩
abbrev S2x256x6784 : Shape := ⟨3, ![2, 256, 6784]⟩
abbrev S256x6784 : Shape := ⟨2, ![256, 6784]⟩
abbrev S1x256x6784 : Shape := ⟨3, ![1, 256, 6784]⟩
abbrev S256x1x6784 : Shape := ⟨3, ![256, 1, 6784]⟩
abbrev S256x232x115 : Shape := ⟨3, ![256, 232, 115]⟩
abbrev S256x116x115 : Shape := ⟨3, ![256, 116, 115]⟩
abbrev S256x128x128 : Shape := ⟨3, ![256, 128, 128]⟩
abbrev S128x128 : Shape := ⟨2, ![128, 128]⟩
abbrev S1x128 : Shape := ⟨2, ![1, 128]⟩
abbrev S256x1x128 : Shape := ⟨3, ![256, 1, 128]⟩
abbrev S1x128x128 : Shape := ⟨3, ![1, 128, 128]⟩
abbrev S1x1x6784 : Shape := ⟨3, ![1, 1, 6784]⟩
abbrev S1x1x128 : Shape := ⟨3, ![1, 1, 128]⟩
abbrev S1x6784 : Shape := ⟨2, ![1, 6784]⟩
abbrev S128x6784 : Shape := ⟨2, ![128, 6784]⟩
abbrev S128x1 : Shape := ⟨2, ![128, 1]⟩
abbrev S256x1x116 : Shape := ⟨3, ![256, 1, 116]⟩
abbrev S256x116 : Shape := ⟨2, ![256, 116]⟩
abbrev S256x116x1 : Shape := ⟨3, ![256, 116, 1]⟩
abbrev S256x116x2 : Shape := ⟨3, ![256, 116, 2]⟩
abbrev S256x232 : Shape := ⟨2, ![256, 232]⟩
abbrev S256x256 : Shape := ⟨2, ![256, 256]⟩
abbrev S256x512 : Shape := ⟨2, ![256, 512]⟩
abbrev S1x512 : Shape := ⟨2, ![1, 512]⟩
abbrev S512x128 : Shape := ⟨2, ![512, 128]⟩
abbrev S1x1 : Shape := ⟨2, ![1, 1]⟩
abbrev S256x128 : Shape := ⟨2, ![256, 128]⟩
abbrev S256x1 : Shape := ⟨2, ![256, 1]⟩

abbrev nBuf : Space → Nat
  | .hbm => 100
  | .vmem => 30
  | .smem => 0
  | _ => 0

abbrev bufTy : (tb : Table) → Fin (tcTables nBuf tb) → BufTy
  | .hbm, ⟨0, _⟩ => ⟨S59392x115, .f32⟩
  | .hbm, ⟨1, _⟩ => ⟨S2x3444736, .i32⟩
  | .hbm, ⟨2, _⟩ => ⟨S3444736, .f32⟩
  | .hbm, ⟨3, _⟩ => ⟨S59392, .i32⟩
  | .hbm, ⟨4, _⟩ => ⟨S115x128, .f32⟩
  | .hbm, ⟨5, _⟩ => ⟨S128, .f32⟩
  | .hbm, ⟨6, _⟩ => ⟨S115x128, .f32⟩
  | .hbm, ⟨7, _⟩ => ⟨S128, .f32⟩
  | .hbm, ⟨8, _⟩ => ⟨S232x512, .f32⟩
  | .hbm, ⟨9, _⟩ => ⟨S512, .f32⟩
  | .hbm, ⟨10, _⟩ => ⟨S512x1, .f32⟩
  | .hbm, ⟨11, _⟩ => ⟨S1, .f32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S2x256x13456, .i32⟩
  | .hbm, ⟨17, _⟩ => ⟨S256x13456, .f32⟩
  | .hbm, ⟨18, _⟩ => ⟨S2x256x6670, .i32⟩
  | .hbm, ⟨19, _⟩ => ⟨S1x256x1, .i32⟩
  | .hbm, ⟨20, _⟩ => ⟨S2x256x6670, .i32⟩
  | .hbm, ⟨21, _⟩ => ⟨S2x256x6670, .i32⟩
  | .hbm, ⟨22, _⟩ => ⟨S2x256x6670, .i32⟩
  | .hbm, ⟨23, _⟩ => ⟨S1x256x1, .i32⟩
  | .hbm, ⟨24, _⟩ => ⟨S2x256x6670, .i32⟩
  | .hbm, ⟨25, _⟩ => ⟨S2x256x6670, .i32⟩
  | .hbm, ⟨26, _⟩ => ⟨S_, .i32⟩
  | .hbm, ⟨27, _⟩ => ⟨S2x256x6670, .i32⟩
  | .hbm, ⟨28, _⟩ => ⟨S2x256x6670, .i32⟩
  | .hbm, ⟨29, _⟩ => ⟨S256x6670, .f32⟩
  | .hbm, ⟨30, _⟩ => ⟨S256x6670, .f32⟩
  | .hbm, ⟨31, _⟩ => ⟨S_, .i32⟩
  | .hbm, ⟨32, _⟩ => ⟨S_, .i32⟩
  | .hbm, ⟨33, _⟩ => ⟨S2x256x6784, .i32⟩
  | .hbm, ⟨34, _⟩ => ⟨S_, .i32⟩
  | .hbm, ⟨35, _⟩ => ⟨S_, .i32⟩
  | .hbm, ⟨36, _⟩ => ⟨S2x256x6784, .i32⟩
  | .hbm, ⟨37, _⟩ => ⟨S_, .i32⟩
  | .hbm, ⟨38, _⟩ => ⟨S_, .f32⟩
  | .hbm, ⟨39, _⟩ => ⟨S256x6784, .f32⟩
  | .hbm, ⟨40, _⟩ => ⟨S_, .i32⟩
  | .hbm, ⟨41, _⟩ => ⟨S_, .f32⟩
  | .hbm, ⟨42, _⟩ => ⟨S256x6784, .f32⟩
  | .hbm, ⟨43, _⟩ => ⟨S1x256x6784, .i32⟩
  | .hbm, ⟨44, _⟩ => ⟨S256x6784, .i32⟩
  | .hbm, ⟨45, _⟩ => ⟨S256x1x6784, .i32⟩
  | .hbm, ⟨46, _⟩ => ⟨S1x256x6784, .i32⟩
  | .hbm, ⟨47, _⟩ => ⟨S256x6784, .i32⟩
  | .hbm, ⟨48, _⟩ => ⟨S256x1x6784, .i32⟩
  | .hbm, ⟨49, _⟩ => ⟨S1x256x6784, .i32⟩
  | .hbm, ⟨50, _⟩ => ⟨S256x6784, .i32⟩
  | .hbm, ⟨51, _⟩ => ⟨S256x1x6784, .i32⟩
  | .hbm, ⟨52, _⟩ => ⟨S1x256x6784, .i32⟩
  | .hbm, ⟨53, _⟩ => ⟨S256x6784, .i32⟩
  | .hbm, ⟨54, _⟩ => ⟨S256x1x6784, .i32⟩
  | .hbm, ⟨55, _⟩ => ⟨S256x1x6784, .f32⟩
  | .hbm, ⟨56, _⟩ => ⟨S256x1x6784, .f32⟩
  | .hbm, ⟨57, _⟩ => ⟨S256x232x115, .f32⟩
  | .hbm, ⟨58, _⟩ => ⟨S256x116x115, .f32⟩
  | .hbm, ⟨59, _⟩ => ⟨S256x116x115, .f32⟩
  | .hbm, ⟨60, _⟩ => ⟨S_, .i32⟩
  | .hbm, ⟨61, _⟩ => ⟨S_, .f32⟩
  | .hbm, ⟨62, _⟩ => ⟨S256x128x128, .f32⟩
  | .hbm, ⟨63, _⟩ => ⟨S_, .i32⟩
  | .hbm, ⟨64, _⟩ => ⟨S_, .f32⟩
  | .hbm, ⟨65, _⟩ => ⟨S256x128x128, .f32⟩
  | .hbm, ⟨66, _⟩ => ⟨S_, .i32⟩
  | .hbm, ⟨67, _⟩ => ⟨S_, .f32⟩
  | .hbm, ⟨68, _⟩ => ⟨S128x128, .f32⟩
  | .hbm, ⟨69, _⟩ => ⟨S_, .i32⟩
  | .hbm, ⟨70, _⟩ => ⟨S_, .f32⟩
  | .hbm, ⟨71, _⟩ => ⟨S128x128, .f32⟩
  | .hbm, ⟨72, _⟩ => ⟨S1x128, .f32⟩
  | .hbm, ⟨73, _⟩ => ⟨S1x128, .f32⟩
  | .hbm, ⟨74, _⟩ => ⟨S256x1x128, .f32⟩
  | .hbm, ⟨75, _⟩ => ⟨S256x1x128, .f32⟩
  | .hbm, ⟨76, _⟩ => ⟨S256x1x116, .f32⟩
  | .hbm, ⟨77, _⟩ => ⟨S256x116, .f32⟩
  | .hbm, ⟨78, _⟩ => ⟨S256x1x116, .f32⟩
  | .hbm, ⟨79, _⟩ => ⟨S256x116, .f32⟩
  | .hbm, ⟨80, _⟩ => ⟨S256x116x1, .f32⟩
  | .hbm, ⟨81, _⟩ => ⟨S256x116x1, .f32⟩
  | .hbm, ⟨82, _⟩ => ⟨S256x116x2, .f32⟩
  | .hbm, ⟨83, _⟩ => ⟨S256x232, .f32⟩
  | .hbm, ⟨84, _⟩ => ⟨S_, .i32⟩
  | .hbm, ⟨85, _⟩ => ⟨S_, .f32⟩
  | .hbm, ⟨86, _⟩ => ⟨S256x256, .f32⟩
  | .hbm, ⟨87, _⟩ => ⟨S_, .i32⟩
  | .hbm, ⟨88, _⟩ => ⟨S_, .f32⟩
  | .hbm, ⟨89, _⟩ => ⟨S256x512, .f32⟩
  | .hbm, ⟨90, _⟩ => ⟨S1x512, .f32⟩
  | .hbm, ⟨91, _⟩ => ⟨S_, .i32⟩
  | .hbm, ⟨92, _⟩ => ⟨S_, .f32⟩
  | .hbm, ⟨93, _⟩ => ⟨S512x128, .f32⟩
  | .hbm, ⟨94, _⟩ => ⟨S1x1, .f32⟩
  | .hbm, ⟨95, _⟩ => ⟨S_, .i32⟩
  | .hbm, ⟨96, _⟩ => ⟨S_, .f32⟩
  | .hbm, ⟨97, _⟩ => ⟨S1x128, .f32⟩
  | .hbm, ⟨98, _⟩ => ⟨S256x128, .f32⟩
  | .hbm, ⟨99, _⟩ => ⟨S256x1, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x1x6784, .i32⟩
  | .local _ .vmem, ⟨5, _⟩ => ⟨S1x1x6784, .i32⟩
  | .local _ .vmem, ⟨6, _⟩ => ⟨S1x1x6784, .i32⟩
  | .local _ .vmem, ⟨7, _⟩ => ⟨S1x1x6784, .i32⟩
  | .local _ .vmem, ⟨8, _⟩ => ⟨S1x1x6784, .f32⟩
  | .local _ .vmem, ⟨9, _⟩ => ⟨S1x1x6784, .f32⟩
  | .local _ .vmem, ⟨10, _⟩ => ⟨S1x1x6784, .i32⟩
  | .local _ .vmem, ⟨11, _⟩ => ⟨S1x1x6784, .i32⟩
  | .local _ .vmem, ⟨12, _⟩ => ⟨S1x1x6784, .i32⟩
  | .local _ .vmem, ⟨13, _⟩ => ⟨S1x1x6784, .i32⟩
  | .local _ .vmem, ⟨14, _⟩ => ⟨S1x1x6784, .f32⟩
  | .local _ .vmem, ⟨15, _⟩ => ⟨S1x1x6784, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S256x256, .f32⟩
  | .local _ .vmem, ⟨25, _⟩ => ⟨S256x512, .f32⟩
  | .local _ .vmem, ⟨26, _⟩ => ⟨S1x512, .f32⟩
  | .local _ .vmem, ⟨27, _⟩ => ⟨S512x128, .f32⟩
  | .local _ .vmem, ⟨28, _⟩ => ⟨S1x128, .f32⟩
  | .local _ .vmem, ⟨29, _⟩ => ⟨S256x128, .f32⟩
  | _, _ => ⟨S59392x115, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_call0_v0 : Ref sig .tc := ⟨.hbm, 32, rfl⟩
abbrev main_v17 : Ref sig .tc := ⟨.hbm, 33, rfl⟩
abbrev main_c_2 : Ref sig .tc := ⟨.hbm, 34, rfl⟩
abbrev main_call1_v0 : Ref sig .tc := ⟨.hbm, 35, rfl⟩
abbrev main_v18 : Ref sig .tc := ⟨.hbm, 36, rfl⟩
abbrev main_c_3 : Ref sig .tc := ⟨.hbm, 37, rfl⟩
abbrev main_call2_v0 : Ref sig .tc := ⟨.hbm, 38, rfl⟩
abbrev main_v19 : Ref sig .tc := ⟨.hbm, 39, rfl⟩
abbrev main_c_4 : Ref sig .tc := ⟨.hbm, 40, rfl⟩
abbrev main_call3_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_call4_v0 : Ref sig .tc := ⟨.hbm, 61, rfl⟩
abbrev main_v38 : Ref sig .tc := ⟨.hbm, 62, rfl⟩
abbrev main_c_6 : Ref sig .tc := ⟨.hbm, 63, rfl⟩
abbrev main_call5_v0 : Ref sig .tc := ⟨.hbm, 64, rfl⟩
abbrev main_v39 : Ref sig .tc := ⟨.hbm, 65, rfl⟩
abbrev main_c_7 : Ref sig .tc := ⟨.hbm, 66, rfl⟩
abbrev main_call6_v0 : Ref sig .tc := ⟨.hbm, 67, rfl⟩
abbrev main_v40 : Ref sig .tc := ⟨.hbm, 68, rfl⟩
abbrev main_c_8 : Ref sig .tc := ⟨.hbm, 69, rfl⟩
abbrev main_call7_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44_0 : Ref sig .tc := ⟨.hbm, 74, rfl⟩
abbrev main_v44_1 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_9 : Ref sig .tc := ⟨.hbm, 84, rfl⟩
abbrev main_call8_v0 : Ref sig .tc := ⟨.hbm, 85, rfl⟩
abbrev main_v53 : Ref sig .tc := ⟨.hbm, 86, rfl⟩
abbrev main_c_10 : Ref sig .tc := ⟨.hbm, 87, rfl⟩
abbrev main_call9_v0 : Ref sig .tc := ⟨.hbm, 88, rfl⟩
abbrev main_v54 : Ref sig .tc := ⟨.hbm, 89, rfl⟩
abbrev main_v55 : Ref sig .tc := ⟨.hbm, 90, rfl⟩
abbrev main_c_11 : Ref sig .tc := ⟨.hbm, 91, rfl⟩
abbrev main_call10_v0 : Ref sig .tc := ⟨.hbm, 92, rfl⟩
abbrev main_v56 : Ref sig .tc := ⟨.hbm, 93, rfl⟩
abbrev main_v57 : Ref sig .tc := ⟨.hbm, 94, rfl⟩
abbrev main_c_12 : Ref sig .tc := ⟨.hbm, 95, rfl⟩
abbrev main_call11_v0 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc1_stg0_0 : Ref sig .tc := ⟨.vmem, 24, rfl⟩
abbrev cc1_stg1_0 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc1_sem0_0 : DmaSem sig := 24
abbrev cc1_sem1_0 : DmaSem sig := 25
abbrev cc1_sem2_0 : DmaSem sig := 26
abbrev cc1_sem3_0 : DmaSem sig := 27
abbrev cc1_sem4_0 : DmaSem sig := 28
abbrev cc1_sem5_0 : DmaSem sig := 29

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6784 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6784 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6784 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6784 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6784 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x6784 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S256 : S_.BroadcastsInDim S256 (![] : Fin 0 → Fin S256.rank)
  shapeCasts_S2x3444736_S2x256x13456 : S2x3444736.ShapeCasts S2x256x13456
  shapeCasts_S3444736_S256x13456 : S3444736.ShapeCasts S256x13456
  slices_S2x256x13456_S2x256x6670_0_0_0 : S2x256x13456.Slices ![0, 0, 0] S2x256x6670
  bcast_S256_S1x256x1_1 : S256.BroadcastsInDim S1x256x1 (![1] : Fin 1 → Fin S1x256x1.rank)
  bcast_S1x256x1_S2x256x6670_0_1_2 : S1x256x1.BroadcastsInDim S2x256x6670 (![0, 1, 2] : Fin 3 → Fin S2x256x6670.rank)
  slices_S2x256x13456_S2x256x6670_0_0_6670 : S2x256x13456.Slices ![0, 0, 6670] S2x256x6670
  bcast_S_S2x256x6670 : S_.BroadcastsInDim S2x256x6670 (![] : Fin 0 → Fin S2x256x6670.rank)
  slices_S256x13456_S256x6670_0_0 : S256x13456.Slices ![0, 0] S256x6670
  slices_S256x13456_S256x6670_0_6670 : S256x13456.Slices ![0, 6670] S256x6670
  pads_S2x256x6670_S2x256x6784_000_000_01140 : S2x256x6670.Pads (![0, 0, 0] : Fin 3 → Nat) ![0, 0, 114] ![0, 0, 0] S2x256x6784
  h_S_ : 0 < S_.numel
  pads_S256x6670_S256x6784_000_01140 : S256x6670.Pads (![0, 0] : Fin 2 → Nat) ![0, 114] ![0, 0] S256x6784
  slices_S2x256x6784_S1x256x6784_0_0_0 : S2x256x6784.Slices ![0, 0, 0] S1x256x6784
  shapeCasts_S1x256x6784_S256x6784 : S1x256x6784.ShapeCasts S256x6784
  bcast_S256x6784_S256x1x6784_0_2 : S256x6784.BroadcastsInDim S256x1x6784 (![0, 2] : Fin 2 → Fin S256x1x6784.rank)
  slices_S2x256x6784_S1x256x6784_1_0_0 : S2x256x6784.Slices ![1, 0, 0] S1x256x6784
  shapeCasts_S59392x115_S256x232x115 : S59392x115.ShapeCasts S256x232x115
  slices_S256x232x115_S256x116x115_0_0_0 : S256x232x115.Slices ![0, 0, 0] S256x116x115
  slices_S256x232x115_S256x116x115_0_116_0 : S256x232x115.Slices ![0, 116, 0] S256x116x115
  pads_S256x116x115_S256x128x128_000_0120_0130 : S256x116x115.Pads (![0, 0, 0] : Fin 3 → Nat) ![0, 12, 13] ![0, 0, 0] S256x128x128
  pads_S115x128_S128x128_0130_000 : S115x128.Pads (![0, 0] : Fin 2 → Nat) ![13, 0] ![0, 0] S128x128
  shapeCasts_S128_S1x128 : S128.ShapeCasts S1x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x6784_S1x1x6784_0_0_0 : ∀ a, (![0, 0, 0] : Fin 3 → Nat) a + S1x1x6784.size a ≤ S1x1x6784.size a
  h_S1x1x6784 : 0 < S1x1x6784.numel
  shapeCasts_S1x1x6784_S1x6784 : S1x1x6784.ShapeCasts S1x6784
  iota_S128x6784_d0_w32 : S128x6784.Iotas .tc 32 [0]
  broadcasts_S1x6784_S128x6784 : S1x6784.Broadcasts S128x6784
  natLt_1_32 : 1 < 32
  reduces_S128x128_S128 : S128x128.Reduces [1] S128
  shapeCasts_S128_S128x1 : S128.ShapeCasts S128x1
  broadcasts_S128x1_S128x128 : S128x1.Broadcasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  transposes_S128x1_p1_0_S1x128 : S128x1.Transposes [1, 0] S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S256x1x128_S256x1x116_0_0_0 : S256x1x128.Slices ![0, 0, 0] S256x1x116
  shapeCasts_S256x1x116_S256x116 : S256x1x116.ShapeCasts S256x116
  bcast_S256x116_S256x116x1_0_1 : S256x116.BroadcastsInDim S256x116x1 (![0, 1] : Fin 2 → Fin S256x116x1.rank)
  concatenates_S256x116x1_S256x116x1_S256x116x2_d2 : Shape.Concatenates [S256x116x1, S256x116x1] S256x116x2 2
  shapeCasts_S256x116x2_S256x232 : S256x116x2.ShapeCasts S256x232
  pads_S256x232_S256x256_000_0240 : S256x232.Pads (![0, 0] : Fin 2 → Nat) ![0, 24] ![0, 0] S256x256
  pads_S232x512_S256x512_0240_000 : S232x512.Pads (![0, 0] : Fin 2 → Nat) ![24, 0] ![0, 0] S256x512
  shapeCasts_S512_S1x512 : S512.ShapeCasts S1x512
  pads_S512x1_S512x128_000_01270 : S512x1.Pads (![0, 0] : Fin 2 → Nat) ![0, 127] ![0, 0] S512x128
  shapeCasts_S1_S1x1 : S1.ShapeCasts S1x1
  pads_S1x1_S1x128_000_01270 : S1x1.Pads (![0, 0] : Fin 2 → Nat) ![0, 127] ![0, 0] S1x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S256x128 : S1x128.Broadcasts S256x128
  inb_S256x128_S256x128_0_0 : ∀ a, (![0, 0] : Fin 2 → Nat) a + S256x128.size a ≤ S256x128.size a
  h_S256x128 : 0 < S256x128.numel
  slices_S256x128_S256x1_0_0 : S256x128.Slices ![0, 0] S256x1
  dot_S128x128_S128x128_S128x128_1_0_0_1_n_n_wf : DotDims.WF S128x128 S128x128 S128x128 [1] [0] [0] [1] [] []
  dot_S128x6784_S128x6784_S128x128_1_1_0_0_n_n_wf : DotDims.WF S128x6784 S128x6784 S128x128 [1] [1] [0] [0] [] []
  dot_S256x256_S256x512_S256x512_1_0_0_1_n_n_wf : DotDims.WF S256x256 S256x512 S256x512 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S256x128x128.size a
  hwx0_0 : ∀ i : grid0.Coords, EltTy.bits .f32 = 32 ∨ (Rect.block (s := S256x128x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S256x128x128.size a
  hwx0_1 : ∀ i : grid0.Coords, EltTy.bits .f32 = 32 ∨ (Rect.block (s := S256x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x6784.size a ≤ S256x1x6784.size a
  hwx0_2 : ∀ i : grid0.Coords, EltTy.bits .i32 = 32 ∨ (Rect.block (s := S256x1x6784) S1x1x6784.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x6784.size a ≤ S256x1x6784.size a
  hwx0_3 : ∀ i : grid0.Coords, EltTy.bits .i32 = 32 ∨ (Rect.block (s := S256x1x6784) S1x1x6784.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x6784.size a ≤ S256x1x6784.size a
  hwx0_4 : ∀ i : grid0.Coords, EltTy.bits .f32 = 32 ∨ (Rect.block (s := S256x1x6784) S1x1x6784.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x6784.size a ≤ S256x1x6784.size a
  hwx0_5 : ∀ i : grid0.Coords, EltTy.bits .i32 = 32 ∨ (Rect.block (s := S256x1x6784) S1x1x6784.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x6784.size a ≤ S256x1x6784.size a
  hwx0_6 : ∀ i : grid0.Coords, EltTy.bits .i32 = 32 ∨ (Rect.block (s := S256x1x6784) S1x1x6784.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x6784.size a ≤ S256x1x6784.size a
  hwx0_7 : ∀ i : grid0.Coords, EltTy.bits .f32 = 32 ∨ (Rect.block (s := S256x1x6784) S1x1x6784.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x128.size a ≤ S256x1x128.size a
  hwx0_12 : ∀ i : grid0.Coords, EltTy.bits .f32 = 32 ∨ (Rect.block (s := S256x1x128) S1x1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x128.size a ≤ S256x1x128.size a
  hwx0_13 : ∀ i : grid0.Coords, EltTy.bits .f32 = 32 ∨ (Rect.block (s := S256x1x128) S1x1x128.size (cc0_transform_13 i) (hinb0_13 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x256.size a
  hwx1_0 : ∀ i : grid1.Coords, EltTy.bits .f32 = 32 ∨ (Rect.block (s := S256x256) S256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x6784_S128x6784_S128x128_1_1_0_0_n_n : DotDims S128x6784 S128x6784 S128x128 where
  lhsContracting := [1]
  rhsContracting := [1]
  lhsNonContracting := [0]
  rhsNonContracting := [0]
  lhsBatch := []
  rhsBatch := []
  wf := dot_S128x6784_S128x6784_S128x128_1_1_0_0_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v38) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x6784.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x1x6784.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x1x6784.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x1x6784.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x1x6784.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x1x6784.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v40) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v44_0) S1x1x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v44_1) S1x1x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v53) S256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v54) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S256x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S59392x115 : Shape := ⟨2, ![59392, 115]⟩
abbrev S2x3444736 : Shape := ⟨2, ![2, 3444736]⟩
abbrev S3444736 : Shape := ⟨1, ![3444736]⟩
abbrev S59392 : Shape := ⟨1, ![59392]⟩
abbrev S115x128 : Shape := ⟨2, ![115, 128]⟩
abbrev S128 : Shape := ⟨1, ![128]⟩
abbrev S232x512 : Shape := ⟨2, ![232, 512]⟩
abbrev S512 : Shape := ⟨1, ![512]⟩
abbrev S512x1 : Shape := ⟨2, ![512, 1]⟩
abbrev S1 : Shape := ⟨1, ![1]⟩
abbrev S256 : Shape := ⟨1, ![256]⟩
abbrev S2x256x13456 : Shape := ⟨3, ![2, 256, 13456]⟩
abbrev S256x13456 : Shape := ⟨2, ![256, 13456]⟩
abbrev S2x256x6670 : Shape := ⟨3, ![2, 256, 6670]⟩
abbrev S1x256x1 : Shape := ⟨3, ![1, 256, 1]⟩
abbrev S_ : Shape := ⟨0, ![]⟩
abbrev S2x1707520 : Shape := ⟨2, ![2, 1707520]⟩
abbrev S256x6670 : Shape := ⟨2, ![256, 6670]⟩
abbrev S1707520 : Shape := ⟨1, ![1707520]⟩
abbrev S256x232x115 : Shape := ⟨3, ![256, 232, 115]⟩
abbrev S256x116x115 : Shape := ⟨3, ![256, 116, 115]⟩
abbrev S29696x115 : Shape := ⟨2, ![29696, 115]⟩
abbrev S29696x128 : Shape := ⟨2, ![29696, 128]⟩
abbrev S1x1707520 : Shape := ⟨2, ![1, 1707520]⟩
abbrev S29696 : Shape := ⟨1, ![29696]⟩
abbrev S1707520x1 : Shape := ⟨2, ![1707520, 1]⟩
abbrev S1707520x128 : Shape := ⟨2, ![1707520, 128]⟩
abbrev S29696x1 : Shape := ⟨2, ![29696, 1]⟩
abbrev S1x128 : Shape := ⟨2, ![1, 128]⟩
abbrev S29696x2 : Shape := ⟨2, ![29696, 2]⟩
abbrev S256x232 : Shape := ⟨2, ![256, 232]⟩
abbrev S256x512 : Shape := ⟨2, ![256, 512]⟩
abbrev S1x512 : Shape := ⟨2, ![1, 512]⟩
abbrev S256x1 : Shape := ⟨2, ![256, 1]⟩
abbrev S1x1 : Shape := ⟨2, ![1, 1]⟩

abbrev nBuf : Space → Nat
  | .hbm => 176
  | .vmem => 0
  | .smem => 0
  | _ => 0

abbrev hbmTy0_0 (i : Nat) : BufTy := match i % 128 with
  | 0 => ⟨S59392x115, .f32⟩
  | 1 => ⟨S2x3444736, .i32⟩
  | 2 => ⟨S3444736, .f32⟩
  | 3 => ⟨S59392, .i32⟩
  | 4 => ⟨S115x128, .f32⟩
  | 5 => ⟨S128, .f32⟩
  | 6 => ⟨S115x128, .f32⟩
  | 7 => ⟨S128, .f32⟩
  | 8 => ⟨S232x512, .f32⟩
  | 9 => ⟨S512, .f32⟩
  | 10 => ⟨S512x1, .f32⟩
  | 11 => ⟨S1, .f32⟩
  | 12 => ⟨S256, .i32⟩
  | 13 => ⟨S2x256x13456, .i32⟩
  | 14 => ⟨S256x13456, .f32⟩
  | 15 => ⟨S2x256x6670, .i32⟩
  | 16 => ⟨S1x256x1, .i32⟩
  | 17 => ⟨S_, .i32⟩
  | 18 => ⟨S1x256x1, .i32⟩
  | 19 => ⟨S1x256x1, .i32⟩
  | 20 => ⟨S2x256x6670, .i32⟩
  | 21 => ⟨S2x256x6670, .i32⟩
  | 22 => ⟨S2x1707520, .i32⟩
  | 23 => ⟨S2x256x6670, .i32⟩
  | 24 => ⟨S_, .i32⟩
  | 25 => ⟨S256, .i32⟩
  | 26 => ⟨S256, .i32⟩
  | 27 => ⟨S1x256x1, .i32⟩
  | 28 => ⟨S_, .i32⟩
  | 29 => ⟨S1x256x1, .i32⟩
  | 30 => ⟨S1x256x1, .i32⟩
  | 31 => ⟨S2x256x6670, .i32⟩
  | 32 => ⟨S2x256x6670, .i32⟩
  | 33 => ⟨S2x1707520, .i32⟩
  | 34 => ⟨S256x6670, .f32⟩
  | 35 => ⟨S1707520, .f32⟩
  | 36 => ⟨S256x6670, .f32⟩
  | 37 => ⟨S1707520, .f32⟩
  | 38 => ⟨S256x232x115, .f32⟩
  | 39 => ⟨S256x116x115, .f32⟩
  | 40 => ⟨S29696x115, .f32⟩
  | 41 => ⟨S256x116x115, .f32⟩
  | 42 => ⟨S29696x115, .f32⟩
  | 43 => ⟨S29696x128, .f32⟩
  | 44 => ⟨S1x1707520, .i32⟩
  | 45 => ⟨S1707520, .i32⟩
  | 46 => ⟨S1x1707520, .i32⟩
  | 47 => ⟨S1707520, .i32⟩
  | 48 => ⟨S_, .f32⟩
  | 49 => ⟨S29696, .f32⟩
  | 50 => ⟨S1707520x1, .i32⟩
  | 51 => ⟨S29696, .f32⟩
  | 52 => ⟨S_, .f32⟩
  | 53 => ⟨S29696, .f32⟩
  | 54 => ⟨S29696, .f32⟩
  | 55 => ⟨S29696, .f32⟩
  | 56 => ⟨S_, .i32⟩
  | 57 => ⟨S1707520, .i32⟩
  | 58 => ⟨S1707520, .i1⟩
  | 59 => ⟨S_, .i32⟩
  | 60 => ⟨S1707520, .i32⟩
  | 61 => ⟨S1707520, .i32⟩
  | 62 => ⟨S1707520, .i32⟩
  | 63 => ⟨S1707520x1, .i32⟩
  | 64 => ⟨S1707520, .f32⟩
  | 65 => ⟨S1707520, .f32⟩
  | 66 => ⟨S_, .i32⟩
  | 67 => ⟨S1707520, .i32⟩
  | 68 => ⟨S1707520, .i1⟩
  | 69 => ⟨S_, .i32⟩
  | 70 => ⟨S1707520, .i32⟩
  | 71 => ⟨S1707520, .i32⟩
  | 72 => ⟨S1707520, .i32⟩
  | 73 => ⟨S1707520x1, .i32⟩
  | 74 => ⟨S1707520, .f32⟩
  | 75 => ⟨S1707520, .f32⟩
  | 76 => ⟨S_, .i32⟩
  | 77 => ⟨S1707520, .i32⟩
  | 78 => ⟨S1707520, .i1⟩
  | 79 => ⟨S_, .i32⟩
  | 80 => ⟨S1707520, .i32⟩
  | 81 => ⟨S1707520, .i32⟩
  | 82 => ⟨S1707520, .i32⟩
  | 83 => ⟨S1707520x1, .i32⟩
  | 84 => ⟨S1707520x128, .f32⟩
  | 85 => ⟨S1707520x1, .f32⟩
  | 86 => ⟨S1707520x128, .f32⟩
  | 87 => ⟨S1707520x128, .f32⟩
  | 88 => ⟨S_, .f32⟩
  | 89 => ⟨S29696x128, .f32⟩
  | 90 => ⟨S1707520x1, .i32⟩
  | 91 => ⟨S29696x128, .f32⟩
  | 92 => ⟨S29696, .f32⟩
  | 93 => ⟨S29696x1, .f32⟩
  | 94 => ⟨S29696x128, .f32⟩
  | 95 => ⟨S29696x128, .f32⟩
  | 96 => ⟨S29696x128, .f32⟩
  | 97 => ⟨S1x128, .f32⟩
  | 98 => ⟨S29696x128, .f32⟩
  | 99 => ⟨S29696x128, .f32⟩
  | 100 => ⟨S_, .f32⟩
  | 101 => ⟨S29696, .f32⟩
  | 102 => ⟨S29696x128, .f32⟩
  | 103 => ⟨S1x1707520, .i32⟩
  | 104 => ⟨S1707520, .i32⟩
  | 105 => ⟨S1x1707520, .i32⟩
  | 106 => ⟨S1707520, .i32⟩
  | 107 => ⟨S_, .f32⟩
  | 108 => ⟨S29696, .f32⟩
  | 109 => ⟨S1707520x1, .i32⟩
  | 110 => ⟨S29696, .f32⟩
  | 111 => ⟨S_, .f32⟩
  | 112 => ⟨S29696, .f32⟩
  | 113 => ⟨S29696, .f32⟩
  | 114 => ⟨S29696, .f32⟩
  | 115 => ⟨S_, .i32⟩
  | 116 => ⟨S1707520, .i32⟩
  | 117 => ⟨S1707520, .i1⟩
  | 118 => ⟨S_, .i32⟩
  | 119 => ⟨S1707520, .i32⟩
  | 120 => ⟨S1707520, .i32⟩
  | 121 => ⟨S1707520, .i32⟩
  | 122 => ⟨S1707520x1, .i32⟩
  | 123 => ⟨S1707520, .f32⟩
  | 124 => ⟨S1707520, .f32⟩
  | 125 => ⟨S_, .i32⟩
  | 126 => ⟨S1707520, .i32⟩
  | 127 => ⟨S1707520, .i1⟩
  | _ => ⟨S59392x115, .f32⟩

abbrev hbmTy0_1 (i : Nat) : BufTy := match i % 128 with
  | 0 => ⟨S_, .i32⟩
  | 1 => ⟨S1707520, .i32⟩
  | 2 => ⟨S1707520, .i32⟩
  | 3 => ⟨S1707520, .i32⟩
  | 4 => ⟨S1707520x1, .i32⟩
  | 5 => ⟨S1707520, .f32⟩
  | 6 => ⟨S1707520, .f32⟩
  | 7 => ⟨S_, .i32⟩
  | 8 => ⟨S1707520, .i32⟩
  | 9 => ⟨S1707520, .i1⟩
  | 10 => ⟨S_, .i32⟩
  | 11 => ⟨S1707520, .i32⟩
  | 12 => ⟨S1707520, .i32⟩
  | 13 => ⟨S1707520, .i32⟩
  | 14 => ⟨S1707520x1, .i32⟩
  | 15 => ⟨S1707520x128, .f32⟩
  | 16 => ⟨S1707520x1, .f32⟩
  | 17 => ⟨S1707520x128, .f32⟩
  | 18 => ⟨S1707520x128, .f32⟩
  | 19 => ⟨S_, .f32⟩
  | 20 => ⟨S29696x128, .f32⟩
  | 21 => ⟨S1707520x1, .i32⟩
  | 22 => ⟨S29696x128, .f32⟩
  | 23 => ⟨S29696, .f32⟩
  | 24 => ⟨S29696x1, .f32⟩
  | 25 => ⟨S29696x128, .f32⟩
  | 26 => ⟨S29696x128, .f32⟩
  | 27 => ⟨S29696x128, .f32⟩
  | 28 => ⟨S1x128, .f32⟩
  | 29 => ⟨S29696x128, .f32⟩
  | 30 => ⟨S29696x128, .f32⟩
  | 31 => ⟨S_, .f32⟩
  | 32 => ⟨S29696, .f32⟩
  | 33 => ⟨S29696x1, .f32⟩
  | 34 => ⟨S29696x1, .f32⟩
  | 35 => ⟨S29696x2, .f32⟩
  | 36 => ⟨S256x232, .f32⟩
  | 37 => ⟨S256x512, .f32⟩
  | 38 => ⟨S1x512, .f32⟩
  | 39 => ⟨S256x512, .f32⟩
  | 40 => ⟨S256x512, .f32⟩
  | 41 => ⟨S_, .f32⟩
  | 42 => ⟨S256x512, .f32⟩
  | 43 => ⟨S256x512, .f32⟩
  | 44 => ⟨S256x1, .f32⟩
  | 45 => ⟨S1x1, .f32⟩
  | 46 => ⟨S256x1, .f32⟩
  | 47 => ⟨S256x1, .f32⟩
  | _ => ⟨S59392x115, .f32⟩

abbrev hbmTy (i : Nat) : BufTy := match i / 128 with
  | 0 => hbmTy0_0 i
  | 1 => hbmTy0_1 i
  | _ => ⟨S59392x115, .f32⟩

abbrev bufTy : (tb : Table) → Fin (tcTables nBuf tb) → BufTy
  | .hbm, ⟨i, _⟩ => hbmTy i
  | _, _ => ⟨S59392x115, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_3 : Ref sig .tc := ⟨.hbm, 56, rfl⟩
abbrev main_v39 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_7 : Ref sig .tc := ⟨.hbm, 76, rfl⟩
abbrev main_v55 : Ref sig .tc := ⟨.hbm, 77, rfl⟩
abbrev main_v56 : Ref sig .tc := ⟨.hbm, 78, rfl⟩
abbrev main_c_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_10 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_11 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_13 : Ref sig .tc := ⟨.hbm, 115, rfl⟩
abbrev main_v88 : Ref sig .tc := ⟨.hbm, 116, rfl⟩
abbrev main_v89 : Ref sig .tc := ⟨.hbm, 117, rfl⟩
abbrev main_c_14 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_15 : Ref sig .tc := ⟨.hbm, 125, rfl⟩
abbrev main_v96 : Ref sig .tc := ⟨.hbm, 126, rfl⟩
abbrev main_v97 : Ref sig .tc := ⟨.hbm, 127, rfl⟩
abbrev main_c_16 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_17 : Ref sig .tc := ⟨.hbm, 135, rfl⟩
abbrev main_v104 : Ref sig .tc := ⟨.hbm, 136, rfl⟩
abbrev main_v105 : Ref sig .tc := ⟨.hbm, 137, rfl⟩
abbrev main_c_18 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_19 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_20 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_call0_cst : Ref sig .tc := ⟨.hbm, 169, rfl⟩
abbrev main_call0_v0 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩

abbrev nD : Nat := 1
abbrev τ : Topo := Topo.v7x

variable {F : FTy → Type} [FloatOps F]

class Facts₀ : Prop where
  shapeCasts_S2x3444736_S2x256x13456 : S2x3444736.ShapeCasts S2x256x13456
  shapeCasts_S3444736_S256x13456 : S3444736.ShapeCasts S256x13456
  slices_S2x256x13456_S2x256x6670_0_0_0 : S2x256x13456.Slices ![0, 0, 0] S2x256x6670
  bcast_S256_S1x256x1_1 : S256.BroadcastsInDim S1x256x1 (![1] : Fin 1 → Fin S1x256x1.rank)
  bcast_S_S1x256x1 : S_.BroadcastsInDim S1x256x1 (![] : Fin 0 → Fin S1x256x1.rank)
  bcast_S1x256x1_S2x256x6670_0_1_2 : S1x256x1.BroadcastsInDim S2x256x6670 (![0, 1, 2] : Fin 3 → Fin S2x256x6670.rank)
  shapeCasts_S2x256x6670_S2x1707520 : S2x256x6670.ShapeCasts S2x1707520
  slices_S2x256x13456_S2x256x6670_0_0_6670 : S2x256x13456.Slices ![0, 0, 6670] S2x256x6670
  bcast_S_S256 : S_.BroadcastsInDim S256 (![] : Fin 0 → Fin S256.rank)
  slices_S256x13456_S256x6670_0_0 : S256x13456.Slices ![0, 0] S256x6670
  shapeCasts_S256x6670_S1707520 : S256x6670.ShapeCasts S1707520
  slices_S256x13456_S256x6670_0_6670 : S256x13456.Slices ![0, 6670] S256x6670
  shapeCasts_S59392x115_S256x232x115 : S59392x115.ShapeCasts S256x232x115
  slices_S256x232x115_S256x116x115_0_0_0 : S256x232x115.Slices ![0, 0, 0] S256x116x115
  shapeCasts_S256x116x115_S29696x115 : S256x116x115.ShapeCasts S29696x115
  slices_S256x232x115_S256x116x115_0_116_0 : S256x232x115.Slices ![0, 116, 0] S256x116x115
  slices_S2x1707520_S1x1707520_0_0 : S2x1707520.Slices ![0, 0] S1x1707520
  shapeCasts_S1x1707520_S1707520 : S1x1707520.ShapeCasts S1707520
  slices_S2x1707520_S1x1707520_1_0 : S2x1707520.Slices ![1, 0] S1x1707520
  bcast_S_S29696 : S_.BroadcastsInDim S29696 (![] : Fin 0 → Fin S29696.rank)
  bcast_S1707520_S1707520x1_0 : S1707520.BroadcastsInDim S1707520x1 (![0] : Fin 1 → Fin S1707520x1.rank)
  bcast_S_S1707520 : S_.BroadcastsInDim S1707520 (![] : Fin 0 → Fin S1707520.rank)
  bcast_S1707520x1_S1707520x128_0_1 : S1707520x1.BroadcastsInDim S1707520x128 (![0, 1] : Fin 2 → Fin S1707520x128.rank)
  bcast_S_S29696x128 : S_.BroadcastsInDim S29696x128 (![] : Fin 0 → Fin S29696x128.rank)
  bcast_S29696_S29696x1_0 : S29696.BroadcastsInDim S29696x1 (![0] : Fin 1 → Fin S29696x1.rank)
  bcast_S29696x1_S29696x128_0_1 : S29696x1.BroadcastsInDim S29696x128 (![0, 1] : Fin 2 → Fin S29696x128.rank)
  bcast_S128_S1x128_1 : S128.BroadcastsInDim S1x128 (![1] : Fin 1 → Fin S1x128.rank)
  bcast_S1x128_S29696x128_0_1 : S1x128.BroadcastsInDim S29696x128 (![0, 1] : Fin 2 → Fin S29696x128.rank)
  reducesTo_S29696x128_S29696_d1 : S29696x128.ReducesTo [1] S29696
  h_S_ : 0 < S_.numel
  concatenates_S29696x1_S29696x1_S29696x2_d1 : Shape.Concatenates [S29696x1, S29696x1] S29696x2 1
  shapeCasts_S29696x2_S256x232 : S29696x2.ShapeCasts S256x232
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S29696x115_S115x128_S29696x128_1_0_0_1_n_n_wf : DotDims.WF S29696x115 S115x128 S29696x128 [1] [0] [0] [1] [] []
  scatter_S29696_S1707520x1_S1707520_n_0_0_1_wf : ScatterDims.WF S29696 S1707520x1 S1707520 [] [0] [0] 1
  gather_S29696_S1707520x1_S1707520_n_0_n_n_0_1_1_wf : GatherDims.WF S29696 S1707520x1 S1707520 [] [0] [] [0] [] 1 ![1]
  gather_S29696x128_S1707520x1_S1707520x128_1_0_n_n_0_1_1128_wf : GatherDims.WF S29696x128 S1707520x1 S1707520x128 [1] [0] [] [0] [] 1 ![1, 128]
  scatter_S29696x128_S1707520x1_S1707520x128_1_0_0_1_wf : ScatterDims.WF S29696x128 S1707520x1 S1707520x128 [1] [0] [0] 1
  dot_S256x232_S232x512_S256x512_1_0_0_1_n_n_wf : DotDims.WF S256x232 S232x512 S256x512 [1] [0] [0] [1] [] []
  dot_S256x512_S512x1_S256x1_1_0_0_1_n_n_wf : DotDims.WF S256x512 S512x1 S256x1 [1] [0] [0] [1] [] []

variable [Facts₀]

def dot_S29696x115_S115x128_S29696x128_1_0_0_1_n_n : DotDims S29696x115 S115x128 S29696x128 where
  lhsContracting := [1]
  rhsContracting := [0]
  lhsNonContracting := [0]
  rhsNonContracting := [1]
  lhsBatch := []
  rhsBatch := []
  wf := dot_S29696x115_S115x128_S29696x128_1_0_0_1_n_n_wf
def scatter_S29696_S1707520x1_S1707520_n_0_0_1 : ScatterDims S29696 S1707520x1 S1707520 where
  updateWindowDims := []
  insertedWindowDims := [0]
  scatterDimsToOperandDims := [0]
  indexVectorDim := 1
  wf := scatter_S29696_S1707520x1_S1707520_n_0_0_1_wf
def gather_S29696_S1707520x1_S1707520_n_0_n_n_0_1_1 : GatherDims S29696 S1707520x1 S1707520 where
  offsetDims := []
  collapsedSliceDims := [0]
  operandBatchingDims := []
  startIndicesBatchingDims := []
  startIndexMap := [0]
  indexVectorDim := 1
  sliceSizes := ![1]
  wf := gather_S29696_S1707520x1_S1707520_n_0_n_n_0_1_1_wf
def gather_S29696x128_S1707520x1_S1707520x128_1_0_n_n_0_1_1128 : GatherDims S29696x128 S1707520x1 S1707520x128 where
  offsetDims := [1]
  collapsedSliceDims := [0]
  operandBatchingDims := []
  startIndicesBatchingDims := []
  startIndexMap := [0]
  indexVectorDim := 1
  sliceSizes := ![1, 128]
  wf := gather_S29696x128_S1707520x1_S1707520x128_1_0_n_n_0_1_1128_wf
def scatter_S29696x128_S1707520x1_S1707520x128_1_0_0_1 : ScatterDims S29696x128 S1707520x1 S1707520x128 where
  updateWindowDims := [1]
  insertedWindowDims := [0]
  scatterDimsToOperandDims := [0]
  indexVectorDim := 1
  wf := scatter_S29696x128_S1707520x1_S1707520x128_1_0_0_1_wf
def dot_S256x232_S232x512_S256x512_1_0_0_1_n_n : DotDims S256x232 S232x512 S256x512 where
  lhsContracting := [1]
  rhsContracting := [0]
  lhsNonContracting := [0]
  rhsNonContracting := [1]
  lhsBatch := []
  rhsBatch := []
  wf := dot_S256x232_S232x512_S256x512_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf

class Facts : Prop extends Facts₀ where

variable [Facts]
-- ==== Proof.Spec.lean ====
/-
  THE SPECIFICATION both programs meet, over the extended reals, as functions of the argument arrays.

  The input holds 256 graphs. Graph `g` owns rows `[232 g, 232 g + 232)` of the node table `X`: the first 116 are its
  first view's nodes, the next 116 its second view's. Its edge columns are `[13456 g, 13456 g + 13456)` of the edge
  table: 6670 edges of the first view, then 6670 of the second, then 116 that are never read. An edge's two
  endpoints are node rows of `X` (`InBlock`: they lie in the edge's own graph and view).

  Per view and graph: `h = x · W`; the degree of a node is one plus the weights of the edges that end there; with
  `dinv = deg ^ (-1/2)` the convolution at node `n` and channel `c` is the sum over the edges `e` ending at `n` of
  `h (src e) c · (dinv (src e) · w e · dinv n)`, plus `dinv n ² · h n c`, plus the bias; the node's pooled value is the
  maximum over the channels. The two views' pooled values are interleaved (node-major) into 232 features per graph,
  which go through `relu (feat · W6 + b6) · W7 + b7`.

  `adj`, `degP`, `convP`, `poolP` state the same convolution in its dense arrangement on one graph's zero-padded data:
  the adjacency matrix as a sum of products of indicator rows, the aggregation as two matrix products.
-/
import Idealize.ShloMosaic.Lib.ValueIdx
import Idealize.ShloMosaic.PureOps.Ideal

noncomputable section

open scoped BigOperators

namespace Cert.Spec

open Idealize.ShloMosaic Idealize.ShloMosaic.ValueIdx

abbrev SX : Shape := ⟨2, ![59392, 115]⟩
abbrev SEI : Shape := ⟨2, ![2, 3444736]⟩
abbrev SEW : Shape := ⟨1, ![3444736]⟩
abbrev SW : Shape := ⟨2, ![115, 128]⟩
abbrev Sb : Shape := ⟨1, ![128]⟩
abbrev SW6 : Shape := ⟨2, ![232, 512]⟩
abbrev Sb6 : Shape := ⟨1, ![512]⟩
abbrev SW7 : Shape := ⟨2, ![512, 1]⟩
abbrev Sb7 : Shape := ⟨1, ![1]⟩
abbrev SRes : Shape := ⟨2, ![256, 1]⟩

/-- Every entry is a real number. -/
def Finite {S : Shape} (x : S.Idx → EReal) : Prop := ∀ i, ∃ r : ℝ, x i = (r : EReal)

/-! ## One graph's view, in the input's numbering -/

/-- Row of the node table of node `n` of view `v` of graph `g`. -/
def xrow (v : Fin 2) (g : Fin 256) (n : Fin 116) : Fin 59392 :=
  ⟨232 * g.val + 116 * v.val + n.val, by have := g.isLt; have := v.isLt; have := n.isLt; omega⟩

/-- Column of the edge table of edge `e` of view `v` of graph `g`. -/
def ecol (v : Fin 2) (g : Fin 256) (e : Fin 6670) : Fin 3444736 :=
  ⟨13456 * g.val + 6670 * v.val + e.val, by have := g.isLt; have := v.isLt; have := e.isLt; omega⟩

/-- The first node row of view `v` of graph `g`. -/
def base (v : Fin 2) (g : Fin 256) : Int := 232 * (g.val : Int) + 116 * (v.val : Int)

section Edges
variable (EI : SEI.Idx → BitVec 32) (EW : SEW.Idx → EReal)

/-- An edge's source and destination words, and its weight. -/
def srcW (v : Fin 2) (g : Fin 256) (e : Fin 6670) : BitVec 32 := EI (ix2 0 (ecol v g e))
def dstW (v : Fin 2) (g : Fin 256) (e : Fin 6670) : BitVec 32 := EI (ix2 1 (ecol v g e))
def wgt (v : Fin 2) (g : Fin 256) (e : Fin 6670) : EReal := EW (ix1 (ecol v g e))

/-- Every edge joins two nodes of its own graph's own view. -/
def InBlock : Prop := ∀ (v : Fin 2) (g : Fin 256) (e : Fin 6670),
  (base v g ≤ (srcW EI v g e).toInt ∧ (srcW EI v g e).toInt < base v g + 116)
  ∧ (base v g ≤ (dstW EI v g e).toInt ∧ (dstW EI v g e).toInt < base v g + 116)

/-- An edge's endpoints as nodes of its view (total; the node itself under `InBlock`). -/
def lsrc (v : Fin 2) (g : Fin 256) (e : Fin 6670) : Fin 116 :=
  ⟨((srcW EI v g e).toInt - base v g).toNat % 116, Nat.mod_lt _ (by decide)⟩
def ldst (v : Fin 2) (g : Fin 256) (e : Fin 6670) : Fin 116 :=
  ⟨((dstW EI v g e).toInt - base v g).toNat % 116, Nat.mod_lt _ (by decide)⟩

/-- A node's degree: the weights of the edges ending there, plus one for its self-loop. -/
def deg (v : Fin 2) (g : Fin 256) (n : Fin 116) : EReal :=
  (∑ e ∈ Finset.univ.filter (fun e : Fin 6670 => ldst EI v g e = n), wgt EW v g e) + 1

def dinv (v : Fin 2) (g : Fin 256) (n : Fin 116) : EReal := Ideal.rsqrt (deg EI EW v g n)

end Edges

section Conv
variable (X : SX.Idx → EReal) (EI : SEI.Idx → BitVec 32) (EW : SEW.Idx → EReal)
  (W : SW.Idx → EReal) (b : Sb.Idx → EReal)

/-- The projected features `x · W` of a node. -/
def hfeat (v : Fin 2) (g : Fin 256) (n : Fin 116) (c : Fin 128) : EReal :=
  ∑ f : Fin 115, X (ix2 (xrow v g n) f) * W (ix2 f c)

/-- The normalised graph convolution at a node and channel. -/
def conv (v : Fin 2) (g : Fin 256) (n : Fin 116) (c : Fin 128) : EReal :=
  ((∑ e ∈ Finset.univ.filter (fun e : Fin 6670 => ldst EI v g e = n),
      hfeat X W v g (lsrc EI v g e) c * ((dinv EI EW v g (lsrc EI v g e) * wgt EW v g e) * dinv EI EW v g n))
    + (dinv EI EW v g n * dinv EI EW v g n) * hfeat X W v g n c)
  + b (ix1 c)

/-- A node's pooled value: the maximum of its convolution over the channels. -/
def pool (v : Fin 2) (g : Fin 256) (n : Fin 116) : EReal :=
  (Finset.univ : Finset (Fin 128)).fold max ⊥ (fun c => conv X EI EW W b v g n c)

end Conv

section Net
variable (X : SX.Idx → EReal) (EI : SEI.Idx → BitVec 32) (EW : SEW.Idx → EReal)
  (W1 : SW.Idx → EReal) (b1 : Sb.Idx → EReal) (W2 : SW.Idx → EReal) (b2 : Sb.Idx → EReal)
  (W6 : SW6.Idx → EReal) (b6 : Sb6.Idx → EReal) (W7 : SW7.Idx → EReal) (b7 : Sb7.Idx → EReal)

/-- Graph `g`'s 232 features: node `j / 2`'s pooled value in view `j % 2`. -/
def feat (g : Fin 256) (j : Fin 232) : EReal :=
  if j.val % 2 = 0 then pool X EI EW W1 b1 0 g ⟨j.val / 2, by have := j.isLt; omega⟩
  else pool X EI EW W2 b2 1 g ⟨j.val / 2, by have := j.isLt; omega⟩

def hid (g : Fin 256) (k : Fin 512) : EReal :=
  max ((∑ j : Fin 232, feat X EI EW W1 b1 W2 b2 g j * W6 (ix2 j k)) + b6 (ix1 k)) 0

def res (g : Fin 256) : EReal :=
  (∑ k : Fin 512, hid X EI EW W1 b1 W2 b2 W6 b6 g k * W7 (ix2 k 0)) + b7 (ix1 0)

/-- The result array `[256, 1]`. -/
def result : SRes.Idx → EReal := fun i => res X EI EW W1 b1 W2 b2 W6 b6 W7 b7 ⟨(i 0).val, (i 0).isLt⟩

/-- What the precondition gives: every float input finite, the edges inside their blocks, the degrees positive. -/
structure Good : Prop where
  fX : Finite X
  fEW : Finite EW
  fW1 : Finite W1
  fb1 : Finite b1
  fW2 : Finite W2
  fb2 : Finite b2
  fW6 : Finite W6
  fb6 : Finite b6
  fW7 : Finite W7
  fb7 : Finite b7
  inBlock : InBlock EI
  degPos : ∀ (v : Fin 2) (g : Fin 256) (n : Fin 116), 0 < deg EI EW v g n

end Net

/-! ## The dense arrangement on one graph's zero-padded data -/

section Dense
variable (xp : Fin 128 → Fin 128 → EReal) (Wp : Fin 128 → Fin 128 → EReal)
  (s d : Fin 6784 → BitVec 32) (w : Fin 6784 → EReal) (bp : Fin 128 → EReal)

/-- The indicator that the word `x` names node `n`. -/
def oneHot (x : BitVec 32) (n : Fin 128) : EReal := if x.toInt = (n.val : Int) then 1 else 0

/-- The weighted adjacency matrix, rows the destinations, columns the sources. -/
def adj (n n' : Fin 128) : EReal := ∑ e : Fin 6784, (oneHot (d e) n * w e) * oneHot (s e) n'

def hP (n c : Fin 128) : EReal := ∑ f : Fin 128, xp n f * Wp f c

def degP (n : Fin 128) : EReal := (∑ n' : Fin 128, adj s d w n n') + 1

def dinvP (n : Fin 128) : EReal := Ideal.rsqrt (degP s d w n)

def convP (n c : Fin 128) : EReal :=
  ((dinvP s d w n * ∑ n' : Fin 128, adj s d w n n' * (dinvP s d w n' * hP xp Wp n' c))
    + (dinvP s d w n * dinvP s d w n) * hP xp Wp n c)
  + bp c

def poolP (n : Fin 128) : EReal :=
  (Finset.univ : Finset (Fin 128)).fold max ⊥ (fun c => convP xp Wp s d w bp n c)

end Dense

end Cert.Spec

end
-- ==== Proof.KArgs.lean ====
/-
  The kernel program's argument arrays, as plain functions of their indices, and its buffers' contents at the four
  places the value of the run is read: when the first kernel starts, when it has ended, when the second kernel
  starts, and at the return.
-/
import proofs.«409833_j29446295781426_1_alg».proof.Proof.Gen.KernelIdeal.Frame
import proofs.«409833_j29446295781426_1_alg».proof.Proof.Spec

noncomputable section

namespace Cert.KernelIdeal.KV

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- The argument arrays. -/
abbrev aX : Cert.Spec.SX.Idx → EReal := m ((c : Thread nD τ).loc main_arg0)
abbrev aEI : Cert.Spec.SEI.Idx → BitVec 32 := m ((c : Thread nD τ).loc main_arg1)
abbrev aEW : Cert.Spec.SEW.Idx → EReal := m ((c : Thread nD τ).loc main_arg2)
abbrev aW1 : Cert.Spec.SW.Idx → EReal := m ((c : Thread nD τ).loc main_arg4)
abbrev ab1 : Cert.Spec.Sb.Idx → EReal := m ((c : Thread nD τ).loc main_arg5)
abbrev aW2 : Cert.Spec.SW.Idx → EReal := m ((c : Thread nD τ).loc main_arg6)
abbrev ab2 : Cert.Spec.Sb.Idx → EReal := m ((c : Thread nD τ).loc main_arg7)
abbrev aW6 : Cert.Spec.SW6.Idx → EReal := m ((c : Thread nD τ).loc main_arg8)
abbrev ab6 : Cert.Spec.Sb6.Idx → EReal := m ((c : Thread nD τ).loc main_arg9)
abbrev aW7 : Cert.Spec.SW7.Idx → EReal := m ((c : Thread nD τ).loc main_arg10)
abbrev ab7 : Cert.Spec.Sb7.Idx → EReal := m ((c : Thread nD τ).loc main_arg11)

/-! ## The first kernel's operands when it starts -/

abbrev nodeFc : S256x128x128.Idx → EReal := W17 (F := Ideal) m ρ c (Proc.devRef .tc main_v38)
abbrev nodeSc : S256x128x128.Idx → EReal := W17 (F := Ideal) m ρ c (Proc.devRef .tc main_v39)
abbrev srcFc : S256x1x6784.Idx → BitVec 32 := W17 (F := Ideal) m ρ c (Proc.devRef .tc main_v23)
abbrev dstFc : S256x1x6784.Idx → BitVec 32 := W17 (F := Ideal) m ρ c (Proc.devRef .tc main_v26)
abbrev wFc : S256x1x6784.Idx → EReal := W17 (F := Ideal) m ρ c (Proc.devRef .tc main_v33)
abbrev srcSc : S256x1x6784.Idx → BitVec 32 := W17 (F := Ideal) m ρ c (Proc.devRef .tc main_v29)
abbrev dstSc : S256x1x6784.Idx → BitVec 32 := W17 (F := Ideal) m ρ c (Proc.devRef .tc main_v32)
abbrev wSc : S256x1x6784.Idx → EReal := W17 (F := Ideal) m ρ c (Proc.devRef .tc main_v34)
abbrev w1p : S128x128.Idx → EReal := W17 (F := Ideal) m ρ c (Proc.devRef .tc main_v40)
abbrev b1r : S1x128.Idx → EReal := W17 (F := Ideal) m ρ c (Proc.devRef .tc main_v42)
abbrev w2p : S128x128.Idx → EReal := W17 (F := Ideal) m ρ c (Proc.devRef .tc main_v41)
abbrev b2r : S1x128.Idx → EReal := W17 (F := Ideal) m ρ c (Proc.devRef .tc main_v43)

/-! ## Its two results when it has ended -/

abbrev pooledFc : S256x1x128.Idx → EReal := W18 (F := Ideal) m ρ c (Proc.devRef .tc main_v44_0)
abbrev pooledSc : S256x1x128.Idx → EReal := W18 (F := Ideal) m ρ c (Proc.devRef .tc main_v44_1)

/-! ## The second kernel's operands when it starts -/

abbrev featP : S256x256.Idx → EReal := W26 (F := Ideal) m ρ c (Proc.devRef .tc main_v53)
abbrev w6p : S256x512.Idx → EReal := W26 (F := Ideal) m ρ c (Proc.devRef .tc main_v54)
abbrev b6r : S1x512.Idx → EReal := W26 (F := Ideal) m ρ c (Proc.devRef .tc main_v55)
abbrev w7p : S512x128.Idx → EReal := W26 (F := Ideal) m ρ c (Proc.devRef .tc main_v56)
abbrev b7p : S1x128.Idx → EReal := W26 (F := Ideal) m ρ c (Proc.devRef .tc main_v58)

/-! ## The program's result at the return -/

abbrev resultK : S256x1.Idx → EReal := W28 (F := Ideal) m ρ c (Proc.devRef .tc main_v60)

end Cert.KernelIdeal.KV

end
-- ==== Proof.Body0Fc.lean ====
/-
  What the first kernel's body leaves in its first output block, read at a node: the dense pooled value of the
  first view's blocks.
-/
import proofs.«409833_j29446295781426_1_alg».proof.Proof.KArgs
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KV

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

private theorem hz3 : (![0, 0, 0] : Fin 3 → Nat) = fun _ => 0 := funext fun a => by fin_cases a <;> rfl
private theorem hz2 : (![0, 0] : Fin 2 → Nat) = fun _ => 0 := funext fun a => by fin_cases a <;> rfl

/-! ## Words -/

private theorem ofBits_one : Ideal.ofBits .f32 0x3F800000#32 = 1 := by
  simp [Ideal.ofBits, Ideal.ieee, -EReal.coe_mul]; norm_num

private theorem ofBits_negInf : Ideal.ofBits .f32 0xFF800000#32 = ⊥ := by
  simp [Ideal.ofBits, Ideal.ieee]

private theorem toInt_ofNat_small (a : Nat) (ha : a < 128) : (BitVec.ofNat 32 a).toInt = (a : Int) := by
  rw [BitVec.toInt_eq_toNat_cond, BitVec.toNat_ofNat]
  have h : a % 2 ^ 32 = a := Nat.mod_eq_of_lt (by omega)
  rw [h]
  split <;> omega

private theorem iota_eq_iff (a : Fin 128) (x : BitVec 32) : BitVec.ofNat 32 a.val = x ↔ x.toInt = (a.val : Int) := by
  constructor
  · rintro rfl; exact toInt_ofNat_small a.val a.isLt
  · intro h; exact BitVec.eq_of_toInt_eq ((toInt_ofNat_small a.val a.isLt).trans h.symm)

private theorem oneHot_word (a : Fin 128) (x : BitVec 32) :
    (FloatOps.sitofp (F := Ideal) .f32 ((IntOp.cmpi .eq (BitVec.ofNat 32 a.val) x).setWidth 32) : EReal) = Cert.Spec.oneHot x a := by
  unfold Cert.Spec.oneHot
  show ((((IntOp.cmpi .eq (BitVec.ofNat 32 a.val) x).setWidth 32).toInt : ℝ) : EReal) = _
  by_cases h : BitVec.ofNat 32 a.val = x
  · have hc : IntOp.cmpi .eq (BitVec.ofNat 32 a.val) x = 1#1 := by simp [IntOp.cmpi, h]
    rw [hc, if_pos ((iota_eq_iff a x).mp h)]
    simp
  · have hb : (BitVec.ofNat 32 a.val == x) = false := beq_eq_false_iff_ne.mpr h
    have hc : IntOp.cmpi .eq (BitVec.ofNat 32 a.val) x = 0#1 := by simp [IntOp.cmpi, hb]
    rw [hc, if_neg (fun h' => h ((iota_eq_iff a x).mpr h'))]
    simp

/-! ## The two contractions -/

private theorem lhsA_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
private theorem lhsA_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
private theorem rhsA_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
private theorem rhsA_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A product of two square blocks into the zero block, at `(r, c)`: the sum over the inner coordinate. -/
private theorem matmulA_apply {φ₁ φ₂ : FTy} (lhs : FVec Ideal S128x128 φ₁) (rhs : FVec Ideal S128x128 φ₂) (r c : Fin 128) :
    matmul dot_S128x128_S128x128_S128x128_1_0_0_1_n_n none lhs rhs (constant (F := Ideal) S128x128 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 r c) ((ValueIdx.contrEquiv1 dot_S128x128_S128x128_S128x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S128x128_S128x128_S128x128_1_0_0_1_n_n.rhsIdx (ix2 r c) ((ValueIdx.contrEquiv1 dot_S128x128_S128x128_S128x128_1_0_0_1_n_n 128 rfl rfl).symm k) = ix2 k c := funext fun a => Fin.ext (by
    match a with
    | ⟨0, _⟩ => exact (rhsA_0 _ _).trans hk
    | ⟨1, _⟩ => exact rhsA_1 _ _)
  rw [el, er]

private theorem lhsB_0 (i : S128x128.Idx) (q : dot_S128x6784_S128x6784_S128x128_1_1_0_0_n_n.contr.Idx) :
    (dot_S128x6784_S128x6784_S128x128_1_1_0_0_n_n.lhsIdx i q 0).val = (i 0).val := by
  unfold DotDims.lhsIdx
  rw [dif_neg (show ¬(0 : Fin S128x6784.rank) ∈ dot_S128x6784_S128x6784_S128x128_1_1_0_0_n_n.lhsBatch by decide), dif_pos (show (0 : Fin S128x6784.rank) ∈ dot_S128x6784_S128x6784_S128x128_1_1_0_0_n_n.lhsNonContracting by decide)]
  rfl
private theorem lhsB_1 (i : S128x128.Idx) (q : dot_S128x6784_S128x6784_S128x128_1_1_0_0_n_n.contr.Idx) :
    (dot_S128x6784_S128x6784_S128x128_1_1_0_0_n_n.lhsIdx i q 1).val = (q ⟨0, by decide⟩).val :=
  dot_S128x6784_S128x6784_S128x128_1_1_0_0_n_n.lhsIdx_val_of_single rfl i q
private theorem rhsB_0 (i : S128x128.Idx) (q : dot_S128x6784_S128x6784_S128x128_1_1_0_0_n_n.contr.Idx) :
    (dot_S128x6784_S128x6784_S128x128_1_1_0_0_n_n.rhsIdx i q 0).val = (i 1).val := by
  unfold DotDims.rhsIdx
  rw [dif_neg (show ¬(0 : Fin S128x6784.rank) ∈ dot_S128x6784_S128x6784_S128x128_1_1_0_0_n_n.rhsBatch by decide), dif_pos (show (0 : Fin S128x6784.rank) ∈ dot_S128x6784_S128x6784_S128x128_1_1_0_0_n_n.rhsNonContracting by decide)]
  rfl
private theorem rhsB_1 (i : S128x128.Idx) (q : dot_S128x6784_S128x6784_S128x128_1_1_0_0_n_n.contr.Idx) :
    (dot_S128x6784_S128x6784_S128x128_1_1_0_0_n_n.rhsIdx i q 1).val = (q ⟨0, by decide⟩).val :=
  dot_S128x6784_S128x6784_S128x128_1_1_0_0_n_n.rhsIdx_val_of_single rfl i q

/-- A product contracting the long axis of BOTH operands into the zero block, at `(r, c)`: the sum over the long
    coordinate of the left operand's row `r` times the right operand's row `c`. -/
private theorem matmulB_apply {φ₁ φ₂ : FTy} (lhs : FVec Ideal S128x6784 φ₁) (rhs : FVec Ideal S128x6784 φ₂) (r c : Fin 128) :
    matmul dot_S128x6784_S128x6784_S128x128_1_1_0_0_n_n none lhs rhs (constant (F := Ideal) S128x128 .f32 0x00000000#32) (ix2 r c)
      = ∑ e : Fin 6784, lhs (ix2 r e) * rhs (ix2 c e) := by
  simp only [matmul]
  rw [Ideal.matmul_constant_zero_apply, ← Equiv.sum_comp (ValueIdx.contrEquiv1 dot_S128x6784_S128x6784_S128x128_1_1_0_0_n_n 6784 rfl rfl).symm]
  refine Finset.sum_congr rfl fun k _ => ?_
  have hk := ValueIdx.contrEquiv1_symm_val dot_S128x6784_S128x6784_S128x128_1_1_0_0_n_n 6784 rfl rfl k
  have el : dot_S128x6784_S128x6784_S128x128_1_1_0_0_n_n.lhsIdx (ix2 r c) ((ValueIdx.contrEquiv1 dot_S128x6784_S128x6784_S128x128_1_1_0_0_n_n 6784 rfl rfl).symm k) = ix2 r k := funext fun a => Fin.ext (by
    match a with
    | ⟨0, _⟩ => exact lhsB_0 _ _
    | ⟨1, _⟩ => exact (lhsB_1 _ _).trans hk)
  have er : dot_S128x6784_S128x6784_S128x128_1_1_0_0_n_n.rhsIdx (ix2 r c) ((ValueIdx.contrEquiv1 dot_S128x6784_S128x6784_S128x128_1_1_0_0_n_n 6784 rfl rfl).symm k) = ix2 c k := funext fun a => Fin.ext (by
    match a with
    | ⟨0, _⟩ => exact rhsB_0 _ _
    | ⟨1, _⟩ => exact (rhsB_1 _ _).trans hk)
  rw [el, er]

/-! ## Layout operations at an index -/

section Layout
variable {α : Type}

/-- A `[1, 1, a]` block viewed `[1, a]` reads, at `(u, e)`, the block at `(0, 0, e)`. -/
private theorem shapeCast_11a_1a_apply {a : ℕ} (x : (⟨3, ![1, 1, a]⟩ : Shape).Idx → α)
    (h : (⟨3, ![1, 1, a]⟩ : Shape).ShapeCasts ⟨2, ![1, a]⟩) (u : Fin 1) (e : Fin a) :
    shapeCast ⟨2, ![1, a]⟩ x h (ix2 u e) = x (ix3 (0 : Fin 1) (0 : Fin 1) e) :=
  shapeCast_apply x h _ _ (by
    have hu : u.val = 0 := by omega
    rw [Shape.rowMajor_val_three, Shape.rowMajor_val_two]
    show (0 * 1 + 0) * a + e.val = u.val * a + e.val
    rw [hu, Nat.zero_mul, Nat.zero_add])

/-- A vector `[a]` viewed as the column `[a, 1]` reads, at `(i, u)`, the vector at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at `(i, 0)`. -/
private theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    rw [if_neg ha]
  | ⟨1, _⟩ => rfl

end Layout

/-! ## The two lane reductions of a square block -/

private theorem lift_row (r k : Fin 128) : reduces_S128x128_S128.lift (ix1 r) k = ix2 r k :=
  funext fun a => match a with | ⟨0, _⟩ => rfl | ⟨1, _⟩ => rfl

/-- The sum over the lanes, at row `r`. -/
private theorem rowSum_apply (src : FVec Ideal S128x128 .f32) (hφ : FKind.Formats .f32)
    (hacc : (0x00000000#32 : BitVec 32) = 0x00000000#32) (r : Fin 128) :
    multiReduction (F := Ideal) .add [1] S128 src 0x00000000#32 reduces_S128x128_S128 hφ hacc (ix1 r)
      = ∑ k : Fin 128, src (ix2 r k) := by
  refine (Ideal.multiReduction_add_single src 0x00000000#32 reduces_S128x128_S128 hφ hacc (ix1 r)).trans ?_
  show ∑ k : Fin 128, src (reduces_S128x128_S128.lift (ix1 r) k) = _
  exact Finset.sum_congr rfl fun k _ => congrArg src (lift_row r k)

/-- The maximum over the lanes from `-∞`, at row `r`. -/
private theorem rowMax_apply (src : FVec Ideal S128x128 .f32) (hφ : FKind.Formats .f32)
    (hacc : (0xFF800000#32 : BitVec 32) = 0xFF800000#32) (r : Fin 128) :
    multiReduction (F := Ideal) .maximumf [1] S128 src 0xFF800000#32 reduces_S128x128_S128 hφ hacc (ix1 r)
      = (Finset.univ : Finset (Fin 128)).fold max ⊥ (fun c => src (ix2 r c)) := by
  refine (Ideal.multiReduction_maximumf_single src 0xFF800000#32 reduces_S128x128_S128 hφ hacc (ix1 r)).trans ?_
  show (Finset.univ : Finset (Fin 128)).fold max (Ideal.ofBits .f32 0xFF800000#32) (src ∘ reduces_S128x128_S128.lift (ix1 r)) = _
  rw [ofBits_negInf]
  exact congrArg (fun f => (Finset.univ : Finset (Fin 128)).fold max ⊥ f) (funext fun k => congrArg src (lift_row r k))

/-! ## The payloads at an index -/

/-- The indicator block of a row of words: at `(a, e)`, whether word `e` names node `a`. -/
private theorem hot_apply (v : Vec Ideal S1x1x6784 .i32) (a : Fin 128) (e : Fin 6784) :
    (sitofp (F := Ideal) .f32 (extui 32 (cmpi .eq (iota .tc S128x6784 32 [0] iota_S128x6784_d0_w32)
        (broadcastTo S128x6784 (shapeCast S1x6784 v shapeCasts_S1x1x6784_S1x6784) broadcasts_S1x6784_S128x6784)) natLt_1_32)) (ix2 a e)
      = Cert.Spec.oneHot (v (ix3 0 0 e)) a := by
  rw [sitofp_apply, extui_apply]
  show FloatOps.sitofp (F := Ideal) .f32 ((IntOp.cmpi .eq (iota .tc S128x6784 32 [0] iota_S128x6784_d0_w32 (ix2 a e))
    (broadcastTo S128x6784 (shapeCast S1x6784 v shapeCasts_S1x1x6784_S1x6784) broadcasts_S1x6784_S128x6784 (ix2 a e))).setWidth 32) = _
  rw [iota_single_apply, broadcastTo_1b_ab_apply, shapeCast_11a_1a_apply]
  exact oneHot_word a _

/-- The projected features: the node block times the weights. -/
private theorem pay2_apply (v0 : Vec Ideal S1x128x128 .f32) (v3 : Vec Ideal S128x128 .f32) (r c : Fin 128) :
    k0_pay2 (F := Ideal) v0 v3 (ix2 r c) = ∑ f : Fin 128, v0 (ix3 0 r f) * v3 (ix2 f c) := by
  unfold k0_pay2
  refine (matmulA_apply _ _ r c).trans (Finset.sum_congr rfl fun f _ => ?_)
  rw [truncf_apply, truncf_apply, shapeCast_1ab_ab_apply, shapeCast_self]

/-- The adjacency matrix: the sum over the edges of destination indicator times weight times source indicator. -/
private theorem pay3_apply (v7 v9 : Vec Ideal S1x1x6784 .i32) (v11 : Vec Ideal S1x1x6784 .f32) (r c : Fin 128) :
    k0_pay3 (F := Ideal) v7 v9 v11 (ix2 r c)
      = ∑ e : Fin 6784, (Cert.Spec.oneHot (v9 (ix3 0 0 e)) r * v11 (ix3 0 0 e)) * Cert.Spec.oneHot (v7 (ix3 0 0 e)) c := by
  unfold k0_pay3
  refine (matmulB_apply _ _ r c).trans (Finset.sum_congr rfl fun e _ => ?_)
  rw [mulf_apply, truncf_apply, truncf_apply, hot_apply, hot_apply, broadcastTo_1b_ab_apply, truncf_apply, shapeCast_11a_1a_apply]

/-- The inverse square root of one plus the row sum of the adjacency matrix. -/
private theorem pay4_apply (v7 v9 : Vec Ideal S1x1x6784 .i32) (v11 : Vec Ideal S1x1x6784 .f32) (r : Fin 128) (u : Fin 1) :
    k0_pay4 (F := Ideal) v7 v9 v11 (ix2 r u)
      = Ideal.rsqrt ((∑ c : Fin 128, k0_pay3 (F := Ideal) v7 v9 v11 (ix2 r c)) + 1) := by
  unfold k0_pay4
  show Ideal.rsqrt (shapeCast S128x1 (multiReduction (F := Ideal) .add [1] S128 (k0_pay3 (F := Ideal) v7 v9 v11) 0x00000000#32 reduces_S128x128_S128 (.inl rfl) rfl) shapeCasts_S128_S128x1 (ix2 r u)
    + Ideal.ofBits .f32 0x3F800000#32) = _
  rw [ofBits_one, shapeCast_a_a1_apply, rowSum_apply]

/-- The aggregation: the scaled adjacency matrix times the scaled features. -/
private theorem pay5_apply (v0 : Vec Ideal S1x128x128 .f32) (v3 : Vec Ideal S128x128 .f32) (v7 v9 : Vec Ideal S1x1x6784 .i32)
    (v11 : Vec Ideal S1x1x6784 .f32) (r c : Fin 128) :
    k0_pay5 (F := Ideal) v0 v3 v7 v9 v11 (ix2 r c)
      = k0_pay4 (F := Ideal) v7 v9 v11 (ix2 r 0) * ∑ n' : Fin 128, k0_pay3 (F := Ideal) v7 v9 v11 (ix2 r n')
          * (k0_pay4 (F := Ideal) v7 v9 v11 (ix2 n' 0) * k0_pay2 (F := Ideal) v0 v3 (ix2 n' c)) := by
  unfold k0_pay5
  rw [mulf_apply, broadcastTo_a1_ab_apply (by decide), matmulA_apply]
  refine congrArg (k0_pay4 (F := Ideal) v7 v9 v11 (ix2 r 0) * ·) (Finset.sum_congr rfl fun n' _ => ?_)
  rw [truncf_apply, truncf_apply, mulf_apply, broadcastTo_a1_ab_apply (by decide)]

/-- The stored row: per node the maximum over the channels of aggregation plus self term plus bias. -/
private theorem pay6_apply (v6 : FVec Ideal S128x128 .f32) (v32 : FVec Ideal S128x1 .f32) (v39 : FVec Ideal S128x128 .f32)
    (v44 : Vec Ideal S1x128 .f32) (n : Fin 128) :
    k0_pay6 (F := Ideal) v6 v32 v39 v44 (ix3 0 0 n)
      = (Finset.univ : Finset (Fin 128)).fold max ⊥
          (fun c => (v39 (ix2 n c) + (v32 (ix2 n 0) * v32 (ix2 n 0)) * v6 (ix2 n c)) + v44 (ix2 0 c)) := by
  unfold k0_pay6
  rw [shapeCast_ab_1ab_apply, transpose_ix2_apply, shapeCast_a_a1_apply, rowMax_apply]
  refine congrArg (fun f => (Finset.univ : Finset (Fin 128)).fold max ⊥ f) (funext fun c => ?_)
  rw [addf_apply, addf_apply, mulf_apply, broadcastTo_a1_ab_apply (by decide), mulf_apply, broadcastTo_1b_ab_apply, shapeCast_self]

/-! ## The payloads as the specification's dense arrangement -/

section Dense
variable (x0 : Vec Ideal S1x128x128 .f32) (x8 : Vec Ideal S128x128 .f32) (x2 x3 : Vec Ideal S1x1x6784 .i32)
  (x4 : Vec Ideal S1x1x6784 .f32)

private theorem pay2_spec (r c : Fin 128) :
    k0_pay2 (F := Ideal) x0 x8 (ix2 r c) = Cert.Spec.hP (fun a f => x0 (ix3 0 a f)) (fun f k => x8 (ix2 f k)) r c :=
  pay2_apply x0 x8 r c

private theorem pay3_spec (r c : Fin 128) :
    k0_pay3 (F := Ideal) x2 x3 x4 (ix2 r c)
      = Cert.Spec.adj (fun e => x2 (ix3 0 0 e)) (fun e => x3 (ix3 0 0 e)) (fun e => x4 (ix3 0 0 e)) r c :=
  pay3_apply x2 x3 x4 r c

private theorem pay4_spec (r : Fin 128) (u : Fin 1) :
    k0_pay4 (F := Ideal) x2 x3 x4 (ix2 r u)
      = Cert.Spec.dinvP (fun e => x2 (ix3 0 0 e)) (fun e => x3 (ix3 0 0 e)) (fun e => x4 (ix3 0 0 e)) r := by
  rw [pay4_apply]
  unfold Cert.Spec.dinvP Cert.Spec.degP
  exact congrArg (fun t => Ideal.rsqrt (t + 1)) (Finset.sum_congr rfl fun c _ => pay3_spec x2 x3 x4 r c)

end Dense

/-- The body's first stored block at node `n`, from the blocks it loads: the dense arrangement `Spec.poolP` of the
    node block, the padded weights, the edge blocks and the bias row of the first view. -/
theorem out0_12_apply (x0 x1 : Vec Ideal S1x128x128 .f32) (x2 x3 : Vec Ideal S1x1x6784 .i32) (x4 : Vec Ideal S1x1x6784 .f32)
    (x5 x6 : Vec Ideal S1x1x6784 .i32) (x7 : Vec Ideal S1x1x6784 .f32) (x8 : Vec Ideal S128x128 .f32)
    (x9 : Vec Ideal S1x128 .f32) (x10 : Vec Ideal S128x128 .f32) (x11 : Vec Ideal S1x128 .f32) (n : Fin 128) :
    out0_12 (F := Ideal) x0 x1 x2 x3 x4 x5 x6 x7 x8 x9 x10 x11 (ix3 0 0 n)
      = Cert.Spec.poolP (fun a f => x0 (ix3 0 a f)) (fun f k => x8 (ix2 f k)) (fun e => x2 (ix3 0 0 e))
          (fun e => x3 (ix3 0 0 e)) (fun e => x4 (ix3 0 0 e)) (fun k => x9 (ix2 0 k)) n := by
  unfold out0_12
  rw [View.canon_unit_zero hz3]
  simp only [View.ld_unit_zero (S := S1x128x128) hz3, View.ld_unit_zero (S := S128x128) hz2,
    View.ld_unit_zero (S := S1x1x6784) hz3, View.ld_unit_zero (S := S1x128) hz2]
  rw [pay6_apply]
  unfold Cert.Spec.poolP
  refine congrArg (fun f => (Finset.univ : Finset (Fin 128)).fold max ⊥ f) (funext fun c => ?_)
  unfold Cert.Spec.convP
  rw [pay5_apply, pay4_spec, pay2_spec]
  refine congrArg (fun t => (Cert.Spec.dinvP (fun e => x2 (ix3 0 0 e)) (fun e => x3 (ix3 0 0 e)) (fun e => x4 (ix3 0 0 e)) n * t
      + Cert.Spec.dinvP (fun e => x2 (ix3 0 0 e)) (fun e => x3 (ix3 0 0 e)) (fun e => x4 (ix3 0 0 e)) n
        * Cert.Spec.dinvP (fun e => x2 (ix3 0 0 e)) (fun e => x3 (ix3 0 0 e)) (fun e => x4 (ix3 0 0 e)) n
        * Cert.Spec.hP (fun a f => x0 (ix3 0 a f)) (fun f k => x8 (ix2 f k)) n c) + x9 (ix2 0 c))
    (Finset.sum_congr rfl fun n' _ => ?_)
  rw [pay3_spec, pay4_spec, pay2_spec]

end Cert.KernelIdeal.KV

end
-- ==== Proof.Body0Sc.lean ====
/-
  What the first kernel's body leaves in its second output block, read at a node: the dense pooled value of the
  second view's blocks.
-/
import proofs.«409833_j29446295781426_1_alg».proof.Proof.KArgs
import Idealize.ShloMosaic.Lib.ValueLayout
import Idealize.ShloMosaic.PureOps.Ideal.Laws

noncomputable section

open scoped BigOperators

namespace Cert.KernelIdeal.KV

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## Words: the indicator of a node -/

/-- The word of a node number below 128, read as a signed integer, is that number. -/
private theorem toInt_ofNat_node (a : Fin 128) : (BitVec.ofNat 32 a.val).toInt = (a.val : Int) := by
  have h : a.val < 128 := a.isLt
  have ht : (BitVec.ofNat 32 a.val).toNat = a.val := by
    rw [BitVec.toNat_ofNat]; exact Nat.mod_eq_of_lt (by omega)
  rw [BitVec.toInt_eq_toNat_of_lt (by rw [ht]; omega), ht]

/-- A bit, widened to a word and converted to a float, is one or zero. -/
private theorem sitofp_bit (b : Bool) :
    FloatOps.sitofp (F := Ideal) .f32 ((BitVec.ofBool b).setWidth 32) = if b then (1 : EReal) else 0 := by
  cases b
  · have h0 : ((BitVec.ofBool false).setWidth 32).toInt = 0 := by decide
    show (((((BitVec.ofBool false).setWidth 32).toInt : Int) : ℝ) : EReal) = _
    rw [h0]; simp
  · have h1 : ((BitVec.ofBool true).setWidth 32).toInt = 1 := by decide
    show (((((BitVec.ofBool true).setWidth 32).toInt : Int) : ℝ) : EReal) = _
    rw [h1]; simp

/-- The compare bit of a row's number against a word, widened and converted, is the indicator that the word names
    the row. -/
private theorem oneHot_word (a : Fin 128) (x : BitVec 32) :
    FloatOps.sitofp (F := Ideal) .f32 ((IntOp.cmpi .eq (BitVec.ofNat 32 a.val) x).setWidth 32) = Cert.Spec.oneHot x a := by
  show FloatOps.sitofp (F := Ideal) .f32 ((BitVec.ofBool (BitVec.ofNat 32 a.val == x)).setWidth 32) = _
  rw [sitofp_bit]
  unfold Cert.Spec.oneHot
  by_cases hx : BitVec.ofNat 32 a.val = x
  · rw [if_pos (beq_iff_eq.mpr hx), if_pos (by rw [← hx]; exact toInt_ofNat_node a)]
  · rw [if_neg (fun h => hx (beq_iff_eq.mp h)),
      if_neg (fun h => hx (BitVec.eq_of_toInt_eq ((toInt_ofNat_node a).trans h.symm)))]

/-! ## The small payloads at an index -/

/-- The weights' shape cast reads the loaded row. -/
private theorem pay8_apply (v : Vec Ideal S1x1x6784 .f32) (e : Fin 6784) :
    k0_pay8 (F := Ideal) v (ix2 (0 : Fin 1) e) = v (ix3 (0 : Fin 1) (0 : Fin 1) e) := by
  unfold k0_pay8
  exact shapeCast_1ab_ab_apply v shapeCasts_S1x1x6784_S1x6784 (0 : Fin 1) e

/-- The source indicator at row a and edge e: the edge's source word names node a. -/
private theorem pay9_apply (v : Vec Ideal S1x1x6784 .i32) (a : Fin 128) (e : Fin 6784) :
    k0_pay9 (F := Ideal) v (ix2 a e) = Cert.Spec.oneHot (v (ix3 (0 : Fin 1) (0 : Fin 1) e)) a := by
  unfold k0_pay9
  show FloatOps.sitofp (F := Ideal) .f32 ((IntOp.cmpi .eq (iota .tc S128x6784 32 [0] iota_S128x6784_d0_w32 (ix2 a e))
      (broadcastTo S128x6784 (shapeCast S1x6784 v shapeCasts_S1x1x6784_S1x6784) broadcasts_S1x6784_S128x6784 (ix2 a e))).setWidth 32) = _
  rw [iota_single_apply, broadcastTo_1b_ab_apply, shapeCast_1ab_ab_apply]
  exact oneHot_word a _

/-- The destination indicator likewise. -/
private theorem pay10_apply (v : Vec Ideal S1x1x6784 .i32) (a : Fin 128) (e : Fin 6784) :
    k0_pay10 (F := Ideal) v (ix2 a e) = Cert.Spec.oneHot (v (ix3 (0 : Fin 1) (0 : Fin 1) e)) a := by
  unfold k0_pay10
  show FloatOps.sitofp (F := Ideal) .f32 ((IntOp.cmpi .eq (iota .tc S128x6784 32 [0] iota_S128x6784_d0_w32 (ix2 a e))
      (broadcastTo S128x6784 (shapeCast S1x6784 v shapeCasts_S1x1x6784_S1x6784) broadcasts_S1x6784_S128x6784 (ix2 a e))).setWidth 32) = _
  rw [iota_single_apply, broadcastTo_1b_ab_apply, shapeCast_1ab_ab_apply]
  exact oneHot_word a _

/-! ### The plain product's operand indices (rows times columns, one contracted axis) -/

private theorem lhsP_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
private theorem lhsP_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
private theorem rhsP_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
private theorem rhsP_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A plain product into the zero splat, at (n, c): the sum over k of lhs (n, k) * rhs (k, c). -/
private theorem matmulP_apply {φ₁ φ₂ : FTy} (lhs : FVec Ideal S128x128 φ₁) (rhs : FVec Ideal S128x128 φ₂) (n c : Fin 128) :
    matmul dot_S128x128_S128x128_S128x128_1_0_0_1_n_n none lhs rhs (constant (F := Ideal) S128x128 .f32 0x00000000#32) (ix2 n c)
      = ∑ k : Fin 128, lhs (ix2 n k) * rhs (ix2 k c) := by
  simp only [matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 n c) ((ValueIdx.contrEquiv1 dot_S128x128_S128x128_S128x128_1_0_0_1_n_n 128 rfl rfl).symm k) = ix2 n k := funext fun a => Fin.ext (by
    match a with
    | ⟨0, _⟩ => exact lhsP_0 _ _
    | ⟨1, _⟩ => exact (lhsP_1 _ _).trans hk)
  have er : dot_S128x128_S128x128_S128x128_1_0_0_1_n_n.rhsIdx (ix2 n c) ((ValueIdx.contrEquiv1 dot_S128x128_S128x128_S128x128_1_0_0_1_n_n 128 rfl rfl).symm k) = ix2 k c := funext fun a => Fin.ext (by
    match a with
    | ⟨0, _⟩ => exact (rhsP_0 _ _).trans hk
    | ⟨1, _⟩ => exact rhsP_1 _ _)
  rw [el, er]

/-- The projected features at node n and channel c: the node block's row times the weights' column. -/
private theorem pay7_apply (x : Vec Ideal S1x128x128 .f32) (W : Vec Ideal S128x128 .f32) (n c : Fin 128) :
    k0_pay7 (F := Ideal) x W (ix2 n c) = ∑ f : Fin 128, x (ix3 (0 : Fin 1) n f) * W (ix2 f c) := by
  unfold k0_pay7
  refine (matmulP_apply _ _ n c).trans (Finset.sum_congr rfl fun f _ => ?_)
  rw [truncf_apply, truncf_apply, shapeCast_1ab_ab_apply, shapeCast_self]

/-! ## Row reductions and the column layouts, read at an index -/

/-- A row sum of a matrix. -/
private theorem rowSum_apply (A : FVec Ideal S128x128 .f32) (n : Fin 128) :
    multiReduction (F := Ideal) .add [1] S128 A 0x00000000#32 reduces_S128x128_S128 (.inl rfl) rfl (ix1 n)
      = ∑ k : Fin 128, A (ix2 n k) := by
  refine (Ideal.multiReduction_add_single A 0x00000000#32 reduces_S128x128_S128 (.inl rfl) rfl (ix1 n)).trans ?_
  refine Finset.sum_congr rfl fun k _ => congrArg A (funext fun a => Fin.ext ?_)
  match a with
  | ⟨0, _⟩ => rfl
  | ⟨1, _⟩ => rfl

/-- The word of minus infinity is the bottom of the extended reals. -/
private theorem ofBits_negInf : FloatOps.ofBits (F := Ideal) .f32 0xFF800000#32 = (⊥ : EReal) := by
  simp [Ideal.ofBits, Ideal.ieee]

/-- The word of one is one. -/
private theorem ofBits_one : Scalar.ofBits (F := Ideal) .f32 0x3F800000#32 = (1 : EReal) := by
  show Ideal.ofBits .f32 0x3F800000#32 = 1
  simp [Ideal.ofBits, Ideal.ieee, -EReal.coe_mul]; norm_num

/-- A row maximum of a matrix, from minus infinity. -/
private theorem rowMax_apply (C : FVec Ideal S128x128 .f32) (n : Fin 128) :
    multiReduction (F := Ideal) .maximumf [1] S128 C 0xFF800000#32 reduces_S128x128_S128 (.inl rfl) rfl (ix1 n)
      = (Finset.univ : Finset (Fin 128)).fold max ⊥ (fun c => C (ix2 n c)) := by
  refine (Ideal.multiReduction_maximumf_single C 0xFF800000#32 reduces_S128x128_S128 (.inl rfl) rfl (ix1 n)).trans ?_
  have hf : (C ∘ reduces_S128x128_S128.lift (ix1 n)) = fun c : Fin 128 => C (ix2 n c) :=
    funext fun c => congrArg C (funext fun a => Fin.ext (by
      match a with
      | ⟨0, _⟩ => rfl
      | ⟨1, _⟩ => rfl))
  rw [ofBits_negInf, hf]
  rfl

/-- A vector cast to a column reads, at (n, 0), the vector at n. -/
private theorem shapeCast_a_a1_apply {α : Type} (v : S128.Idx → α) (n : Fin 128) (u : Fin 1) :
    shapeCast S128x1 v shapeCasts_S128_S128x1 (ix2 n u) = v (ix1 n) :=
  shapeCast_apply v shapeCasts_S128_S128x1 _ _ (by
    have hu : u.val = 0 := by omega
    rw [Shape.rowMajor_val_one, Shape.rowMajor_val_two]
    show n.val = n.val * 1 + u.val
    rw [hu, Nat.mul_one, Nat.add_zero])

/-- A column broadcast over the columns reads, at (n, c), the column at n. -/
private theorem broadcastTo_a1_ab_apply {α : Type} (v : S128x1.Idx → α) (n c : Fin 128) :
    broadcastTo S128x128 v broadcasts_S128x1_S128x128 (ix2 n c) = v (ix2 n (0 : Fin 1)) := by
  refine broadcastTo_apply v broadcasts_S128x1_S128x128 (ix2 n c) (ix2 n (0 : Fin 1)) fun ax => ?_
  match ax with
  | ⟨0, _⟩ => rfl
  | ⟨1, _⟩ => rfl

/-! ## The long payload as a composition of four named pieces -/

/-- The weighted adjacency matrix: the destination indicator times the broadcast weights, contracted over the
    edges with the source indicator. -/
private def adjV (w : FVec Ideal S1x6784 .f32) (sI dI : FVec Ideal S128x6784 .bf16) : FVec Ideal S128x128 .f32 :=
  matmul dot_S128x6784_S128x6784_S128x128_1_1_0_0_n_n none
    (mulf dI (broadcastTo S128x6784 (truncf .bf16 w bitsLt_bf16_f32) broadcasts_S1x6784_S128x6784)) sI
    (constant S128x128 .f32 0x00000000#32)

/-- The column of the degrees' inverse square roots: row sums of the adjacency matrix plus one, under rsqrt. -/
private def dinvV (A : FVec Ideal S128x128 .f32) : FVec Ideal S128x1 .f32 :=
  rsqrt (addf (shapeCast S128x1 (multiReduction .add [1] S128 A 0x00000000#32 reduces_S128x128_S128 (.inl rfl) rfl) shapeCasts_S128_S128x1)
    (broadcast S128x1 (Scalar.ofBits (F := Ideal) .f32 0x3F800000#32)))

/-- The convolution's matrix: dinv times (adjacency times (dinv times h)), plus dinv squared times h, plus the bias row. -/
private def convV (A : FVec Ideal S128x128 .f32) (D : FVec Ideal S128x1 .f32) (h : FVec Ideal S128x128 .f32)
    (b : Vec Ideal S1x128 .f32) : FVec Ideal S128x128 .f32 :=
  addf (addf (mulf (broadcastTo S128x128 D broadcasts_S128x1_S128x128)
      (matmul dot_S128x128_S128x128_S128x128_1_0_0_1_n_n none (truncf .bf16 A bitsLt_bf16_f32)
        (truncf .bf16 (mulf (broadcastTo S128x128 D broadcasts_S128x1_S128x128) h) bitsLt_bf16_f32)
        (constant S128x128 .f32 0x00000000#32)))
      (mulf (broadcastTo S128x128 (mulf D D) broadcasts_S128x1_S128x128) h))
    (broadcastTo S128x128 (shapeCast S1x128 b shapeCasts_S1x128_S1x128) broadcasts_S1x128_S128x128)

/-- The row maxima, laid out as the stored block: a column, transposed to a row, with a leading unit axis. -/
private def poolV (C : FVec Ideal S128x128 .f32) : FVec Ideal S1x1x128 .f32 :=
  shapeCast S1x1x128 (transpose S1x128 [1, 0]
    (shapeCast S128x1 (multiReduction .maximumf [1] S128 C 0xFF800000#32 reduces_S128x128_S128 (.inl rfl) rfl) shapeCasts_S128_S128x1)
    transposes_S128x1_p1_0_S1x128) shapeCasts_S1x128_S1x1x128

/-- The long payload is the composition of the four pieces. -/
private theorem pay1_eq (v60 : FVec Ideal S128x128 .f32) (v66 : FVec Ideal S1x6784 .f32) (v72 v77 : FVec Ideal S128x6784 .bf16)
    (v98 : Vec Ideal S1x128 .f32) :
    k0_pay1 (F := Ideal) v60 v66 v72 v77 v98 = poolV (convV (adjV v66 v72 v77) (dinvV (adjV v66 v72 v77)) v60 v98) := rfl

/-! ### The adjacency product's operand indices (both operands contracted on their edge axis) -/

private theorem lhsA_0 (i : S128x128.Idx) (q : dot_S128x6784_S128x6784_S128x128_1_1_0_0_n_n.contr.Idx) :
    (dot_S128x6784_S128x6784_S128x128_1_1_0_0_n_n.lhsIdx i q 0).val = (i 0).val := by
  unfold DotDims.lhsIdx
  rw [dif_neg (show ¬(0 : Fin S128x6784.rank) ∈ dot_S128x6784_S128x6784_S128x128_1_1_0_0_n_n.lhsBatch by decide), dif_pos (show (0 : Fin S128x6784.rank) ∈ dot_S128x6784_S128x6784_S128x128_1_1_0_0_n_n.lhsNonContracting by decide)]
  rfl
private theorem lhsA_1 (i : S128x128.Idx) (q : dot_S128x6784_S128x6784_S128x128_1_1_0_0_n_n.contr.Idx) :
    (dot_S128x6784_S128x6784_S128x128_1_1_0_0_n_n.lhsIdx i q 1).val = (q ⟨0, by decide⟩).val :=
  dot_S128x6784_S128x6784_S128x128_1_1_0_0_n_n.lhsIdx_val_of_single rfl i q
private theorem rhsA_0 (i : S128x128.Idx) (q : dot_S128x6784_S128x6784_S128x128_1_1_0_0_n_n.contr.Idx) :
    (dot_S128x6784_S128x6784_S128x128_1_1_0_0_n_n.rhsIdx i q 0).val = (i 1).val := by
  unfold DotDims.rhsIdx
  rw [dif_neg (show ¬(0 : Fin S128x6784.rank) ∈ dot_S128x6784_S128x6784_S128x128_1_1_0_0_n_n.rhsBatch by decide), dif_pos (show (0 : Fin S128x6784.rank) ∈ dot_S128x6784_S128x6784_S128x128_1_1_0_0_n_n.rhsNonContracting by decide)]
  rfl
private theorem rhsA_1 (i : S128x128.Idx) (q : dot_S128x6784_S128x6784_S128x128_1_1_0_0_n_n.contr.Idx) :
    (dot_S128x6784_S128x6784_S128x128_1_1_0_0_n_n.rhsIdx i q 1).val = (q ⟨0, by decide⟩).val :=
  dot_S128x6784_S128x6784_S128x128_1_1_0_0_n_n.rhsIdx_val_of_single rfl i q

/-- The adjacency matrix at (n, n'): the sum over the edges of (destination indicator at n times weight) times the
    source indicator at n'. -/
private theorem adjV_apply (w : FVec Ideal S1x6784 .f32) (sI dI : FVec Ideal S128x6784 .bf16) (n n' : Fin 128) :
    adjV w sI dI (ix2 n n') = ∑ e : Fin 6784, (dI (ix2 n e) * w (ix2 (0 : Fin 1) e)) * sI (ix2 n' e) := by
  unfold adjV
  simp only [matmul]
  rw [Ideal.matmul_constant_zero_apply, ← Equiv.sum_comp (ValueIdx.contrEquiv1 dot_S128x6784_S128x6784_S128x128_1_1_0_0_n_n 6784 rfl rfl).symm]
  refine Finset.sum_congr rfl fun e _ => ?_
  have hk := ValueIdx.contrEquiv1_symm_val dot_S128x6784_S128x6784_S128x128_1_1_0_0_n_n 6784 rfl rfl e
  have el : dot_S128x6784_S128x6784_S128x128_1_1_0_0_n_n.lhsIdx (ix2 n n') ((ValueIdx.contrEquiv1 dot_S128x6784_S128x6784_S128x128_1_1_0_0_n_n 6784 rfl rfl).symm e) = ix2 n e := funext fun a => Fin.ext (by
    match a with
    | ⟨0, _⟩ => exact lhsA_0 _ _
    | ⟨1, _⟩ => exact (lhsA_1 _ _).trans hk)
  have er : dot_S128x6784_S128x6784_S128x128_1_1_0_0_n_n.rhsIdx (ix2 n n') ((ValueIdx.contrEquiv1 dot_S128x6784_S128x6784_S128x128_1_1_0_0_n_n 6784 rfl rfl).symm e) = ix2 n' e := funext fun a => Fin.ext (by
    match a with
    | ⟨0, _⟩ => exact rhsA_0 _ _
    | ⟨1, _⟩ => exact (rhsA_1 _ _).trans hk)
  rw [el, er, mulf_apply, broadcastTo_1b_ab_apply, truncf_apply]

/-- The inverse square root of a node's degree: the adjacency row's sum plus one, under rsqrt. -/
private theorem dinvV_apply (A : FVec Ideal S128x128 .f32) (n : Fin 128) (u : Fin 1) :
    dinvV A (ix2 n u) = Ideal.rsqrt ((∑ k : Fin 128, A (ix2 n k)) + 1) := by
  unfold dinvV
  show Ideal.rsqrt (shapeCast S128x1 (multiReduction (F := Ideal) .add [1] S128 A 0x00000000#32 reduces_S128x128_S128 (.inl rfl) rfl)
      shapeCasts_S128_S128x1 (ix2 n u) + Scalar.ofBits (F := Ideal) .f32 0x3F800000#32) = _
  rw [shapeCast_a_a1_apply, rowSum_apply, ofBits_one]

/-- The convolution at node n and channel c. -/
private theorem convV_apply (A : FVec Ideal S128x128 .f32) (D : FVec Ideal S128x1 .f32) (h : FVec Ideal S128x128 .f32)
    (b : Vec Ideal S1x128 .f32) (n c : Fin 128) :
    convV A D h b (ix2 n c)
      = ((D (ix2 n (0 : Fin 1)) * ∑ n' : Fin 128, A (ix2 n n') * (D (ix2 n' (0 : Fin 1)) * h (ix2 n' c)))
          + (D (ix2 n (0 : Fin 1)) * D (ix2 n (0 : Fin 1))) * h (ix2 n c))
        + b (ix2 (0 : Fin 1) c) := by
  unfold convV
  have hm : matmul dot_S128x128_S128x128_S128x128_1_0_0_1_n_n none (truncf .bf16 A bitsLt_bf16_f32)
      (truncf .bf16 (mulf (broadcastTo S128x128 D broadcasts_S128x1_S128x128) h) bitsLt_bf16_f32)
      (constant (F := Ideal) S128x128 .f32 0x00000000#32) (ix2 n c)
        = ∑ n' : Fin 128, A (ix2 n n') * (D (ix2 n' (0 : Fin 1)) * h (ix2 n' c)) :=
    (matmulP_apply _ _ n c).trans (Finset.sum_congr rfl fun k _ => by
      rw [truncf_apply, truncf_apply, mulf_apply, broadcastTo_a1_ab_apply])
  rw [addf_apply, addf_apply, mulf_apply, mulf_apply, hm, broadcastTo_a1_ab_apply, broadcastTo_a1_ab_apply, mulf_apply,
    broadcastTo_1b_ab_apply, shapeCast_self]

/-- The stored block at node n: the maximum over the channels of the convolution's row. -/
private theorem poolV_apply (C : FVec Ideal S128x128 .f32) (n : Fin 128) :
    poolV C (ix3 (0 : Fin 1) (0 : Fin 1) n) = (Finset.univ : Finset (Fin 128)).fold max ⊥ (fun c => C (ix2 n c)) := by
  unfold poolV
  rw [shapeCast_ab_1ab_apply, transpose_ix2_apply, shapeCast_a_a1_apply, rowMax_apply]

/-! ## The stored block at a node -/

/-- The body's second stored block at node `n`, from the blocks it loads: the dense arrangement `Spec.poolP` of the
    node block, the padded weights, the edge blocks and the bias row of the second view. -/
theorem out0_13_apply (x0 x1 : Vec Ideal S1x128x128 .f32) (x2 x3 : Vec Ideal S1x1x6784 .i32) (x4 : Vec Ideal S1x1x6784 .f32)
    (x5 x6 : Vec Ideal S1x1x6784 .i32) (x7 : Vec Ideal S1x1x6784 .f32) (x8 : Vec Ideal S128x128 .f32)
    (x9 : Vec Ideal S1x128 .f32) (x10 : Vec Ideal S128x128 .f32) (x11 : Vec Ideal S1x128 .f32) (n : Fin 128) :
    out0_13 (F := Ideal) x0 x1 x2 x3 x4 x5 x6 x7 x8 x9 x10 x11 (ix3 0 0 n)
      = Cert.Spec.poolP (fun a f => x1 (ix3 0 a f)) (fun f k => x10 (ix2 f k)) (fun e => x5 (ix3 0 0 e))
          (fun e => x6 (ix3 0 0 e)) (fun e => x7 (ix3 0 0 e)) (fun k => x11 (ix2 0 k)) n := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_13
  rw [View.canon_unit_zero hz3]
  simp only [View.ld_unit_zero (S := S1x128x128) hz3, View.ld_unit_zero (S := S128x128) hz2,
    View.ld_unit_zero (S := S1x1x6784) hz3, View.ld_unit_zero (S := S1x128) hz2]
  rw [pay1_eq, poolV_apply]
  -- the adjacency matrix, the inverse square roots of the degrees and the projected features are the specification's
  have hA : ∀ a a' : Fin 128, adjV (k0_pay8 (F := Ideal) x7) (k0_pay9 (F := Ideal) x5) (k0_pay10 (F := Ideal) x6) (ix2 a a')
      = Cert.Spec.adj (fun e => x5 (ix3 0 0 e)) (fun e => x6 (ix3 0 0 e)) (fun e => x7 (ix3 0 0 e)) a a' := fun a a' => by
    rw [adjV_apply]
    unfold Cert.Spec.adj
    exact Finset.sum_congr rfl fun e _ => by rw [pay10_apply, pay8_apply, pay9_apply]
  have hD : ∀ (a : Fin 128) (u : Fin 1),
      dinvV (adjV (k0_pay8 (F := Ideal) x7) (k0_pay9 (F := Ideal) x5) (k0_pay10 (F := Ideal) x6)) (ix2 a u)
      = Cert.Spec.dinvP (fun e => x5 (ix3 0 0 e)) (fun e => x6 (ix3 0 0 e)) (fun e => x7 (ix3 0 0 e)) a := fun a u => by
    rw [dinvV_apply]
    unfold Cert.Spec.dinvP Cert.Spec.degP
    rw [Finset.sum_congr rfl fun k _ => hA a k]
  have hH : ∀ a k : Fin 128, k0_pay7 (F := Ideal) x1 x10 (ix2 a k)
      = Cert.Spec.hP (fun a f => x1 (ix3 0 a f)) (fun f k => x10 (ix2 f k)) a k := fun a k => pay7_apply x1 x10 a k
  unfold Cert.Spec.poolP
  refine congrArg (fun f => (Finset.univ : Finset (Fin 128)).fold max ⊥ f) (funext fun k => ?_)
  rw [convV_apply]
  unfold Cert.Spec.convP
  simp only [hA, hD, hH]

end Cert.KernelIdeal.KV

end
-- ==== Proof.Region0.lean ====
/-
  The first kernel's two result arrays when it has ended, read at a graph and a node: grid point `g` writes row `g`,
  and what it writes is the dense pooled value of the operands' row-`g` blocks.
-/
import proofs.«409833_j29446295781426_1_alg».proof.Proof.Body0Fc
import proofs.«409833_j29446295781426_1_alg».proof.Proof.Body0Sc
import Idealize.ShloMosaic.Lib.Pipeline.Value

noncomputable section

open scoped BigOperators

namespace Cert.KernelIdeal.KV

open Idealize.ShloMosaic Idealize.ShloMosaic.TcCoe Idealize.ShloMosaic.ValueIdx Idealize.SL.Sem Cert.KernelIdeal Cert.KernelIdeal.Gen
open Idealize.ShloMosaic.Pipeline (Dat)

/-! ## One graph's rows of the operands, pooled: the whole result array as one function -/

/-- The graph (row) and the node (lane) an index of a result array names. -/
private def rowOf (i : S256x1x128.Idx) : Fin 256 := ⟨(i 0).val, (i 0).isLt⟩
private def laneOf (i : S256x1x128.Idx) : Fin 128 := ⟨(i 2).val, (i 2).isLt⟩

/-- The result array of one view: at graph `g` and node `n` the dense pooled value of the operands' rows `g`. -/
private def poolArr (X : S256x128x128.Idx → EReal) (W : S128x128.Idx → EReal) (s d : S256x1x6784.Idx → BitVec 32)
    (w : S256x1x6784.Idx → EReal) (b : S1x128.Idx → EReal) : S256x1x128.Idx → EReal := fun i =>
  Cert.Spec.poolP (fun a f => X (ix3 (rowOf i) a f)) (fun f k => W (ix2 f k)) (fun e => s (ix3 (rowOf i) 0 e))
    (fun e => d (ix3 (rowOf i) 0 e)) (fun e => w (ix3 (rowOf i) 0 e)) (fun k => b (ix2 0 k)) (laneOf i)

private theorem poolArr_apply (X : S256x128x128.Idx → EReal) (W : S128x128.Idx → EReal) (s d : S256x1x6784.Idx → BitVec 32)
    (w : S256x1x6784.Idx → EReal) (b : S1x128.Idx → EReal) (g : Fin 256) (n : Fin 128) :
    poolArr X W s d w b (ix3 g 0 n)
      = Cert.Spec.poolP (fun a f => X (ix3 g a f)) (fun f k => W (ix2 f k)) (fun e => s (ix3 g 0 e))
          (fun e => d (ix3 g 0 e)) (fun e => w (ix3 g 0 e)) (fun k => b (ix2 0 k)) n := rfl

/-- Two functions on a `[1, 1, 128]` block agree when they agree at every lane. -/
private theorem ext_lane {α : Type} (f h : S1x1x128.Idx → α) (e : ∀ n : Fin 128, f (ix3 0 0 n) = h (ix3 0 0 n)) : f = h := by
  funext y
  obtain ⟨p, q, n, rfl⟩ : ∃ (p : Fin 1) (q : Fin 1) (n : Fin 128), y = ix3 p q n := ⟨y 0, y 1, y 2, eq_ix3 y⟩
  obtain rfl : p = 0 := Subsingleton.elim _ _
  obtain rfl : q = 0 := Subsingleton.elim _ _
  exact e n

/-- What the body stores for the first view at a grid point whose blocks are the operands' rows `g`. -/
private theorem storedFc_eq (x0 x1 : Vec Ideal S1x128x128 .f32) (x2 x3 : Vec Ideal S1x1x6784 .i32) (x4 : Vec Ideal S1x1x6784 .f32)
    (x5 x6 : Vec Ideal S1x1x6784 .i32) (x7 : Vec Ideal S1x1x6784 .f32) (x8 : Vec Ideal S128x128 .f32)
    (x9 : Vec Ideal S1x128 .f32) (x10 : Vec Ideal S128x128 .f32) (x11 : Vec Ideal S1x128 .f32)
    (X : S256x128x128.Idx → EReal) (W : S128x128.Idx → EReal) (s d : S256x1x6784.Idx → BitVec 32)
    (w : S256x1x6784.Idx → EReal) (b : S1x128.Idx → EReal) (g : Fin 256)
    (h0 : ∀ a f : Fin 128, x0 (ix3 0 a f) = X (ix3 g a f)) (h8 : ∀ f k : Fin 128, x8 (ix2 f k) = W (ix2 f k))
    (h2 : ∀ e : Fin 6784, x2 (ix3 0 0 e) = s (ix3 g 0 e)) (h3 : ∀ e : Fin 6784, x3 (ix3 0 0 e) = d (ix3 g 0 e))
    (h4 : ∀ e : Fin 6784, x4 (ix3 0 0 e) = w (ix3 g 0 e)) (h9 : ∀ k : Fin 128, x9 (ix2 0 k) = b (ix2 0 k)) (n : Fin 128) :
    out0_12 (F := Ideal) x0 x1 x2 x3 x4 x5 x6 x7 x8 x9 x10 x11 (ix3 0 0 n) = poolArr X W s d w b (ix3 g 0 n) := by
  rw [out0_12_apply, poolArr_apply]
  have e0 : (fun a f : Fin 128 => x0 (ix3 0 a f)) = fun a f => X (ix3 g a f) := funext fun a => funext fun f => h0 a f
  have e8 : (fun f k : Fin 128 => x8 (ix2 f k)) = fun f k => W (ix2 f k) := funext fun f => funext fun k => h8 f k
  have e2 : (fun e : Fin 6784 => x2 (ix3 0 0 e)) = fun e => s (ix3 g 0 e) := funext h2
  have e3 : (fun e : Fin 6784 => x3 (ix3 0 0 e)) = fun e => d (ix3 g 0 e) := funext h3
  have e4 : (fun e : Fin 6784 => x4 (ix3 0 0 e)) = fun e => w (ix3 g 0 e) := funext h4
  have e9 : (fun k : Fin 128 => x9 (ix2 0 k)) = fun k => b (ix2 0 k) := funext h9
  rw [e0, e8, e2, e3, e4, e9]

/-- What the body stores for the second view at a grid point whose blocks are the operands' rows `g`. -/
private theorem storedSc_eq (x0 x1 : Vec Ideal S1x128x128 .f32) (x2 x3 : Vec Ideal S1x1x6784 .i32) (x4 : Vec Ideal S1x1x6784 .f32)
    (x5 x6 : Vec Ideal S1x1x6784 .i32) (x7 : Vec Ideal S1x1x6784 .f32) (x8 : Vec Ideal S128x128 .f32)
    (x9 : Vec Ideal S1x128 .f32) (x10 : Vec Ideal S128x128 .f32) (x11 : Vec Ideal S1x128 .f32)
    (X : S256x128x128.Idx → EReal) (W : S128x128.Idx → EReal) (s d : S256x1x6784.Idx → BitVec 32)
    (w : S256x1x6784.Idx → EReal) (b : S1x128.Idx → EReal) (g : Fin 256)
    (h1 : ∀ a f : Fin 128, x1 (ix3 0 a f) = X (ix3 g a f)) (h10 : ∀ f k : Fin 128, x10 (ix2 f k) = W (ix2 f k))
    (h5 : ∀ e : Fin 6784, x5 (ix3 0 0 e) = s (ix3 g 0 e)) (h6 : ∀ e : Fin 6784, x6 (ix3 0 0 e) = d (ix3 g 0 e))
    (h7 : ∀ e : Fin 6784, x7 (ix3 0 0 e) = w (ix3 g 0 e)) (h11 : ∀ k : Fin 128, x11 (ix2 0 k) = b (ix2 0 k)) (n : Fin 128) :
    out0_13 (F := Ideal) x0 x1 x2 x3 x4 x5 x6 x7 x8 x9 x10 x11 (ix3 0 0 n) = poolArr X W s d w b (ix3 g 0 n) := by
  rw [out0_13_apply, poolArr_apply]
  have e1 : (fun a f : Fin 128 => x1 (ix3 0 a f)) = fun a f => X (ix3 g a f) := funext fun a => funext fun f => h1 a f
  have e10 : (fun f k : Fin 128 => x10 (ix2 f k)) = fun f k => W (ix2 f k) := funext fun f => funext fun k => h10 f k
  have e5 : (fun e : Fin 6784 => x5 (ix3 0 0 e)) = fun e => s (ix3 g 0 e) := funext h5
  have e6 : (fun e : Fin 6784 => x6 (ix3 0 0 e)) = fun e => d (ix3 g 0 e) := funext h6
  have e7 : (fun e : Fin 6784 => x7 (ix3 0 0 e)) = fun e => w (ix3 g 0 e) := funext h7
  have e11 : (fun k : Fin 128 => x11 (ix2 0 k)) = fun k => b (ix2 0 k) := funext h11
  rw [e1, e10, e5, e6, e7, e11]

/-! ## The first kernel's blocks are rows of its arrays -/

section Blocks
variable (V : (c : Dev nD) → (b : Ref sig .tc) → Buf (Elt Ideal) ((c : Thread nD τ).loc b)) (c : Dev nD)

/-- A grid point as a graph. -/
private def graphOf (t : Fin cfg0.N) : Fin 256 := ⟨t.val, lt_of_lt_of_eq t.isLt N_0⟩

/-- The index maps over the grid: the row windows sit at block `(t, 0, 0)`, the weights and biases at block `(0, 0)`. -/
private theorem idxFc : ∀ t : Fin cfg0.N,
    (win0_0.index t (0 : Fin 3) = t.val ∧ win0_0.index t (1 : Fin 3) = 0 ∧ win0_0.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_12.index t (0 : Fin 3) = t.val ∧ win0_12.index t (1 : Fin 3) = 0 ∧ win0_12.index t (2 : Fin 3) = 0) :=
  (by decide +kernel : ∀ t : Fin grid0.N, _)

private theorem nodeFc_blk (t : Fin cfg0.N) (a f : Fin 128) :
    (iblk0 V c 0 t : Vec Ideal S1x128x128 .f32) (ix3 0 a f) = (V c main_v38 : S256x128x128.Idx → EReal) (ix3 (graphOf t) a f) := by
  obtain ⟨⟨e0, e1, e2⟩, -⟩ := idxFc t
  show (V c main_v38 : S256x128x128.Idx → EReal) (((cfg0.win 0).blk t).view.emb (ix3 (0 : Fin 1) a f)) = _
  refine congrArg _ (funext fun x => Fin.ext ?_)
  match x with
  | ⟨0, _⟩ => show win0_0.index t (0 : Fin 3) * 1 + 1 * 0 = t.val; omega
  | ⟨1, _⟩ => show win0_0.index t (1 : Fin 3) * 128 + 1 * a.val = a.val; omega
  | ⟨2, _⟩ => show win0_0.index t (2 : Fin 3) * 128 + 1 * f.val = f.val; omega

private theorem srcFc_blk (t : Fin cfg0.N) (e : Fin 6784) :
    (iblk0 V c 2 t : Vec Ideal S1x1x6784 .i32) (ix3 0 0 e) = (V c main_v23 : S256x1x6784.Idx → BitVec 32) (ix3 (graphOf t) 0 e) := by
  obtain ⟨-, ⟨e0, e1, e2⟩, -⟩ := idxFc t
  show (V c main_v23 : S256x1x6784.Idx → BitVec 32) (((cfg0.win 2).blk t).view.emb (ix3 (0 : Fin 1) (0 : Fin 1) e)) = _
  refine congrArg _ (funext fun x => Fin.ext ?_)
  match x with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 6784 + 1 * e.val = e.val; omega

private theorem dstFc_blk (t : Fin cfg0.N) (e : Fin 6784) :
    (iblk0 V c 3 t : Vec Ideal S1x1x6784 .i32) (ix3 0 0 e) = (V c main_v26 : S256x1x6784.Idx → BitVec 32) (ix3 (graphOf t) 0 e) := by
  obtain ⟨-, -, ⟨e0, e1, e2⟩, -⟩ := idxFc t
  show (V c main_v26 : S256x1x6784.Idx → BitVec 32) (((cfg0.win 3).blk t).view.emb (ix3 (0 : Fin 1) (0 : Fin 1) e)) = _
  refine congrArg _ (funext fun x => Fin.ext ?_)
  match x with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 6784 + 1 * e.val = e.val; omega

private theorem wFc_blk (t : Fin cfg0.N) (e : Fin 6784) :
    (iblk0 V c 4 t : Vec Ideal S1x1x6784 .f32) (ix3 0 0 e) = (V c main_v33 : S256x1x6784.Idx → EReal) (ix3 (graphOf t) 0 e) := by
  obtain ⟨-, -, -, ⟨e0, e1, e2⟩, -⟩ := idxFc t
  show (V c main_v33 : S256x1x6784.Idx → EReal) (((cfg0.win 4).blk t).view.emb (ix3 (0 : Fin 1) (0 : Fin 1) e)) = _
  refine congrArg _ (funext fun x => Fin.ext ?_)
  match x with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 6784 + 1 * e.val = e.val; omega

private theorem w1p_blk (t : Fin cfg0.N) (f k : Fin 128) :
    (iblk0 V c 8 t : Vec Ideal S128x128 .f32) (ix2 f k) = (V c main_v40 : S128x128.Idx → EReal) (ix2 f k) := by
  obtain ⟨-, -, -, -, ⟨e0, e1⟩, -⟩ := idxFc t
  show (V c main_v40 : S128x128.Idx → EReal) (((cfg0.win 8).blk t).view.emb (ix2 f k)) = _
  refine congrArg _ (funext fun x => Fin.ext ?_)
  match x with
  | ⟨0, _⟩ => show win0_8.index t (0 : Fin 2) * 128 + 1 * f.val = f.val; omega
  | ⟨1, _⟩ => show win0_8.index t (1 : Fin 2) * 128 + 1 * k.val = k.val; omega

private theorem b1r_blk (t : Fin cfg0.N) (k : Fin 128) :
    (iblk0 V c 9 t : Vec Ideal S1x128 .f32) (ix2 0 k) = (V c main_v42 : S1x128.Idx → EReal) (ix2 0 k) := by
  obtain ⟨-, -, -, -, -, ⟨e0, e1⟩, -⟩ := idxFc t
  show (V c main_v42 : S1x128.Idx → EReal) (((cfg0.win 9).blk t).view.emb (ix2 (0 : Fin 1) k)) = _
  refine congrArg _ (funext fun x => Fin.ext ?_)
  match x with
  | ⟨0, _⟩ => show win0_9.index t (0 : Fin 2) * 1 + 1 * 0 = 0; omega
  | ⟨1, _⟩ => show win0_9.index t (1 : Fin 2) * 128 + 1 * k.val = k.val; omega

/-- The first view's result array, of the region's entry contents. -/
private abbrev arrFc : S256x1x128.Idx → EReal :=
  poolArr (V c main_v38) (V c main_v40) (V c main_v23) (V c main_v26) (V c main_v33) (V c main_v42)

/-- Where a lane of point `t`'s output block sits in the result array: row `t`. -/
private theorem outFc_emb (t : Fin cfg0.N) (n : Fin 128) :
    (((cfg0.win 12).blk t).view.emb (ix3 (0 : Fin 1) (0 : Fin 1) n) : S256x1x128.Idx) = ix3 (graphOf t) 0 n := by
  obtain ⟨-, -, -, -, -, -, ⟨e0, e1, e2⟩⟩ := idxFc t
  refine funext fun x => Fin.ext ?_
  match x with
  | ⟨0, _⟩ => show win0_12.index t (0 : Fin 3) * 1 + 1 * 0 = t.val; omega
  | ⟨1, _⟩ => show win0_12.index t (1 : Fin 3) * 1 + 1 * 0 = 0; omega
  | ⟨2, _⟩ => show win0_12.index t (2 : Fin 3) * 128 + 1 * n.val = n.val; omega

/-- What point `t` writes back is block `t` of the result array. -/
private theorem flushedFc_eq (t : Fin cfg0.N) :
    (dat0 V c).flushed 12 t = ((cfg0.win 12).blk t).view.read (Elt Ideal) (arrFc V c) := by
  show (cfg0.win 12).cut (grid0.coords t) ((dat0 V c).after 12 t) = _
  rw [after0_12]
  refine ext_lane _ _ fun n => ?_
  show out0_12 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t) (ix3 0 0 n)
    = arrFc V c (((cfg0.win 12).blk t).view.emb (ix3 (0 : Fin 1) (0 : Fin 1) n))
  rw [outFc_emb]
  exact storedFc_eq (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t)
    (V c main_v38) (V c main_v40) (V c main_v23) (V c main_v26) (V c main_v33) (V c main_v42) (graphOf t)
    (nodeFc_blk V c t) (w1p_blk V c t) (srcFc_blk V c t) (dstFc_blk V c t) (wFc_blk V c t) (b1r_blk V c t) n

/-- An index of the result array is in point `t`'s block iff each coordinate is in the block's range on its axis. -/
private theorem mem_blkFc (t : Fin cfg0.N) (i : S256x1x128.Idx) :
    i ∈ ((cfg0.win 12).blk t).view.set ↔ ∀ a : Fin 3, win0_12.index t a * S1x1x128.size a ≤ (i a).val ∧ (i a).val < win0_12.index t a * S1x1x128.size a + S1x1x128.size a := by
  show i ∈ ((View.whole main_v44_0).slice (win0_12.rect t)).set ↔ _
  rw [View.set_slice_whole, Rect.mem_set_unit]
  exact Iff.rfl

/-- Row `g` of the result array is the block of point `g`. -/
private theorem coverFc (i : S256x1x128.Idx) :
    ∃ t : Fin cfg0.N, (cfg0.win 12).flush t = true ∧ i ∈ ((cfg0.win 12).blk t).view.set := by
  have h0 : (i 0).val < 256 := (i 0).isLt
  have h1 : (i 1).val < 1 := (i 1).isLt
  have h2 : (i 2).val < 128 := (i 2).isLt
  refine ⟨⟨(i 0).val, lt_of_lt_of_eq h0 N_0.symm⟩, flush0_12 _, ?_⟩
  obtain ⟨-, -, -, -, -, -, ⟨e0, e1, e2⟩⟩ := idxFc ⟨(i 0).val, lt_of_lt_of_eq h0 N_0.symm⟩
  rw [mem_blkFc]
  intro a
  match a with
  | ⟨0, _⟩ => show win0_12.index _ (0 : Fin 3) * 1 ≤ (i 0).val ∧ (i 0).val < win0_12.index _ (0 : Fin 3) * 1 + 1; rw [e0]; show (i 0).val * 1 ≤ (i 0).val ∧ (i 0).val < (i 0).val * 1 + 1; omega
  | ⟨1, _⟩ => show win0_12.index _ (1 : Fin 3) * 1 ≤ (i 1).val ∧ (i 1).val < win0_12.index _ (1 : Fin 3) * 1 + 1; rw [e1]; omega
  | ⟨2, _⟩ => show win0_12.index _ (2 : Fin 3) * 128 ≤ (i 2).val ∧ (i 2).val < win0_12.index _ (2 : Fin 3) * 128 + 128; rw [e2]; omega

/-- The first result array when the kernel has ended. -/
private theorem finalFc : (dat0 V c).arrAt 12 cfg0.N = arrFc V c :=
  (dat0 V c).arrAt_eq_of_cover 12 (arrFc V c) (fun t _ => flushedFc_eq V c t) (coverFc)

/-! ## The second view: the same with its own windows -/

/-- The index maps over the grid: the row windows sit at block `(t, 0, 0)`, the weights and biases at block `(0, 0)`. -/
private theorem idxSc : ∀ t : Fin cfg0.N,
    (win0_1.index t (0 : Fin 3) = t.val ∧ win0_1.index t (1 : Fin 3) = 0 ∧ win0_1.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_10.index t (0 : Fin 2) = 0 ∧ win0_10.index t (1 : Fin 2) = 0)
    ∧ (win0_11.index t (0 : Fin 2) = 0 ∧ win0_11.index t (1 : Fin 2) = 0)
    ∧ (win0_13.index t (0 : Fin 3) = t.val ∧ win0_13.index t (1 : Fin 3) = 0 ∧ win0_13.index t (2 : Fin 3) = 0) :=
  (by decide +kernel : ∀ t : Fin grid0.N, _)

private theorem nodeSc_blk (t : Fin cfg0.N) (a f : Fin 128) :
    (iblk0 V c 1 t : Vec Ideal S1x128x128 .f32) (ix3 0 a f) = (V c main_v39 : S256x128x128.Idx → EReal) (ix3 (graphOf t) a f) := by
  obtain ⟨⟨e0, e1, e2⟩, -⟩ := idxSc t
  show (V c main_v39 : S256x128x128.Idx → EReal) (((cfg0.win 1).blk t).view.emb (ix3 (0 : Fin 1) a f)) = _
  refine congrArg _ (funext fun x => Fin.ext ?_)
  match x with
  | ⟨0, _⟩ => show win0_1.index t (0 : Fin 3) * 1 + 1 * 0 = t.val; omega
  | ⟨1, _⟩ => show win0_1.index t (1 : Fin 3) * 128 + 1 * a.val = a.val; omega
  | ⟨2, _⟩ => show win0_1.index t (2 : Fin 3) * 128 + 1 * f.val = f.val; omega

private theorem srcSc_blk (t : Fin cfg0.N) (e : Fin 6784) :
    (iblk0 V c 5 t : Vec Ideal S1x1x6784 .i32) (ix3 0 0 e) = (V c main_v29 : S256x1x6784.Idx → BitVec 32) (ix3 (graphOf t) 0 e) := by
  obtain ⟨-, ⟨e0, e1, e2⟩, -⟩ := idxSc t
  show (V c main_v29 : S256x1x6784.Idx → BitVec 32) (((cfg0.win 5).blk t).view.emb (ix3 (0 : Fin 1) (0 : Fin 1) e)) = _
  refine congrArg _ (funext fun x => Fin.ext ?_)
  match x with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 6784 + 1 * e.val = e.val; omega

private theorem dstSc_blk (t : Fin cfg0.N) (e : Fin 6784) :
    (iblk0 V c 6 t : Vec Ideal S1x1x6784 .i32) (ix3 0 0 e) = (V c main_v32 : S256x1x6784.Idx → BitVec 32) (ix3 (graphOf t) 0 e) := by
  obtain ⟨-, -, ⟨e0, e1, e2⟩, -⟩ := idxSc t
  show (V c main_v32 : S256x1x6784.Idx → BitVec 32) (((cfg0.win 6).blk t).view.emb (ix3 (0 : Fin 1) (0 : Fin 1) e)) = _
  refine congrArg _ (funext fun x => Fin.ext ?_)
  match x with
  | ⟨0, _⟩ => show win0_6.index t (0 : Fin 3) * 1 + 1 * 0 = t.val; omega
  | ⟨1, _⟩ => show win0_6.index t (1 : Fin 3) * 1 + 1 * 0 = 0; omega
  | ⟨2, _⟩ => show win0_6.index t (2 : Fin 3) * 6784 + 1 * e.val = e.val; omega

private theorem wSc_blk (t : Fin cfg0.N) (e : Fin 6784) :
    (iblk0 V c 7 t : Vec Ideal S1x1x6784 .f32) (ix3 0 0 e) = (V c main_v34 : S256x1x6784.Idx → EReal) (ix3 (graphOf t) 0 e) := by
  obtain ⟨-, -, -, ⟨e0, e1, e2⟩, -⟩ := idxSc t
  show (V c main_v34 : S256x1x6784.Idx → EReal) (((cfg0.win 7).blk t).view.emb (ix3 (0 : Fin 1) (0 : Fin 1) e)) = _
  refine congrArg _ (funext fun x => Fin.ext ?_)
  match x with
  | ⟨0, _⟩ => show win0_7.index t (0 : Fin 3) * 1 + 1 * 0 = t.val; omega
  | ⟨1, _⟩ => show win0_7.index t (1 : Fin 3) * 1 + 1 * 0 = 0; omega
  | ⟨2, _⟩ => show win0_7.index t (2 : Fin 3) * 6784 + 1 * e.val = e.val; omega

private theorem w2p_blk (t : Fin cfg0.N) (f k : Fin 128) :
    (iblk0 V c 10 t : Vec Ideal S128x128 .f32) (ix2 f k) = (V c main_v41 : S128x128.Idx → EReal) (ix2 f k) := by
  obtain ⟨-, -, -, -, ⟨e0, e1⟩, -⟩ := idxSc t
  show (V c main_v41 : S128x128.Idx → EReal) (((cfg0.win 10).blk t).view.emb (ix2 f k)) = _
  refine congrArg _ (funext fun x => Fin.ext ?_)
  match x with
  | ⟨0, _⟩ => show win0_10.index t (0 : Fin 2) * 128 + 1 * f.val = f.val; omega
  | ⟨1, _⟩ => show win0_10.index t (1 : Fin 2) * 128 + 1 * k.val = k.val; omega

private theorem b2r_blk (t : Fin cfg0.N) (k : Fin 128) :
    (iblk0 V c 11 t : Vec Ideal S1x128 .f32) (ix2 0 k) = (V c main_v43 : S1x128.Idx → EReal) (ix2 0 k) := by
  obtain ⟨-, -, -, -, -, ⟨e0, e1⟩, -⟩ := idxSc t
  show (V c main_v43 : S1x128.Idx → EReal) (((cfg0.win 11).blk t).view.emb (ix2 (0 : Fin 1) k)) = _
  refine congrArg _ (funext fun x => Fin.ext ?_)
  match x with
  | ⟨0, _⟩ => show win0_11.index t (0 : Fin 2) * 1 + 1 * 0 = 0; omega
  | ⟨1, _⟩ => show win0_11.index t (1 : Fin 2) * 128 + 1 * k.val = k.val; omega

/-- The second view's result array, of the region's entry contents. -/
private abbrev arrSc : S256x1x128.Idx → EReal :=
  poolArr (V c main_v39) (V c main_v41) (V c main_v29) (V c main_v32) (V c main_v34) (V c main_v43)

/-- Where a lane of point `t`'s second output block sits in the result array: row `t`. -/
private theorem outSc_emb (t : Fin cfg0.N) (n : Fin 128) :
    (((cfg0.win 13).blk t).view.emb (ix3 (0 : Fin 1) (0 : Fin 1) n) : S256x1x128.Idx) = ix3 (graphOf t) 0 n := by
  obtain ⟨-, -, -, -, -, -, ⟨e0, e1, e2⟩⟩ := idxSc t
  refine funext fun x => Fin.ext ?_
  match x with
  | ⟨0, _⟩ => show win0_13.index t (0 : Fin 3) * 1 + 1 * 0 = t.val; omega
  | ⟨1, _⟩ => show win0_13.index t (1 : Fin 3) * 1 + 1 * 0 = 0; omega
  | ⟨2, _⟩ => show win0_13.index t (2 : Fin 3) * 128 + 1 * n.val = n.val; omega

/-- What point `t` writes back into the second result is block `t` of that array. -/
private theorem flushedSc_eq (t : Fin cfg0.N) :
    (dat0 V c).flushed 13 t = ((cfg0.win 13).blk t).view.read (Elt Ideal) (arrSc V c) := by
  show (cfg0.win 13).cut (grid0.coords t) ((dat0 V c).after 13 t) = _
  rw [after0_13]
  refine ext_lane _ _ fun n => ?_
  show out0_13 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t) (ix3 0 0 n)
    = arrSc V c (((cfg0.win 13).blk t).view.emb (ix3 (0 : Fin 1) (0 : Fin 1) n))
  rw [outSc_emb]
  exact storedSc_eq (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t)
    (V c main_v39) (V c main_v41) (V c main_v29) (V c main_v32) (V c main_v34) (V c main_v43) (graphOf t)
    (nodeSc_blk V c t) (w2p_blk V c t) (srcSc_blk V c t) (dstSc_blk V c t) (wSc_blk V c t) (b2r_blk V c t) n

/-- An index of the second result array is in point `t`'s block iff each coordinate is in the block's range on its axis. -/
private theorem mem_blkSc (t : Fin cfg0.N) (i : S256x1x128.Idx) :
    i ∈ ((cfg0.win 13).blk t).view.set ↔ ∀ a : Fin 3, win0_13.index t a * S1x1x128.size a ≤ (i a).val ∧ (i a).val < win0_13.index t a * S1x1x128.size a + S1x1x128.size a := by
  show i ∈ ((View.whole main_v44_1).slice (win0_13.rect t)).set ↔ _
  rw [View.set_slice_whole, Rect.mem_set_unit]
  exact Iff.rfl

/-- Row `g` of the second result array is the block of point `g`. -/
private theorem coverSc (i : S256x1x128.Idx) :
    ∃ t : Fin cfg0.N, (cfg0.win 13).flush t = true ∧ i ∈ ((cfg0.win 13).blk t).view.set := by
  have h0 : (i 0).val < 256 := (i 0).isLt
  have h1 : (i 1).val < 1 := (i 1).isLt
  have h2 : (i 2).val < 128 := (i 2).isLt
  refine ⟨⟨(i 0).val, lt_of_lt_of_eq h0 N_0.symm⟩, flush0_13 _, ?_⟩
  obtain ⟨-, -, -, -, -, -, ⟨e0, e1, e2⟩⟩ := idxSc ⟨(i 0).val, lt_of_lt_of_eq h0 N_0.symm⟩
  rw [mem_blkSc]
  intro a
  match a with
  | ⟨0, _⟩ => show win0_13.index _ (0 : Fin 3) * 1 ≤ (i 0).val ∧ (i 0).val < win0_13.index _ (0 : Fin 3) * 1 + 1; rw [e0]; show (i 0).val * 1 ≤ (i 0).val ∧ (i 0).val < (i 0).val * 1 + 1; omega
  | ⟨1, _⟩ => show win0_13.index _ (1 : Fin 3) * 1 ≤ (i 1).val ∧ (i 1).val < win0_13.index _ (1 : Fin 3) * 1 + 1; rw [e1]; omega
  | ⟨2, _⟩ => show win0_13.index _ (2 : Fin 3) * 128 ≤ (i 2).val ∧ (i 2).val < win0_13.index _ (2 : Fin 3) * 128 + 128; rw [e2]; omega

/-- The second result array when the kernel has ended. -/
private theorem finalSc : (dat0 V c).arrAt 13 cfg0.N = arrSc V c :=
  (dat0 V c).arrAt_eq_of_cover 13 (arrSc V c) (fun t _ => flushedSc_eq V c t) (coverSc)

end Blocks

/-! ## The two result arrays at the kernel's exit -/

variable (m : (ℓ : Loc nD τ sig) → Buf (Elt Ideal) ℓ) (ρ : Dev nD → PrngReg) (c : Dev nD)

theorem pooledFc_apply (g : Fin 256) (n : Fin 128) :
    pooledFc m ρ c (ix3 g 0 n)
      = Cert.Spec.poolP (fun a f => nodeFc m ρ c (ix3 g a f)) (fun f k => w1p m ρ c (ix2 f k))
          (fun e => srcFc m ρ c (ix3 g 0 e)) (fun e => dstFc m ρ c (ix3 g 0 e)) (fun e => wFc m ρ c (ix3 g 0 e))
          (fun k => b1r m ρ c (ix2 0 k)) n := by
  have h : pooledFc m ρ c = arrFc (V17 m ρ) c := (W18_arr (F := Ideal) m ρ c 12).trans (finalFc (V17 m ρ) c)
  rw [h]
  exact poolArr_apply _ _ _ _ _ _ g n

theorem pooledSc_apply (g : Fin 256) (n : Fin 128) :
    pooledSc m ρ c (ix3 g 0 n)
      = Cert.Spec.poolP (fun a f => nodeSc m ρ c (ix3 g a f)) (fun f k => w2p m ρ c (ix2 f k))
          (fun e => srcSc m ρ c (ix3 g 0 e)) (fun e => dstSc m ρ c (ix3 g 0 e)) (fun e => wSc m ρ c (ix3 g 0 e))
          (fun k => b2r m ρ c (ix2 0 k)) n := by
  have h : pooledSc m ρ c = arrSc (V17 m ρ) c := (W18_arr (F := Ideal) m ρ c 13).trans (finalSc (V17 m ρ) c)
  rw [h]
  exact poolArr_apply _ _ _ _ _ _ g n

end Cert.KernelIdeal.KV

end
-- ==== Proof.HostEdges.lean ====
/-
  The first kernel's six edge operands when it starts, read at a graph and an edge slot: the graph's edge columns
  with the block's first node row subtracted, padded with zeros from slot 6670 on.

  Each operand is walked back from the kernel's start to the argument arrays: a stretch of host operations that does not
  write a buffer leaves it as it was, and the stretch that writes it applies one operation to earlier buffers. What is
  left is a composition of reshapes, slices, broadcasts, a subtraction and a padding of the edge table, which is then read
  at an index. The subtraction is done on 32-bit words; the edges lie inside their blocks, so it does not wrap.
-/
import proofs.«409833_j29446295781426_1_alg».proof.Proof.KArgs
import Idealize.ShloMosaic.Lib.KernelVsHost
import Idealize.ShloMosaic.Lib.ValueLayout
import Idealize.ShloMosaic.Lib.IdealHost
import Idealize.ShloMosaic.Lib.StableHlo.Predicate

noncomputable section

open scoped BigOperators

namespace Cert.KernelIdeal.KV

open Idealize.ShloMosaic Idealize.ShloMosaic.TcCoe Idealize.ShloMosaic.ValueIdx Idealize.SL.Sem Cert.KernelIdeal Cert.KernelIdeal.Gen

/-! ## Words: a difference that fits in 32 bits, read signed, is the difference of the readings -/

/-- The word `232 · g` of a graph `g < 256` reads as the number `232 g`. -/
private theorem toInt_blockBase (g : Fin 256) : (232#32 * BitVec.ofNat 32 g.val).toInt = 232 * (g.val : Int) := by
  have hg := g.isLt
  rw [BitVec.toInt_mul, show (232#32 : BitVec 32).toInt = 232 from by decide,
    StableHlo.Predicate.toInt_ofNat_small g.val (by omega)]
  exact Int.bmod_eq_of_le (by omega) (by omega)

/-- First view: an endpoint in `[232 g, 232 g + 116)` less the word `232 · g` is the node's number in its view. -/
private theorem toInt_rel0 (a : BitVec 32) (g : Fin 256)
    (h : Cert.Spec.base 0 g ≤ a.toInt ∧ a.toInt < Cert.Spec.base 0 g + 116) :
    (a - 232#32 * BitVec.ofNat 32 g.val).toInt = a.toInt - Cert.Spec.base 0 g := by
  have hb : Cert.Spec.base 0 g = 232 * (g.val : Int) := by unfold Cert.Spec.base; simp
  rw [hb] at h ⊢
  have hg := g.isLt
  rw [BitVec.toInt_sub, toInt_blockBase]
  exact Int.bmod_eq_of_le (by omega) (by omega)

/-- Second view: an endpoint in `[232 g + 116, 232 g + 232)` less `232 · g` and then `116`. -/
private theorem toInt_rel1 (a : BitVec 32) (g : Fin 256)
    (h : Cert.Spec.base 1 g ≤ a.toInt ∧ a.toInt < Cert.Spec.base 1 g + 116) :
    (a - 232#32 * BitVec.ofNat 32 g.val - 116#32).toInt = a.toInt - Cert.Spec.base 1 g := by
  have hb : Cert.Spec.base 1 g = 232 * (g.val : Int) + 116 := by unfold Cert.Spec.base; simp
  rw [hb] at h ⊢
  have hg := g.isLt
  have h1 : (a - 232#32 * BitVec.ofNat 32 g.val).toInt = a.toInt - 232 * (g.val : Int) := by
    rw [BitVec.toInt_sub, toInt_blockBase]
    exact Int.bmod_eq_of_le (by omega) (by omega)
  rw [BitVec.toInt_sub, h1, show (116#32 : BitVec 32).toInt = 116 from by decide]
  refine (Int.bmod_eq_of_le ?_ ?_).trans ?_ <;> omega

/-! ## The host's preparation of the edge operands, as functions of the edge table -/

section Prepared
variable {α : Type}

/-- `232 · g` at every index `(r, g, e)` of `[2, 256, 6670]`: the graph's first node row, broadcast. -/
private abbrev blockBase : S2x256x6670.Idx → BitVec 32 :=
  broadcastInDim S2x256x6670 ![0, 1, 2] bcast_S1x256x1_S2x256x6670_0_1_2
    (broadcastInDim S1x256x1 ![1] bcast_S256_S1x256x1_1
      (muli (broadcastInDim S256 ![] bcast_S_S256 (constantI S_ 32 232#32)) (iotaInDim S256 32 0)))

private theorem blockBase_apply (r : Fin 2) (g : Fin 256) (e : Fin 6670) :
    blockBase (ix3 r g e) = 232#32 * BitVec.ofNat 32 g.val := by
  refine (broadcastInDim_apply _ _ _ (ix3 r g e) (ix3 (0 : Fin 1) g (0 : Fin 1))
    (fun a => match a with | ⟨0, _⟩ => rfl | ⟨1, _⟩ => rfl | ⟨2, _⟩ => rfl)).trans ?_
  refine (broadcastInDim_apply _ _ _ (ix3 (0 : Fin 1) g (0 : Fin 1)) (ix1 g)
    (fun a => match a with | ⟨0, _⟩ => rfl)).trans ?_
  show IntOp.muli (broadcastInDim S256 ![] bcast_S_S256 (constantI S_ 32 232#32) (ix1 g)) (iotaInDim S256 32 0 (ix1 g)) = _
  rw [broadcastInDim_scalar_apply]
  rfl

/-- A table `[2, 3444736]` read as `[2, 256, 13456]`: graph `g`'s column `e` is column `13456 g + e`. -/
private theorem table3_apply (T : S2x3444736.Idx → α) (r : Fin 2) (g : Fin 256) (e : Fin 13456) :
    shapeCast S2x256x13456 T shapeCasts_S2x3444736_S2x256x13456 (ix3 r g e)
      = T (ix2 r ⟨13456 * g.val + e.val, by have := g.isLt; have := e.isLt; omega⟩) :=
  shapeCast_apply T _ _ _ (by
    rw [Shape.rowMajor_val_two, Shape.rowMajor_val_three]
    show r.val * 3444736 + (13456 * g.val + e.val) = (r.val * 256 + g.val) * 13456 + e.val
    omega)

/-- A vector `[3444736]` read as `[256, 13456]`. -/
private theorem table2_apply (T : S3444736.Idx → α) (g : Fin 256) (e : Fin 13456) :
    shapeCast S256x13456 T shapeCasts_S3444736_S256x13456 (ix2 g e)
      = T (ix1 ⟨13456 * g.val + e.val, by have := g.isLt; have := e.isLt; omega⟩) :=
  shapeCast_apply T _ _ _ (by
    rw [Shape.rowMajor_val_one, Shape.rowMajor_val_two]
    show 13456 * g.val + e.val = g.val * 13456 + e.val
    omega)

/-- The first view's columns `[0, 6670)` of each graph. -/
private theorem cols0_apply (X : S2x256x13456.Idx → α) (r : Fin 2) (g : Fin 256) (e : Fin 6670) :
    extractStridedSlice S2x256x6670 ![0, 0, 0] X slices_S2x256x13456_S2x256x6670_0_0_0 (ix3 r g e)
      = X (ix3 r g ⟨e.val, by have := e.isLt; omega⟩) :=
  extractStridedSlice_apply _ X _ _ _ (fun a => match a with
    | ⟨0, _⟩ => by show r.val = 0 + r.val; omega
    | ⟨1, _⟩ => by show g.val = 0 + g.val; omega
    | ⟨2, _⟩ => by show e.val = 0 + e.val; omega)

/-- The second view's columns `[6670, 13340)` of each graph. -/
private theorem cols1_apply (X : S2x256x13456.Idx → α) (r : Fin 2) (g : Fin 256) (e : Fin 6670) :
    extractStridedSlice S2x256x6670 ![0, 0, 6670] X slices_S2x256x13456_S2x256x6670_0_0_6670 (ix3 r g e)
      = X (ix3 r g ⟨6670 + e.val, by have := e.isLt; omega⟩) :=
  extractStridedSlice_apply _ X _ _ _ (fun a => match a with
    | ⟨0, _⟩ => by show r.val = 0 + r.val; omega
    | ⟨1, _⟩ => by show g.val = 0 + g.val; omega
    | ⟨2, _⟩ => by show 6670 + e.val = 6670 + e.val; rfl)

/-- Padding the edge axis from 6670 to 6784 slots with the scalar `z`: the operand below slot 6670, `z` from there on. -/
private theorem padI_apply (X : S2x256x6670.Idx → α) (z : S_.Idx → α) (r : Fin 2) (g : Fin 256) (e : Fin 6784) :
    pad S2x256x6784 ![0, 0, 0] ![0, 0, 114] ![0, 0, 0] X z pads_S2x256x6670_S2x256x6784_000_000_01140 h_S_ (ix3 r g e)
      = if h : e.val < 6670 then X (ix3 r g ⟨e.val, h⟩) else z ix0 := by
  by_cases h : e.val < 6670
  · rw [dif_pos h]
    exact pad_apply_of_inside _ _ _ X z _ _ (ix3 r g e) (ix3 r g ⟨e.val, h⟩) (fun a => match a with
      | ⟨0, _⟩ => by show r.val = 0 + r.val * (0 + 1); omega
      | ⟨1, _⟩ => by show g.val = 0 + g.val * (0 + 1); omega
      | ⟨2, _⟩ => by show e.val = 0 + e.val * (0 + 1); omega)
  · rw [dif_neg h]
    refine (pad_apply_of_not_inside _ _ _ X z _ _ (ix3 r g e) (2 : Fin 3) ?_).trans (congrArg z (eq_ix0 _))
    intro hc
    have h3 : (e.val - 0) / (0 + 1) < 6670 := hc.2.2
    rw [Nat.sub_zero, Nat.zero_add, Nat.div_one] at h3
    exact h h3

/-- The same for the weights `[256, 6670]`. -/
private theorem padF_apply (X : S256x6670.Idx → α) (z : S_.Idx → α) (g : Fin 256) (e : Fin 6784) :
    pad S256x6784 ![0, 0] ![0, 114] ![0, 0] X z pads_S256x6670_S256x6784_000_01140 h_S_ (ix2 g e)
      = if h : e.val < 6670 then X (ix2 g ⟨e.val, h⟩) else z ix0 := by
  by_cases h : e.val < 6670
  · rw [dif_pos h]
    exact pad_apply_of_inside _ _ _ X z _ _ (ix2 g e) (ix2 g ⟨e.val, h⟩) (fun a => match a with
      | ⟨0, _⟩ => by show g.val = 0 + g.val * (0 + 1); omega
      | ⟨1, _⟩ => by show e.val = 0 + e.val * (0 + 1); omega)
  · rw [dif_neg h]
    refine (pad_apply_of_not_inside _ _ _ X z _ _ (ix2 g e) (1 : Fin 2) ?_).trans (congrArg z (eq_ix0 _))
    intro hc
    have h3 : (e.val - 0) / (0 + 1) < 6670 := hc.2.2
    rw [Nat.sub_zero, Nat.zero_add, Nat.div_one] at h3
    exact h h3

/-- Row `r` of a `[2, 256, 6784]` array laid out as `[256, 1, 6784]`. -/
private theorem row0_apply (P : S2x256x6784.Idx → α) (g : Fin 256) (e : Fin 6784) :
    broadcastInDim S256x1x6784 ![0, 2] bcast_S256x6784_S256x1x6784_0_2
        (shapeCast S256x6784 (extractStridedSlice S1x256x6784 ![0, 0, 0] P slices_S2x256x6784_S1x256x6784_0_0_0)
          shapeCasts_S1x256x6784_S256x6784) (ix3 g (0 : Fin 1) e)
      = P (ix3 (0 : Fin 2) g e) := by
  refine (broadcastInDim_apply _ _ _ (ix3 g (0 : Fin 1) e) (ix2 g e)
    (fun a => match a with | ⟨0, _⟩ => rfl | ⟨1, _⟩ => rfl)).trans ?_
  refine (shapeCast_1ab_ab_apply _ _ g e).trans ?_
  exact extractStridedSlice_apply _ P _ _ _ (fun a => match a with
    | ⟨0, _⟩ => by show 0 = 0 + 0; rfl
    | ⟨1, _⟩ => by show g.val = 0 + g.val; omega
    | ⟨2, _⟩ => by show e.val = 0 + e.val; omega)

private theorem row1_apply (P : S2x256x6784.Idx → α) (g : Fin 256) (e : Fin 6784) :
    broadcastInDim S256x1x6784 ![0, 2] bcast_S256x6784_S256x1x6784_0_2
        (shapeCast S256x6784 (extractStridedSlice S1x256x6784 ![1, 0, 0] P slices_S2x256x6784_S1x256x6784_1_0_0)
          shapeCasts_S1x256x6784_S256x6784) (ix3 g (0 : Fin 1) e)
      = P (ix3 (1 : Fin 2) g e) := by
  refine (broadcastInDim_apply _ _ _ (ix3 g (0 : Fin 1) e) (ix2 g e)
    (fun a => match a with | ⟨0, _⟩ => rfl | ⟨1, _⟩ => rfl)).trans ?_
  refine (shapeCast_1ab_ab_apply _ _ g e).trans ?_
  exact extractStridedSlice_apply _ P _ _ _ (fun a => match a with
    | ⟨0, _⟩ => by show 1 = 1 + 0; rfl
    | ⟨1, _⟩ => by show g.val = 0 + g.val; omega
    | ⟨2, _⟩ => by show e.val = 0 + e.val; omega)

/-- A `[256, 6784]` array laid out as `[256, 1, 6784]`. -/
private theorem lay_apply (P : S256x6784.Idx → α) (g : Fin 256) (e : Fin 6784) :
    broadcastInDim S256x1x6784 ![0, 2] bcast_S256x6784_S256x1x6784_0_2 P (ix3 g (0 : Fin 1) e) = P (ix2 g e) :=
  broadcastInDim_apply _ _ _ (ix3 g (0 : Fin 1) e) (ix2 g e)
    (fun a => match a with | ⟨0, _⟩ => rfl | ⟨1, _⟩ => rfl)

end Prepared

section Prepared2
variable {α : Type}

private theorem subi_apply {s : Shape} {w : Nat} (x y : IVec s w) (i : s.Idx) : subi x y i = x i - y i := rfl

/-- The weights' first-view columns `[0, 6670)` of each graph, and the second view's `[6670, 13340)`. -/
private theorem wcols0_apply (X : S256x13456.Idx → α) (g : Fin 256) (e : Fin 6670) :
    extractStridedSlice S256x6670 ![0, 0] X slices_S256x13456_S256x6670_0_0 (ix2 g e)
      = X (ix2 g ⟨e.val, by have := e.isLt; omega⟩) :=
  extractStridedSlice_apply _ X _ _ _ (fun a => match a with
    | ⟨0, _⟩ => by show g.val = 0 + g.val; omega
    | ⟨1, _⟩ => by show e.val = 0 + e.val; omega)

private theorem wcols1_apply (X : S256x13456.Idx → α) (g : Fin 256) (e : Fin 6670) :
    extractStridedSlice S256x6670 ![0, 6670] X slices_S256x13456_S256x6670_0_6670 (ix2 g e)
      = X (ix2 g ⟨6670 + e.val, by have := e.isLt; omega⟩) :=
  extractStridedSlice_apply _ X _ _ _ (fun a => match a with
    | ⟨0, _⟩ => by show g.val = 0 + g.val; omega
    | ⟨1, _⟩ => by show 6670 + e.val = 6670 + e.val; rfl)

end Prepared2

/-! ## The prepared arrays as functions of the argument arrays, and their entries -/

/-- The first view's edge words, relative to the graph's block: columns `[0, 6670)`, `232 · g` subtracted. -/
private abbrev rel0 (EI : S2x3444736.Idx → BitVec 32) : S2x256x6670.Idx → BitVec 32 :=
  subi (extractStridedSlice S2x256x6670 ![0, 0, 0] (shapeCast S2x256x13456 EI shapeCasts_S2x3444736_S2x256x13456)
      slices_S2x256x13456_S2x256x6670_0_0_0) blockBase

/-- The second view's: columns `[6670, 13340)`, `232 · g` and then `116` subtracted. -/
private abbrev rel1 (EI : S2x3444736.Idx → BitVec 32) : S2x256x6670.Idx → BitVec 32 :=
  subi (subi (extractStridedSlice S2x256x6670 ![0, 0, 6670] (shapeCast S2x256x13456 EI shapeCasts_S2x3444736_S2x256x13456)
      slices_S2x256x13456_S2x256x6670_0_0_6670) blockBase)
    (broadcastInDim S2x256x6670 ![] bcast_S_S2x256x6670 (constantI S_ 32 116#32))

/-- The two views' weights. -/
private abbrev wcol0 (EW : S3444736.Idx → EReal) : S256x6670.Idx → EReal :=
  extractStridedSlice S256x6670 ![0, 0] (shapeCast S256x13456 EW shapeCasts_S3444736_S256x13456) slices_S256x13456_S256x6670_0_0
private abbrev wcol1 (EW : S3444736.Idx → EReal) : S256x6670.Idx → EReal :=
  extractStridedSlice S256x6670 ![0, 6670] (shapeCast S256x13456 EW shapeCasts_S3444736_S256x13456) slices_S256x13456_S256x6670_0_6670

private theorem rel0_apply (EI : S2x3444736.Idx → BitVec 32) (r : Fin 2) (g : Fin 256) (e : Fin 6670) :
    rel0 EI (ix3 r g e) = EI (ix2 r (Cert.Spec.ecol 0 g e)) - 232#32 * BitVec.ofNat 32 g.val := by
  show subi _ _ (ix3 r g e) = _
  rw [subi_apply, cols0_apply, table3_apply, blockBase_apply]
  exact congrArg (fun k => EI (ix2 r k) - 232#32 * BitVec.ofNat 32 g.val) (Fin.ext (by
    show 13456 * g.val + e.val = 13456 * g.val + 6670 * 0 + e.val
    omega))

private theorem rel1_apply (EI : S2x3444736.Idx → BitVec 32) (r : Fin 2) (g : Fin 256) (e : Fin 6670) :
    rel1 EI (ix3 r g e) = EI (ix2 r (Cert.Spec.ecol 1 g e)) - 232#32 * BitVec.ofNat 32 g.val - 116#32 := by
  show subi (subi _ _) _ (ix3 r g e) = _
  rw [subi_apply, subi_apply, cols1_apply, table3_apply, blockBase_apply, broadcastInDim_scalar_apply]
  exact congrArg (fun k => EI (ix2 r k) - 232#32 * BitVec.ofNat 32 g.val - 116#32) (Fin.ext (by
    show 13456 * g.val + (6670 + e.val) = 13456 * g.val + 6670 * 1 + e.val
    omega))

private theorem wcol0_apply (EW : S3444736.Idx → EReal) (g : Fin 256) (e : Fin 6670) :
    wcol0 EW (ix2 g e) = EW (ix1 (Cert.Spec.ecol 0 g e)) := by
  refine (wcols0_apply _ g e).trans ?_
  refine (table2_apply EW g _).trans ?_
  exact congrArg (fun k => EW (ix1 k)) (Fin.ext (by
    show 13456 * g.val + e.val = 13456 * g.val + 6670 * 0 + e.val
    omega))

private theorem wcol1_apply (EW : S3444736.Idx → EReal) (g : Fin 256) (e : Fin 6670) :
    wcol1 EW (ix2 g e) = EW (ix1 (Cert.Spec.ecol 1 g e)) := by
  refine (wcols1_apply _ g e).trans ?_
  refine (table2_apply EW g _).trans ?_
  exact congrArg (fun k => EW (ix1 k)) (Fin.ext (by
    show 13456 * g.val + (6670 + e.val) = 13456 * g.val + 6670 * 1 + e.val
    omega))

variable (m : (ℓ : Loc nD τ sig) → Buf (Elt Ideal) ℓ) (ρ : Dev nD → PrngReg) (c : Dev nD)

/-! ## What each stretch of host operations writes, from any contents `V` before it -/

section Stretches
variable (V : Valuation τ sig (Elt Ideal))

private theorem s0_v8 : (StableHlo.after hostOps0 V (Proc.devRef .tc main_v8) : S2x256x6670.Idx → BitVec 32)
    = rel0 (V (Proc.devRef .tc main_arg1) : S2x3444736.Idx → BitVec 32) := by
  after_results
  rfl

private theorem s0_v14 : (StableHlo.after hostOps0 V (Proc.devRef .tc main_v14) : S2x256x6670.Idx → BitVec 32)
    = rel1 (V (Proc.devRef .tc main_arg1) : S2x3444736.Idx → BitVec 32) := by
  after_results
  rfl

private theorem s0_v15 : (StableHlo.after hostOps0 V (Proc.devRef .tc main_v15) : S256x6670.Idx → EReal)
    = wcol0 (V (Proc.devRef .tc main_arg2) : S3444736.Idx → EReal) := by
  after_results
  rfl

private theorem s0_v16 : (StableHlo.after hostOps0 V (Proc.devRef .tc main_v16) : S256x6670.Idx → EReal)
    = wcol1 (V (Proc.devRef .tc main_arg2) : S3444736.Idx → EReal) := by
  after_results
  rfl

private theorem s0_c1 : (StableHlo.after hostOps0 V (Proc.devRef .tc main_c_1) : S_.Idx → BitVec 32) = constantI S_ 32 0#32 := by
  after_results

private theorem s2_c2 : (StableHlo.after hostOps0_2 V (Proc.devRef .tc main_c_2) : S_.Idx → BitVec 32) = constantI S_ 32 0#32 := by
  after_results

private theorem s4_c3 : (StableHlo.after hostOps0_4 V (Proc.devRef .tc main_c_3) : S_.Idx → BitVec 32) = constantI S_ 32 0#32 := by
  after_results

private theorem s6_c4 : (StableHlo.after hostOps0_6 V (Proc.devRef .tc main_c_4) : S_.Idx → BitVec 32) = constantI S_ 32 0#32 := by
  after_results

private theorem s1_v17 : (StableHlo.after hostOps0_1 V (Proc.devRef .tc main_v17) : S2x256x6784.Idx → BitVec 32)
    = pad S2x256x6784 ![0, 0, 0] ![0, 0, 114] ![0, 0, 0] (V (Proc.devRef .tc main_v8) : S2x256x6670.Idx → BitVec 32)
        (V (Proc.devRef .tc main_c_1) : S_.Idx → BitVec 32) pads_S2x256x6670_S2x256x6784_000_000_01140 h_S_ := by
  after_results
  rfl

private theorem s3_v18 : (StableHlo.after hostOps0_3 V (Proc.devRef .tc main_v18) : S2x256x6784.Idx → BitVec 32)
    = pad S2x256x6784 ![0, 0, 0] ![0, 0, 114] ![0, 0, 0] (V (Proc.devRef .tc main_v14) : S2x256x6670.Idx → BitVec 32)
        (V (Proc.devRef .tc main_c_2) : S_.Idx → BitVec 32) pads_S2x256x6670_S2x256x6784_000_000_01140 h_S_ := by
  after_results
  rfl

private theorem s5_v19 : (StableHlo.after hostOps0_5 V (Proc.devRef .tc main_v19) : S256x6784.Idx → EReal)
    = pad S256x6784 ![0, 0] ![0, 114] ![0, 0] (V (Proc.devRef .tc main_v15) : S256x6670.Idx → EReal)
        (sitofp .f32 (V (Proc.devRef .tc main_c_3) : S_.Idx → BitVec 32) : FVec Ideal S_ .f32)
        pads_S256x6670_S256x6784_000_01140 h_S_ := by
  after_results
  rfl

private theorem s7_v20 : (StableHlo.after hostOps0_7 V (Proc.devRef .tc main_v20) : S256x6784.Idx → EReal)
    = pad S256x6784 ![0, 0] ![0, 114] ![0, 0] (V (Proc.devRef .tc main_v16) : S256x6670.Idx → EReal)
        (sitofp .f32 (V (Proc.devRef .tc main_c_4) : S_.Idx → BitVec 32) : FVec Ideal S_ .f32)
        pads_S256x6670_S256x6784_000_01140 h_S_ := by
  after_results
  rfl

private theorem s8_v23 : (StableHlo.after hostOps0_8 V (Proc.devRef .tc main_v23) : S256x1x6784.Idx → BitVec 32)
    = broadcastInDim S256x1x6784 ![0, 2] bcast_S256x6784_S256x1x6784_0_2
        (shapeCast S256x6784
          (extractStridedSlice S1x256x6784 ![0, 0, 0] (V (Proc.devRef .tc main_v17) : S2x256x6784.Idx → BitVec 32)
            slices_S2x256x6784_S1x256x6784_0_0_0)
          shapeCasts_S1x256x6784_S256x6784) := by
  after_results
  rfl

private theorem s8_v26 : (StableHlo.after hostOps0_8 V (Proc.devRef .tc main_v26) : S256x1x6784.Idx → BitVec 32)
    = broadcastInDim S256x1x6784 ![0, 2] bcast_S256x6784_S256x1x6784_0_2
        (shapeCast S256x6784
          (extractStridedSlice S1x256x6784 ![1, 0, 0] (V (Proc.devRef .tc main_v17) : S2x256x6784.Idx → BitVec 32)
            slices_S2x256x6784_S1x256x6784_1_0_0)
          shapeCasts_S1x256x6784_S256x6784) := by
  after_results
  rfl

private theorem s8_v29 : (StableHlo.after hostOps0_8 V (Proc.devRef .tc main_v29) : S256x1x6784.Idx → BitVec 32)
    = broadcastInDim S256x1x6784 ![0, 2] bcast_S256x6784_S256x1x6784_0_2
        (shapeCast S256x6784
          (extractStridedSlice S1x256x6784 ![0, 0, 0] (V (Proc.devRef .tc main_v18) : S2x256x6784.Idx → BitVec 32)
            slices_S2x256x6784_S1x256x6784_0_0_0)
          shapeCasts_S1x256x6784_S256x6784) := by
  after_results
  rfl

private theorem s8_v32 : (StableHlo.after hostOps0_8 V (Proc.devRef .tc main_v32) : S256x1x6784.Idx → BitVec 32)
    = broadcastInDim S256x1x6784 ![0, 2] bcast_S256x6784_S256x1x6784_0_2
        (shapeCast S256x6784
          (extractStridedSlice S1x256x6784 ![1, 0, 0] (V (Proc.devRef .tc main_v18) : S2x256x6784.Idx → BitVec 32)
            slices_S2x256x6784_S1x256x6784_1_0_0)
          shapeCasts_S1x256x6784_S256x6784) := by
  after_results
  rfl

private theorem s8_v33 : (StableHlo.after hostOps0_8 V (Proc.devRef .tc main_v33) : S256x1x6784.Idx → EReal)
    = broadcastInDim S256x1x6784 ![0, 2] bcast_S256x6784_S256x1x6784_0_2
        (V (Proc.devRef .tc main_v19) : S256x6784.Idx → EReal) := by
  after_results

private theorem s8_v34 : (StableHlo.after hostOps0_8 V (Proc.devRef .tc main_v34) : S256x1x6784.Idx → EReal)
    = broadcastInDim S256x1x6784 ![0, 2] bcast_S256x6784_S256x1x6784_0_2
        (V (Proc.devRef .tc main_v20) : S256x6784.Idx → EReal) := by
  after_results

end Stretches

/-! ## The walk back from the kernel's start -/

/-- One stretch of host operations, none of which writes the buffer read, is stepped over. -/
local macro "keeps" : tactic => `(tactic| (
  refine (StableHlo.after_of_forall_not_mem _ _ (List.forall_iff_forall_mem.mp ?_)).trans ?_
  · simp only [hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, List.Forall,
      StableHlo.nullary_writes, StableHlo.unary_writes, StableHlo.binary_writes, StableHlo.reshape_writes, Finset.mem_singleton]
    repeat' apply And.intro
    all_goals exact StableHlo.devRef_ne_of_ne (by decide)))

/-- The padded first-view endpoint table `[2, 256, 6784]`, after the second weights' padding. -/
private theorem v17_eq : (W8 (F := Ideal) m ρ c (Proc.devRef .tc main_v17) : S2x256x6784.Idx → BitVec 32)
    = pad S2x256x6784 ![0, 0, 0] ![0, 0, 114] ![0, 0, 0] (rel0 (aEI m c)) (constantI S_ 32 0#32)
        pads_S2x256x6670_S2x256x6784_000_000_01140 h_S_ := by
  keeps; keeps; keeps; keeps; keeps; keeps
  refine (s1_v17 (W1 (F := Ideal) m ρ c)).trans ?_
  exact congrArg₂ (fun X z => pad S2x256x6784 ![0, 0, 0] ![0, 0, 114] ![0, 0, 0] X z
      pads_S2x256x6670_S2x256x6784_000_000_01140 h_S_) (s0_v8 (W0 (F := Ideal) m ρ c)) (s0_c1 (W0 (F := Ideal) m ρ c))

/-- The padded second-view endpoint table. -/
private theorem v18_eq : (W8 (F := Ideal) m ρ c (Proc.devRef .tc main_v18) : S2x256x6784.Idx → BitVec 32)
    = pad S2x256x6784 ![0, 0, 0] ![0, 0, 114] ![0, 0, 0] (rel1 (aEI m c)) (constantI S_ 32 0#32)
        pads_S2x256x6670_S2x256x6784_000_000_01140 h_S_ := by
  keeps; keeps; keeps; keeps
  refine (s3_v18 (W3 (F := Ideal) m ρ c)).trans ?_
  have h14 : (W3 (F := Ideal) m ρ c (Proc.devRef .tc main_v14) : S2x256x6670.Idx → BitVec 32) = rel1 (aEI m c) := by
    keeps; keeps
    exact s0_v14 (W0 (F := Ideal) m ρ c)
  exact congrArg₂ (fun X z => pad S2x256x6784 ![0, 0, 0] ![0, 0, 114] ![0, 0, 0] X z
      pads_S2x256x6670_S2x256x6784_000_000_01140 h_S_) h14 (s2_c2 (W2 (F := Ideal) m ρ c))

/-- The padded first-view weights `[256, 6784]`. -/
private theorem v19_eq : (W8 (F := Ideal) m ρ c (Proc.devRef .tc main_v19) : S256x6784.Idx → EReal)
    = pad S256x6784 ![0, 0] ![0, 114] ![0, 0] (wcol0 (aEW m c)) (sitofp .f32 (constantI S_ 32 0#32) : FVec Ideal S_ .f32)
        pads_S256x6670_S256x6784_000_01140 h_S_ := by
  keeps; keeps
  refine (s5_v19 (W5 (F := Ideal) m ρ c)).trans ?_
  have h15 : (W5 (F := Ideal) m ρ c (Proc.devRef .tc main_v15) : S256x6670.Idx → EReal) = wcol0 (aEW m c) := by
    keeps; keeps; keeps; keeps
    exact s0_v15 (W0 (F := Ideal) m ρ c)
  exact congrArg₂ (fun X (z : S_.Idx → BitVec 32) => pad S256x6784 ![0, 0] ![0, 114] ![0, 0] X (sitofp .f32 z : FVec Ideal S_ .f32)
      pads_S256x6670_S256x6784_000_01140 h_S_) h15 (s4_c3 (W4 (F := Ideal) m ρ c))

/-- The padded second-view weights. -/
private theorem v20_eq : (W8 (F := Ideal) m ρ c (Proc.devRef .tc main_v20) : S256x6784.Idx → EReal)
    = pad S256x6784 ![0, 0] ![0, 114] ![0, 0] (wcol1 (aEW m c)) (sitofp .f32 (constantI S_ 32 0#32) : FVec Ideal S_ .f32)
        pads_S256x6670_S256x6784_000_01140 h_S_ := by
  refine (s7_v20 (W7 (F := Ideal) m ρ c)).trans ?_
  have h16 : (W7 (F := Ideal) m ρ c (Proc.devRef .tc main_v16) : S256x6670.Idx → EReal) = wcol1 (aEW m c) := by
    keeps; keeps; keeps; keeps; keeps; keeps
    exact s0_v16 (W0 (F := Ideal) m ρ c)
  exact congrArg₂ (fun X (z : S_.Idx → BitVec 32) => pad S256x6784 ![0, 0] ![0, 114] ![0, 0] X (sitofp .f32 z : FVec Ideal S_ .f32)
      pads_S256x6670_S256x6784_000_01140 h_S_) h16 (s6_c4 (W6 (F := Ideal) m ρ c))

/-- The six operands at the kernel's start. -/
private theorem srcFc_eq : srcFc m ρ c
    = broadcastInDim S256x1x6784 ![0, 2] bcast_S256x6784_S256x1x6784_0_2
        (shapeCast S256x6784
          (extractStridedSlice S1x256x6784 ![0, 0, 0]
            (pad S2x256x6784 ![0, 0, 0] ![0, 0, 114] ![0, 0, 0] (rel0 (aEI m c)) (constantI S_ 32 0#32)
              pads_S2x256x6670_S2x256x6784_000_000_01140 h_S_)
            slices_S2x256x6784_S1x256x6784_0_0_0)
          shapeCasts_S1x256x6784_S256x6784) := by
  show (W17 (F := Ideal) m ρ c (Proc.devRef .tc main_v23) : S256x1x6784.Idx → BitVec 32) = _
  keeps; keeps; keeps; keeps; keeps; keeps; keeps; keeps
  refine (s8_v23 (W8 (F := Ideal) m ρ c)).trans ?_
  exact congrArg (fun P => broadcastInDim S256x1x6784 ![0, 2] bcast_S256x6784_S256x1x6784_0_2
    (shapeCast S256x6784 (extractStridedSlice S1x256x6784 ![0, 0, 0] P slices_S2x256x6784_S1x256x6784_0_0_0)
      shapeCasts_S1x256x6784_S256x6784)) (v17_eq m ρ c)

private theorem dstFc_eq : dstFc m ρ c
    = broadcastInDim S256x1x6784 ![0, 2] bcast_S256x6784_S256x1x6784_0_2
        (shapeCast S256x6784
          (extractStridedSlice S1x256x6784 ![1, 0, 0]
            (pad S2x256x6784 ![0, 0, 0] ![0, 0, 114] ![0, 0, 0] (rel0 (aEI m c)) (constantI S_ 32 0#32)
              pads_S2x256x6670_S2x256x6784_000_000_01140 h_S_)
            slices_S2x256x6784_S1x256x6784_1_0_0)
          shapeCasts_S1x256x6784_S256x6784) := by
  show (W17 (F := Ideal) m ρ c (Proc.devRef .tc main_v26) : S256x1x6784.Idx → BitVec 32) = _
  keeps; keeps; keeps; keeps; keeps; keeps; keeps; keeps
  refine (s8_v26 (W8 (F := Ideal) m ρ c)).trans ?_
  exact congrArg (fun P => broadcastInDim S256x1x6784 ![0, 2] bcast_S256x6784_S256x1x6784_0_2
    (shapeCast S256x6784 (extractStridedSlice S1x256x6784 ![1, 0, 0] P slices_S2x256x6784_S1x256x6784_1_0_0)
      shapeCasts_S1x256x6784_S256x6784)) (v17_eq m ρ c)

private theorem srcSc_eq : srcSc m ρ c
    = broadcastInDim S256x1x6784 ![0, 2] bcast_S256x6784_S256x1x6784_0_2
        (shapeCast S256x6784
          (extractStridedSlice S1x256x6784 ![0, 0, 0]
            (pad S2x256x6784 ![0, 0, 0] ![0, 0, 114] ![0, 0, 0] (rel1 (aEI m c)) (constantI S_ 32 0#32)
              pads_S2x256x6670_S2x256x6784_000_000_01140 h_S_)
            slices_S2x256x6784_S1x256x6784_0_0_0)
          shapeCasts_S1x256x6784_S256x6784) := by
  show (W17 (F := Ideal) m ρ c (Proc.devRef .tc main_v29) : S256x1x6784.Idx → BitVec 32) = _
  keeps; keeps; keeps; keeps; keeps; keeps; keeps; keeps
  refine (s8_v29 (W8 (F := Ideal) m ρ c)).trans ?_
  exact congrArg (fun P => broadcastInDim S256x1x6784 ![0, 2] bcast_S256x6784_S256x1x6784_0_2
    (shapeCast S256x6784 (extractStridedSlice S1x256x6784 ![0, 0, 0] P slices_S2x256x6784_S1x256x6784_0_0_0)
      shapeCasts_S1x256x6784_S256x6784)) (v18_eq m ρ c)

private theorem dstSc_eq : dstSc m ρ c
    = broadcastInDim S256x1x6784 ![0, 2] bcast_S256x6784_S256x1x6784_0_2
        (shapeCast S256x6784
          (extractStridedSlice S1x256x6784 ![1, 0, 0]
            (pad S2x256x6784 ![0, 0, 0] ![0, 0, 114] ![0, 0, 0] (rel1 (aEI m c)) (constantI S_ 32 0#32)
              pads_S2x256x6670_S2x256x6784_000_000_01140 h_S_)
            slices_S2x256x6784_S1x256x6784_1_0_0)
          shapeCasts_S1x256x6784_S256x6784) := by
  show (W17 (F := Ideal) m ρ c (Proc.devRef .tc main_v32) : S256x1x6784.Idx → BitVec 32) = _
  keeps; keeps; keeps; keeps; keeps; keeps; keeps; keeps
  refine (s8_v32 (W8 (F := Ideal) m ρ c)).trans ?_
  exact congrArg (fun P => broadcastInDim S256x1x6784 ![0, 2] bcast_S256x6784_S256x1x6784_0_2
    (shapeCast S256x6784 (extractStridedSlice S1x256x6784 ![1, 0, 0] P slices_S2x256x6784_S1x256x6784_1_0_0)
      shapeCasts_S1x256x6784_S256x6784)) (v18_eq m ρ c)

private theorem wFc_eq : wFc m ρ c
    = broadcastInDim S256x1x6784 ![0, 2] bcast_S256x6784_S256x1x6784_0_2
        (pad S256x6784 ![0, 0] ![0, 114] ![0, 0] (wcol0 (aEW m c)) (sitofp .f32 (constantI S_ 32 0#32) : FVec Ideal S_ .f32)
          pads_S256x6670_S256x6784_000_01140 h_S_) := by
  show (W17 (F := Ideal) m ρ c (Proc.devRef .tc main_v33) : S256x1x6784.Idx → EReal) = _
  keeps; keeps; keeps; keeps; keeps; keeps; keeps; keeps
  refine (s8_v33 (W8 (F := Ideal) m ρ c)).trans ?_
  exact congrArg (fun P => broadcastInDim S256x1x6784 ![0, 2] bcast_S256x6784_S256x1x6784_0_2 P) (v19_eq m ρ c)

private theorem wSc_eq : wSc m ρ c
    = broadcastInDim S256x1x6784 ![0, 2] bcast_S256x6784_S256x1x6784_0_2
        (pad S256x6784 ![0, 0] ![0, 114] ![0, 0] (wcol1 (aEW m c)) (sitofp .f32 (constantI S_ 32 0#32) : FVec Ideal S_ .f32)
          pads_S256x6670_S256x6784_000_01140 h_S_) := by
  show (W17 (F := Ideal) m ρ c (Proc.devRef .tc main_v34) : S256x1x6784.Idx → EReal) = _
  keeps; keeps; keeps; keeps; keeps; keeps; keeps; keeps
  refine (s8_v34 (W8 (F := Ideal) m ρ c)).trans ?_
  exact congrArg (fun P => broadcastInDim S256x1x6784 ![0, 2] bcast_S256x6784_S256x1x6784_0_2 P) (v20_eq m ρ c)

/-! ## The six operands read at a graph and an edge slot -/

theorem srcFc_apply (hIn : Cert.Spec.InBlock (aEI m c)) (g : Fin 256) (e : Fin 6784) :
    (srcFc m ρ c (ix3 g 0 e)).toInt
      = if h : e.val < 6670 then (Cert.Spec.srcW (aEI m c) 0 g ⟨e.val, h⟩).toInt - Cert.Spec.base 0 g else 0 := by
  rw [srcFc_eq m ρ c, row0_apply, padI_apply]
  by_cases h : e.val < 6670
  · rw [dif_pos h, dif_pos h, rel0_apply]
    exact toInt_rel0 (Cert.Spec.srcW (aEI m c) 0 g ⟨e.val, h⟩) g (hIn 0 g ⟨e.val, h⟩).1
  · rw [dif_neg h, dif_neg h]
    rfl

theorem dstFc_apply (hIn : Cert.Spec.InBlock (aEI m c)) (g : Fin 256) (e : Fin 6784) :
    (dstFc m ρ c (ix3 g 0 e)).toInt
      = if h : e.val < 6670 then (Cert.Spec.dstW (aEI m c) 0 g ⟨e.val, h⟩).toInt - Cert.Spec.base 0 g else 0 := by
  rw [dstFc_eq m ρ c, row1_apply, padI_apply]
  by_cases h : e.val < 6670
  · rw [dif_pos h, dif_pos h, rel0_apply]
    exact toInt_rel0 (Cert.Spec.dstW (aEI m c) 0 g ⟨e.val, h⟩) g (hIn 0 g ⟨e.val, h⟩).2
  · rw [dif_neg h, dif_neg h]
    rfl

theorem srcSc_apply (hIn : Cert.Spec.InBlock (aEI m c)) (g : Fin 256) (e : Fin 6784) :
    (srcSc m ρ c (ix3 g 0 e)).toInt
      = if h : e.val < 6670 then (Cert.Spec.srcW (aEI m c) 1 g ⟨e.val, h⟩).toInt - Cert.Spec.base 1 g else 0 := by
  rw [srcSc_eq m ρ c, row0_apply, padI_apply]
  by_cases h : e.val < 6670
  · rw [dif_pos h, dif_pos h, rel1_apply]
    exact toInt_rel1 (Cert.Spec.srcW (aEI m c) 1 g ⟨e.val, h⟩) g (hIn 1 g ⟨e.val, h⟩).1
  · rw [dif_neg h, dif_neg h]
    rfl

theorem dstSc_apply (hIn : Cert.Spec.InBlock (aEI m c)) (g : Fin 256) (e : Fin 6784) :
    (dstSc m ρ c (ix3 g 0 e)).toInt
      = if h : e.val < 6670 then (Cert.Spec.dstW (aEI m c) 1 g ⟨e.val, h⟩).toInt - Cert.Spec.base 1 g else 0 := by
  rw [dstSc_eq m ρ c, row1_apply, padI_apply]
  by_cases h : e.val < 6670
  · rw [dif_pos h, dif_pos h, rel1_apply]
    exact toInt_rel1 (Cert.Spec.dstW (aEI m c) 1 g ⟨e.val, h⟩) g (hIn 1 g ⟨e.val, h⟩).2
  · rw [dif_neg h, dif_neg h]
    rfl

/-- The padding value of the weights: the integer zero converted is the real zero. -/
private theorem zeroF : (sitofp .f32 (constantI S_ 32 0#32) : FVec Ideal S_ .f32) ix0 = 0 := by
  show ((((0#32 : BitVec 32).toInt : ℤ) : ℝ) : EReal) = 0
  simp

theorem wFc_apply (g : Fin 256) (e : Fin 6784) :
    wFc m ρ c (ix3 g 0 e) = if h : e.val < 6670 then Cert.Spec.wgt (aEW m c) 0 g ⟨e.val, h⟩ else 0 := by
  rw [wFc_eq m ρ c, lay_apply, padF_apply]
  by_cases h : e.val < 6670
  · rw [dif_pos h, dif_pos h, wcol0_apply]
    rfl
  · rw [dif_neg h, dif_neg h]
    exact zeroF

theorem wSc_apply (g : Fin 256) (e : Fin 6784) :
    wSc m ρ c (ix3 g 0 e) = if h : e.val < 6670 then Cert.Spec.wgt (aEW m c) 1 g ⟨e.val, h⟩ else 0 := by
  rw [wSc_eq m ρ c, lay_apply, padF_apply]
  by_cases h : e.val < 6670
  · rw [dif_pos h, dif_pos h, wcol1_apply]
    rfl
  · rw [dif_neg h, dif_neg h]
    exact zeroF

end Cert.KernelIdeal.KV

end
-- ==== Proof.HostNodes.lean ====
/-
  The first kernel's node, weight and bias operands when it starts, read at an index: each view's node rows of a
  graph padded with zeros to 128 by 128, the weight matrices padded with zero rows, the biases as rows.
-/
import proofs.«409833_j29446295781426_1_alg».proof.Proof.KArgs
import Idealize.ShloMosaic.Lib.KernelVsHost
import Idealize.ShloMosaic.Lib.ValueLayout

noncomputable section

open scoped BigOperators

namespace Cert.KernelIdeal.KV

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## Each buffer's whole contents as a term of the argument arrays

Between the launch and the first kernel no operation writes an argument array, and each of the six buffers is written
once: the fold of the host operations at the buffer is the writing operation applied to its operands' contents, down to
the launch memory. -/

/-- The first view's node rows, padded: the node table reshaped to graphs, rows `[0, 116)` cut out, padded with the
    converted integer zero. -/
theorem nodeFc_eq : nodeFc m ρ c
    = pad S256x128x128 ![0, 0, 0] ![0, 12, 13] ![0, 0, 0]
        (extractStridedSlice S256x116x115 ![0, 0, 0]
          (shapeCast S256x232x115 (aX m c) shapeCasts_S59392x115_S256x232x115) slices_S256x232x115_S256x116x115_0_0_0)
        (sitofp (F := Ideal) .f32 (constantI S_ 32 0#32)) pads_S256x116x115_S256x128x128_000_0120_0130 h_S_ := by
  show StableHlo.after hostOps0_16 (W16 (F := Ideal) m ρ c) (Proc.devRef .tc main_v38) = _
  after_results
  rfl

/-- The second view's node rows, padded: the same with rows `[116, 232)` cut out. -/
theorem nodeSc_eq : nodeSc m ρ c
    = pad S256x128x128 ![0, 0, 0] ![0, 12, 13] ![0, 0, 0]
        (extractStridedSlice S256x116x115 ![0, 116, 0]
          (shapeCast S256x232x115 (aX m c) shapeCasts_S59392x115_S256x232x115) slices_S256x232x115_S256x116x115_0_116_0)
        (sitofp (F := Ideal) .f32 (constantI S_ 32 0#32)) pads_S256x116x115_S256x128x128_000_0120_0130 h_S_ := by
  show StableHlo.after hostOps0_16 (W16 (F := Ideal) m ρ c) (Proc.devRef .tc main_v39) = _
  after_results
  rfl

/-- The first weight matrix with 13 rows of the converted integer zero below it. -/
theorem w1p_eq : w1p m ρ c
    = pad S128x128 ![0, 0] ![13, 0] ![0, 0] (aW1 m c) (sitofp (F := Ideal) .f32 (constantI S_ 32 0#32))
        pads_S115x128_S128x128_0130_000 h_S_ := by
  show StableHlo.after hostOps0_16 (W16 (F := Ideal) m ρ c) (Proc.devRef .tc main_v40) = _
  after_results
  rfl

/-- The second weight matrix, padded the same way. -/
theorem w2p_eq : w2p m ρ c
    = pad S128x128 ![0, 0] ![13, 0] ![0, 0] (aW2 m c) (sitofp (F := Ideal) .f32 (constantI S_ 32 0#32))
        pads_S115x128_S128x128_0130_000 h_S_ := by
  show StableHlo.after hostOps0_16 (W16 (F := Ideal) m ρ c) (Proc.devRef .tc main_v41) = _
  after_results
  rfl

/-- The first bias as one row. -/
theorem b1r_eq : b1r m ρ c = shapeCast S1x128 (ab1 m c) shapeCasts_S128_S1x128 := by
  show StableHlo.after hostOps0_16 (W16 (F := Ideal) m ρ c) (Proc.devRef .tc main_v42) = _
  after_results
  rfl

/-- The second bias as one row. -/
theorem b2r_eq : b2r m ρ c = shapeCast S1x128 (ab2 m c) shapeCasts_S128_S1x128 := by
  show StableHlo.after hostOps0_16 (W16 (F := Ideal) m ρ c) (Proc.devRef .tc main_v43) = _
  after_results
  rfl

/-! ## The operations read at an index -/

/-- The padding value: the integer zero converted is the real zero. -/
private theorem padZero (i : S_.Idx) : (sitofp (F := Ideal) .f32 (constantI S_ 32 0#32) : S_.Idx → EReal) i = 0 := by
  show ((((0#32 : BitVec 32).toInt : ℤ) : ℝ) : EReal) = 0
  simp

/-- A node table reshaped to graphs, its rows from `o = 116 v` on cut out (view `v`) and padded with `z` to 128 by 128,
    read at graph `g`, row `n`, column `f`. Inside the 116 by 115 corner the three index maps compose to the table's
    row `232 g + 116 v + n` (row-major: `(232 g + 116 v + n) · 115 + f = (g · 232 + (o + n)) · 115 + f`); outside it,
    on the row axis or on the column axis, it is the padding value. -/
private theorem padNodes_apply (X : S59392x115.Idx → EReal) (v : Fin 2) (o : Nat) (ho : o = 116 * v.val)
    (hs : S256x232x115.Slices ![0, o, 0] S256x116x115) (z : S_.Idx → EReal) (hz : ∀ i, z i = 0)
    (g : Fin 256) (n f : Fin 128) :
    pad S256x128x128 ![0, 0, 0] ![0, 12, 13] ![0, 0, 0]
        (extractStridedSlice S256x116x115 ![0, o, 0] (shapeCast S256x232x115 X shapeCasts_S59392x115_S256x232x115) hs)
        z pads_S256x116x115_S256x128x128_000_0120_0130 h_S_ (ix3 g n f)
      = if h : n.val < 116 ∧ f.val < 115 then X (ix2 (Cert.Spec.xrow v g ⟨n.val, h.1⟩) ⟨f.val, h.2⟩) else 0 := by
  by_cases h : n.val < 116 ∧ f.val < 115
  · rw [dif_pos h]
    have hv := v.isLt
    have hg := g.isLt
    refine (pad_apply_of_inside _ _ _ _ _ _ _ (ix3 g n f)
      (ix3 g (⟨n.val, h.1⟩ : Fin 116) (⟨f.val, h.2⟩ : Fin 115)) (fun a => ?_)).trans ?_
    · match a with
      | ⟨0, _⟩ => show g.val = 0 + g.val * (0 + 1); omega
      | ⟨1, _⟩ => show n.val = 0 + n.val * (0 + 1); omega
      | ⟨2, _⟩ => show f.val = 0 + f.val * (0 + 1); omega
    refine (slice3_axis1_apply o _ hs g (⟨n.val, h.1⟩ : Fin 116) (⟨f.val, h.2⟩ : Fin 115)
      (⟨o + n.val, by omega⟩ : Fin 232) rfl).trans ?_
    refine shapeCast_apply _ _ _ _ ?_
    rw [Shape.rowMajor_val_two, Shape.rowMajor_val_three]
    show (232 * g.val + 116 * v.val + n.val) * 115 + f.val = (g.val * 232 + (o + n.val)) * 115 + f.val
    omega
  · rw [dif_neg h]
    by_cases hn : n.val < 116
    · have hf : ¬ f.val < 115 := fun hf => h ⟨hn, hf⟩
      refine (pad_apply_of_not_inside _ _ _ _ _ _ _ (ix3 g n f) (⟨2, by decide⟩ : Fin 3) ?_).trans (hz _)
      show ¬ (0 ≤ f.val ∧ (f.val - 0) % (0 + 1) = 0 ∧ (f.val - 0) / (0 + 1) < 115)
      omega
    · refine (pad_apply_of_not_inside _ _ _ _ _ _ _ (ix3 g n f) (⟨1, by decide⟩ : Fin 3) ?_).trans (hz _)
      show ¬ (0 ≤ n.val ∧ (n.val - 0) % (0 + 1) = 0 ∧ (n.val - 0) / (0 + 1) < 116)
      omega

/-- A 115-row matrix with 13 rows of `z` below it, read at row `f`, column `k`: the matrix above row 115, the padding
    value from there on. -/
private theorem padRows_apply (W : S115x128.Idx → EReal) (z : S_.Idx → EReal) (hz : ∀ i, z i = 0) (f k : Fin 128) :
    pad S128x128 ![0, 0] ![13, 0] ![0, 0] W z pads_S115x128_S128x128_0130_000 h_S_ (ix2 f k)
      = if h : f.val < 115 then W (ix2 ⟨f.val, h⟩ k) else 0 := by
  by_cases h : f.val < 115
  · rw [dif_pos h]
    refine pad_apply_of_inside _ _ _ _ _ _ _ (ix2 f k) (ix2 (⟨f.val, h⟩ : Fin 115) k) (fun a => ?_)
    match a with
    | ⟨0, _⟩ => show f.val = 0 + f.val * (0 + 1); omega
    | ⟨1, _⟩ => show k.val = 0 + k.val * (0 + 1); omega
  · rw [dif_neg h]
    refine (pad_apply_of_not_inside _ _ _ _ _ _ _ (ix2 f k) (⟨0, by decide⟩ : Fin 2) ?_).trans (hz _)
    show ¬ (0 ≤ f.val ∧ (f.val - 0) % (0 + 1) = 0 ∧ (f.val - 0) / (0 + 1) < 115)
    omega

/-! ## The six operands at an index -/

theorem nodeFc_apply (g : Fin 256) (n f : Fin 128) :
    nodeFc m ρ c (ix3 g n f)
      = if h : n.val < 116 ∧ f.val < 115 then aX m c (ix2 (Cert.Spec.xrow 0 g ⟨n.val, h.1⟩) ⟨f.val, h.2⟩) else 0 := by
  rw [nodeFc_eq]
  exact padNodes_apply (aX m c) 0 0 rfl slices_S256x232x115_S256x116x115_0_0_0 _ padZero g n f

theorem nodeSc_apply (g : Fin 256) (n f : Fin 128) :
    nodeSc m ρ c (ix3 g n f)
      = if h : n.val < 116 ∧ f.val < 115 then aX m c (ix2 (Cert.Spec.xrow 1 g ⟨n.val, h.1⟩) ⟨f.val, h.2⟩) else 0 := by
  rw [nodeSc_eq]
  exact padNodes_apply (aX m c) 1 116 rfl slices_S256x232x115_S256x116x115_0_116_0 _ padZero g n f

theorem w1p_apply (f k : Fin 128) :
    w1p m ρ c (ix2 f k) = if h : f.val < 115 then aW1 m c (ix2 ⟨f.val, h⟩ k) else 0 := by
  rw [w1p_eq]
  exact padRows_apply (aW1 m c) _ padZero f k

theorem w2p_apply (f k : Fin 128) :
    w2p m ρ c (ix2 f k) = if h : f.val < 115 then aW2 m c (ix2 ⟨f.val, h⟩ k) else 0 := by
  rw [w2p_eq]
  exact padRows_apply (aW2 m c) _ padZero f k

theorem b1r_apply (k : Fin 128) : b1r m ρ c (ix2 0 k) = ab1 m c (ix1 k) := by
  rw [b1r_eq]
  exact shapeCast_a_1a_apply (ab1 m c) shapeCasts_S128_S1x128 0 k

theorem b2r_apply (k : Fin 128) : b2r m ρ c (ix2 0 k) = ab2 m c (ix1 k) := by
  rw [b2r_eq]
  exact shapeCast_a_1a_apply (ab2 m c) shapeCasts_S128_S1x128 0 k

end Cert.KernelIdeal.KV

end
-- ==== Proof.HostMid.lean ====
/-
  The second kernel's operands when it starts, read at an index: the two views' pooled values of a graph's 116 real
  nodes interleaved node by node into 232 features and padded with zeros to 256; the first layer's weights padded with
  zero rows; its bias as a row; the second layer's weights and bias in column 0.
-/
import proofs.«409833_j29446295781426_1_alg».proof.Proof.KArgs
import Idealize.ShloMosaic.Lib.KernelVsHost
import Idealize.ShloMosaic.Lib.ValueLayout
import Idealize.ShloMosaic.Lib.StableHlo.Run

noncomputable section

open scoped BigOperators

namespace Cert.KernelIdeal.KV

open Idealize.ShloMosaic Idealize.ShloMosaic.TcCoe Idealize.ShloMosaic.ValueIdx Idealize.SL.Sem Cert.KernelIdeal Cert.KernelIdeal.Gen

/-! ## The layout operations between the two kernels, read at an index -/

section AtIndex
variable {α : Type}

/-- One view's piece of the interleaving, at node `n`: the pooled value of node `n`. -/
private theorem piece_apply (P : S256x1x128.Idx → α) (g : Fin 256) (n : Fin 116) :
    broadcastInDim S256x116x1 ![0, 1] bcast_S256x116_S256x116x1_0_1
        (shapeCast S256x116 (extractStridedSlice S256x1x116 ![0, 0, 0] P slices_S256x1x128_S256x1x116_0_0_0)
          shapeCasts_S256x1x116_S256x116) (ix3 g n (0 : Fin 1))
      = P (ix3 g 0 ⟨n.val, by omega⟩) := by
  refine (broadcastInDim_apply _ _ _ (ix3 g n (0 : Fin 1)) (ix2 g n) (fun a => ?_)).trans ?_
  · match a with
    | ⟨0, _⟩ => rfl
    | ⟨1, _⟩ => rfl
  refine (shapeCast_apply _ _ (ix2 g n) (ix3 g (0 : Fin 1) n) ?_).trans ?_
  · rw [Shape.rowMajor_val_three, Shape.rowMajor_val_two]
    show (g.val * 1 + 0) * 116 + n.val = g.val * 116 + n.val
    omega
  exact extractStridedSlice_apply _ _ _ (ix3 g (0 : Fin 1) n) (ix3 g 0 ⟨n.val, by omega⟩) (fun a => by
    match a with
    | ⟨0, _⟩ => exact (Nat.zero_add _).symm
    | ⟨1, _⟩ => exact (Nat.zero_add _).symm
    | ⟨2, _⟩ => exact (Nat.zero_add _).symm)

/-- The two views interleaved node by node: feature `j` is node `j / 2` of view `j % 2`. -/
private theorem interleave_apply (P Q : S256x1x128.Idx → α) (g : Fin 256) (j : Fin 232) :
    shapeCast S256x232 (concatenate S256x116x2 2
        [⟨S256x116x1, broadcastInDim S256x116x1 ![0, 1] bcast_S256x116_S256x116x1_0_1
            (shapeCast S256x116 (extractStridedSlice S256x1x116 ![0, 0, 0] P slices_S256x1x128_S256x1x116_0_0_0) shapeCasts_S256x1x116_S256x116)⟩,
         ⟨S256x116x1, broadcastInDim S256x116x1 ![0, 1] bcast_S256x116_S256x116x1_0_1
            (shapeCast S256x116 (extractStridedSlice S256x1x116 ![0, 0, 0] Q slices_S256x1x128_S256x1x116_0_0_0) shapeCasts_S256x1x116_S256x116)⟩]
        concatenates_S256x116x1_S256x116x1_S256x116x2_d2) shapeCasts_S256x116x2_S256x232 (ix2 g j)
      = if j.val % 2 = 0 then P (ix3 g 0 ⟨j.val / 2, by omega⟩) else Q (ix3 g 0 ⟨j.val / 2, by omega⟩) := by
  have hj := j.isLt
  refine (shapeCast_apply _ _ (ix2 g j)
    (ix3 g (⟨j.val / 2, by omega⟩ : Fin 116) (⟨j.val % 2, Nat.mod_lt _ (by decide)⟩ : Fin 2)) ?_).trans ?_
  · rw [Shape.rowMajor_val_three, Shape.rowMajor_val_two]
    show (g.val * 116 + j.val / 2) * 2 + j.val % 2 = g.val * 232 + j.val
    omega
  by_cases h0 : j.val % 2 = 0
  · rw [if_pos h0]
    refine (concatenate_pair_apply_left (t := S256x116x2) (s₁ := S256x116x1) (s₂ := S256x116x1) 2 _ _ _
      (ix3 g (⟨j.val / 2, by omega⟩ : Fin 116) (⟨j.val % 2, Nat.mod_lt _ (by decide)⟩ : Fin 2)) rfl
      (ix3 g (⟨j.val / 2, by omega⟩ : Fin 116) (0 : Fin 1)) (fun b => ?_)).trans (piece_apply P g _)
    match b with
    | ⟨0, _⟩ => rfl
    | ⟨1, _⟩ => rfl
    | ⟨2, _⟩ => exact h0.symm
  · rw [if_neg h0]
    refine (concatenate_pair_apply_right (t := S256x116x2) (s₁ := S256x116x1) (s₂ := S256x116x1) 2 _ _ _
      (ix3 g (⟨j.val / 2, by omega⟩ : Fin 116) (⟨j.val % 2, Nat.mod_lt _ (by decide)⟩ : Fin 2)) rfl rfl
      (ix3 g (⟨j.val / 2, by omega⟩ : Fin 116) (0 : Fin 1)) (fun b hb => ?_) ?_).trans (piece_apply Q g _)
    · match b with
      | ⟨0, _⟩ => rfl
      | ⟨1, _⟩ => rfl
      | ⟨2, _⟩ => exact absurd rfl hb
    · show 0 + 1 = j.val % 2
      omega

end AtIndex

section Pad
variable {α : Type}

/-- Padding on the high side only, no interior padding, rank 2: inside the operand it is the operand, outside it the
    padding value. -/
private theorem pad_high2_apply {n0 n1 t0 t1 : Nat} (hi : Fin 2 → Nat) (x : (⟨2, ![n0, n1]⟩ : Shape).Idx → α) {u : Shape}
    (v : u.Idx → α) (h : (⟨2, ![n0, n1]⟩ : Shape).Pads (![0, 0] : Fin 2 → Nat) hi ![0, 0] ⟨2, ![t0, t1]⟩) (hu : 0 < u.numel)
    (a : Fin t0) (b : Fin t1) :
    pad ⟨2, ![t0, t1]⟩ ![0, 0] hi ![0, 0] x v h hu (ix2 a b)
      = if hab : a.val < n0 ∧ b.val < n1 then x (ix2 ⟨a.val, hab.1⟩ ⟨b.val, hab.2⟩) else v (Shape.Idx.first hu) := by
  by_cases hab : a.val < n0 ∧ b.val < n1
  · rw [dif_pos hab]
    refine pad_apply_of_inside _ _ _ x v h hu _ (ix2 ⟨a.val, hab.1⟩ ⟨b.val, hab.2⟩) (fun ax => ?_)
    match ax with
    | ⟨0, _⟩ =>
      show a.val = 0 + a.val * (0 + 1)
      omega
    | ⟨1, _⟩ =>
      show b.val = 0 + b.val * (0 + 1)
      omega
  · rw [dif_neg hab]
    by_cases ha : a.val < n0
    · have hb : ¬ b.val < n1 := fun hb => hab ⟨ha, hb⟩
      refine pad_apply_of_not_inside _ _ _ x v h hu _ (1 : Fin 2) (fun hh => hb ?_)
      have h3 : (b.val - 0) / (0 + 1) < n1 := hh.2.2
      simpa using h3
    · refine pad_apply_of_not_inside _ _ _ x v h hu _ (0 : Fin 2) (fun hh => ha ?_)
      have h3 : (a.val - 0) / (0 + 1) < n0 := hh.2.2
      simpa using h3

end Pad

variable (m : (ℓ : Loc nD τ sig) → Buf (Elt Ideal) ℓ) (ρ : Dev nD → PrngReg) (c : Dev nD)

/-! ## The buffers between the two kernels, as terms of the first kernel's results and of the arguments -/

/-- A stretch of host operations that does not write a buffer leaves it as it was. -/
local macro "step_over" : tactic =>
  `(tactic| (refine StableHlo.after_of_forall_not_mem _ _ (List.forall_iff_forall_mem.mp ?_)
             simp only [hostOps1_2, hostOps1_3, hostOps1_4, hostOps1_5, hostOps1_6, hostOps1_7, hostOps2,
               List.flatten_cons, List.flatten_nil, List.append_nil, List.cons_append,
               List.nil_append, List.Forall, StableHlo.nullary_writes, StableHlo.unary_writes, StableHlo.binary_writes,
               StableHlo.reshape_writes, Finset.mem_singleton]
             repeat' apply And.intro
             all_goals exact StableHlo.devRef_ne_of_ne (by decide)))

/-- The padding value every one of the four paddings uses: the integer zero converted, the float zero. -/
private theorem padval_zero (i : S_.Idx) : (sitofp .f32 (constantI S_ 32 0#32) : FVec Ideal S_ .f32) i = 0 := by
  show ((((0#32 : BitVec 32).toInt : ℤ) : ℝ) : EReal) = 0
  simp

/-! ### The features -/

private theorem v52_eq : (W19 (F := Ideal) m ρ c (Proc.devRef .tc main_v52) : S256x232.Idx → EReal)
    = shapeCast S256x232 (concatenate S256x116x2 2
        [⟨S256x116x1, broadcastInDim S256x116x1 ![0, 1] bcast_S256x116_S256x116x1_0_1
            (shapeCast S256x116 (extractStridedSlice S256x1x116 ![0, 0, 0] (pooledFc m ρ c) slices_S256x1x128_S256x1x116_0_0_0) shapeCasts_S256x1x116_S256x116)⟩,
         ⟨S256x116x1, broadcastInDim S256x116x1 ![0, 1] bcast_S256x116_S256x116x1_0_1
            (shapeCast S256x116 (extractStridedSlice S256x1x116 ![0, 0, 0] (pooledSc m ρ c) slices_S256x1x128_S256x1x116_0_0_0) shapeCasts_S256x1x116_S256x116)⟩]
        concatenates_S256x116x1_S256x116x1_S256x116x2_d2) shapeCasts_S256x116x2_S256x232 := by
  show StableHlo.after hostOps1 (W18 m ρ c) (Proc.devRef .tc main_v52) = _
  after_results
  rfl

private theorem c9_eq : (W19 (F := Ideal) m ρ c (Proc.devRef .tc main_c_9) : IVec S_ 32) = constantI S_ 32 0#32 := by
  show StableHlo.after hostOps1 (W18 m ρ c) (Proc.devRef .tc main_c_9) = _
  after_results

private theorem v53_eq : (W20 (F := Ideal) m ρ c (Proc.devRef .tc main_v53) : S256x256.Idx → EReal)
    = pad S256x256 ![0, 0] ![0, 24] ![0, 0] (W19 (F := Ideal) m ρ c (Proc.devRef .tc main_v52) : S256x232.Idx → EReal)
        (sitofp .f32 (W19 (F := Ideal) m ρ c (Proc.devRef .tc main_c_9) : IVec S_ 32) : FVec Ideal S_ .f32)
        pads_S256x232_S256x256_000_0240 h_S_ := by
  show StableHlo.after hostOps1_1 (W19 m ρ c) (Proc.devRef .tc main_v53) = _
  after_results
  rfl

private theorem featP_walk : featP m ρ c = (W20 (F := Ideal) m ρ c (Proc.devRef .tc main_v53) : S256x256.Idx → EReal) :=
  calc W26 (F := Ideal) m ρ c (Proc.devRef .tc main_v53)
    _ = W25 m ρ c (Proc.devRef .tc main_v53) := by step_over
    _ = W24 m ρ c (Proc.devRef .tc main_v53) := by step_over
    _ = W23 m ρ c (Proc.devRef .tc main_v53) := by step_over
    _ = W22 m ρ c (Proc.devRef .tc main_v53) := by step_over
    _ = W21 m ρ c (Proc.devRef .tc main_v53) := by step_over
    _ = W20 m ρ c (Proc.devRef .tc main_v53) := by step_over

/-- The features when the second kernel starts: the two views' results cut to their 116 nodes, interleaved, padded. -/
private theorem featP_eq : featP m ρ c
    = pad S256x256 ![0, 0] ![0, 24] ![0, 0]
        (shapeCast S256x232 (concatenate S256x116x2 2
          [⟨S256x116x1, broadcastInDim S256x116x1 ![0, 1] bcast_S256x116_S256x116x1_0_1
              (shapeCast S256x116 (extractStridedSlice S256x1x116 ![0, 0, 0] (pooledFc m ρ c) slices_S256x1x128_S256x1x116_0_0_0) shapeCasts_S256x1x116_S256x116)⟩,
           ⟨S256x116x1, broadcastInDim S256x116x1 ![0, 1] bcast_S256x116_S256x116x1_0_1
              (shapeCast S256x116 (extractStridedSlice S256x1x116 ![0, 0, 0] (pooledSc m ρ c) slices_S256x1x128_S256x1x116_0_0_0) shapeCasts_S256x1x116_S256x116)⟩]
          concatenates_S256x116x1_S256x116x1_S256x116x2_d2) shapeCasts_S256x116x2_S256x232)
        (sitofp .f32 (constantI S_ 32 0#32) : FVec Ideal S_ .f32) pads_S256x232_S256x256_000_0240 h_S_ :=
  (featP_walk m ρ c).trans ((v53_eq m ρ c).trans (by rw [v52_eq, c9_eq]))

theorem featP_apply (g : Fin 256) (j : Fin 256) :
    featP m ρ c (ix2 g j)
      = if h : j.val < 232 then
          (if j.val % 2 = 0 then pooledFc m ρ c (ix3 g 0 ⟨j.val / 2, by omega⟩)
           else pooledSc m ρ c (ix3 g 0 ⟨j.val / 2, by omega⟩))
        else 0 := by
  rw [featP_eq, pad_high2_apply]
  by_cases h : j.val < 232
  · rw [dif_pos h, dif_pos ⟨g.isLt, h⟩]
    exact interleave_apply (pooledFc m ρ c) (pooledSc m ρ c) ⟨g.val, g.isLt⟩ ⟨j.val, h⟩
  · rw [dif_neg h, dif_neg (fun hab => h hab.2)]
    exact padval_zero _

/-! ### The first layer's weights -/

private theorem arg8_W21 : (W21 (F := Ideal) m ρ c (Proc.devRef .tc main_arg8) : S232x512.Idx → EReal) = aW6 m c :=
  (calc W28 (F := Ideal) m ρ c (Proc.devRef .tc main_arg8)
    _ = W27 m ρ c (Proc.devRef .tc main_arg8) := by step_over
    _ = W26 m ρ c (Proc.devRef .tc main_arg8) := W27_of_ne m ρ c main_arg8 (by decide)
    _ = W25 m ρ c (Proc.devRef .tc main_arg8) := by step_over
    _ = W24 m ρ c (Proc.devRef .tc main_arg8) := by step_over
    _ = W23 m ρ c (Proc.devRef .tc main_arg8) := by step_over
    _ = W22 m ρ c (Proc.devRef .tc main_arg8) := by step_over
    _ = W21 m ρ c (Proc.devRef .tc main_arg8) := by step_over).symm.trans (W28_main_arg8 m ρ c)

private theorem c10_eq : (W21 (F := Ideal) m ρ c (Proc.devRef .tc main_c_10) : IVec S_ 32) = constantI S_ 32 0#32 := by
  show StableHlo.after hostOps1_2 (W20 m ρ c) (Proc.devRef .tc main_c_10) = _
  after_results

private theorem v54_eq : (W22 (F := Ideal) m ρ c (Proc.devRef .tc main_v54) : S256x512.Idx → EReal)
    = pad S256x512 ![0, 0] ![24, 0] ![0, 0] (W21 (F := Ideal) m ρ c (Proc.devRef .tc main_arg8) : S232x512.Idx → EReal)
        (sitofp .f32 (W21 (F := Ideal) m ρ c (Proc.devRef .tc main_c_10) : IVec S_ 32) : FVec Ideal S_ .f32)
        pads_S232x512_S256x512_0240_000 h_S_ := by
  show StableHlo.after hostOps1_3 (W21 m ρ c) (Proc.devRef .tc main_v54) = _
  after_results
  rfl

private theorem w6p_walk : w6p m ρ c = (W22 (F := Ideal) m ρ c (Proc.devRef .tc main_v54) : S256x512.Idx → EReal) :=
  calc W26 (F := Ideal) m ρ c (Proc.devRef .tc main_v54)
    _ = W25 m ρ c (Proc.devRef .tc main_v54) := by step_over
    _ = W24 m ρ c (Proc.devRef .tc main_v54) := by step_over
    _ = W23 m ρ c (Proc.devRef .tc main_v54) := by step_over
    _ = W22 m ρ c (Proc.devRef .tc main_v54) := by step_over

/-- The first layer's weights when the second kernel starts: the argument with 24 rows of the float zero below. -/
private theorem w6p_eq : w6p m ρ c
    = pad S256x512 ![0, 0] ![24, 0] ![0, 0] (aW6 m c) (sitofp .f32 (constantI S_ 32 0#32) : FVec Ideal S_ .f32)
        pads_S232x512_S256x512_0240_000 h_S_ :=
  (w6p_walk m ρ c).trans ((v54_eq m ρ c).trans (by rw [arg8_W21, c10_eq]))

theorem w6p_apply (j : Fin 256) (k : Fin 512) :
    w6p m ρ c (ix2 j k) = if h : j.val < 232 then aW6 m c (ix2 ⟨j.val, h⟩ k) else 0 := by
  rw [w6p_eq, pad_high2_apply]
  by_cases h : j.val < 232
  · rw [dif_pos h, dif_pos ⟨h, k.isLt⟩]
  · rw [dif_neg h, dif_neg (fun hab => h hab.1)]
    exact padval_zero _

/-! ### The first layer's bias -/

private theorem arg9_W22 : (W22 (F := Ideal) m ρ c (Proc.devRef .tc main_arg9) : S512.Idx → EReal) = ab6 m c :=
  (calc W28 (F := Ideal) m ρ c (Proc.devRef .tc main_arg9)
    _ = W27 m ρ c (Proc.devRef .tc main_arg9) := by step_over
    _ = W26 m ρ c (Proc.devRef .tc main_arg9) := W27_of_ne m ρ c main_arg9 (by decide)
    _ = W25 m ρ c (Proc.devRef .tc main_arg9) := by step_over
    _ = W24 m ρ c (Proc.devRef .tc main_arg9) := by step_over
    _ = W23 m ρ c (Proc.devRef .tc main_arg9) := by step_over
    _ = W22 m ρ c (Proc.devRef .tc main_arg9) := by step_over).symm.trans (W28_main_arg9 m ρ c)

private theorem v55_eq : (W23 (F := Ideal) m ρ c (Proc.devRef .tc main_v55) : S1x512.Idx → EReal)
    = shapeCast S1x512 (W22 (F := Ideal) m ρ c (Proc.devRef .tc main_arg9) : S512.Idx → EReal) shapeCasts_S512_S1x512 := by
  show StableHlo.after hostOps1_4 (W22 m ρ c) (Proc.devRef .tc main_v55) = _
  after_results
  rfl

private theorem b6r_walk : b6r m ρ c = (W23 (F := Ideal) m ρ c (Proc.devRef .tc main_v55) : S1x512.Idx → EReal) :=
  calc W26 (F := Ideal) m ρ c (Proc.devRef .tc main_v55)
    _ = W25 m ρ c (Proc.devRef .tc main_v55) := by step_over
    _ = W24 m ρ c (Proc.devRef .tc main_v55) := by step_over
    _ = W23 m ρ c (Proc.devRef .tc main_v55) := by step_over

/-- The first layer's bias when the second kernel starts: the argument as one row. -/
private theorem b6r_eq : b6r m ρ c = shapeCast S1x512 (ab6 m c) shapeCasts_S512_S1x512 :=
  (b6r_walk m ρ c).trans ((v55_eq m ρ c).trans (by rw [arg9_W22]))

theorem b6r_apply (k : Fin 512) : b6r m ρ c (ix2 0 k) = ab6 m c (ix1 k) := by
  rw [b6r_eq]
  exact shapeCast_a_1a_apply (ab6 m c) shapeCasts_S512_S1x512 0 k

/-! ### The second layer's weights -/

private theorem arg10_W23 : (W23 (F := Ideal) m ρ c (Proc.devRef .tc main_arg10) : S512x1.Idx → EReal) = aW7 m c :=
  (calc W28 (F := Ideal) m ρ c (Proc.devRef .tc main_arg10)
    _ = W27 m ρ c (Proc.devRef .tc main_arg10) := by step_over
    _ = W26 m ρ c (Proc.devRef .tc main_arg10) := W27_of_ne m ρ c main_arg10 (by decide)
    _ = W25 m ρ c (Proc.devRef .tc main_arg10) := by step_over
    _ = W24 m ρ c (Proc.devRef .tc main_arg10) := by step_over
    _ = W23 m ρ c (Proc.devRef .tc main_arg10) := by step_over).symm.trans (W28_main_arg10 m ρ c)

private theorem v56_eq : (W24 (F := Ideal) m ρ c (Proc.devRef .tc main_v56) : S512x128.Idx → EReal)
    = pad S512x128 ![0, 0] ![0, 127] ![0, 0] (W23 (F := Ideal) m ρ c (Proc.devRef .tc main_arg10) : S512x1.Idx → EReal)
        (sitofp .f32 (W23 (F := Ideal) m ρ c (Proc.devRef .tc main_c_11) : IVec S_ 32) : FVec Ideal S_ .f32)
        pads_S512x1_S512x128_000_01270 h_S_ := by
  show StableHlo.after hostOps1_5 (W23 m ρ c) (Proc.devRef .tc main_v56) = _
  after_results
  rfl

private theorem w7p_walk : w7p m ρ c = (W24 (F := Ideal) m ρ c (Proc.devRef .tc main_v56) : S512x128.Idx → EReal) :=
  calc W26 (F := Ideal) m ρ c (Proc.devRef .tc main_v56)
    _ = W25 m ρ c (Proc.devRef .tc main_v56) := by step_over
    _ = W24 m ρ c (Proc.devRef .tc main_v56) := by step_over

theorem w7p_apply (k : Fin 512) : w7p m ρ c (ix2 k 0) = aW7 m c (ix2 k 0) := by
  rw [w7p_walk, v56_eq, arg10_W23, pad_high2_apply, dif_pos ⟨k.isLt, Nat.zero_lt_one⟩]
  rfl

/-! ### The second layer's bias -/

private theorem arg11_W24 : (W24 (F := Ideal) m ρ c (Proc.devRef .tc main_arg11) : S1.Idx → EReal) = ab7 m c :=
  (calc W28 (F := Ideal) m ρ c (Proc.devRef .tc main_arg11)
    _ = W27 m ρ c (Proc.devRef .tc main_arg11) := by step_over
    _ = W26 m ρ c (Proc.devRef .tc main_arg11) := W27_of_ne m ρ c main_arg11 (by decide)
    _ = W25 m ρ c (Proc.devRef .tc main_arg11) := by step_over
    _ = W24 m ρ c (Proc.devRef .tc main_arg11) := by step_over).symm.trans (W28_main_arg11 m ρ c)

private theorem v57_eq : (W25 (F := Ideal) m ρ c (Proc.devRef .tc main_v57) : S1x1.Idx → EReal)
    = shapeCast S1x1 (W24 (F := Ideal) m ρ c (Proc.devRef .tc main_arg11) : S1.Idx → EReal) shapeCasts_S1_S1x1 := by
  show StableHlo.after hostOps1_6 (W24 m ρ c) (Proc.devRef .tc main_v57) = _
  after_results
  rfl

private theorem v58_eq : (b7p m ρ c : S1x128.Idx → EReal)
    = pad S1x128 ![0, 0] ![0, 127] ![0, 0] (W25 (F := Ideal) m ρ c (Proc.devRef .tc main_v57) : S1x1.Idx → EReal)
        (sitofp .f32 (W25 (F := Ideal) m ρ c (Proc.devRef .tc main_c_12) : IVec S_ 32) : FVec Ideal S_ .f32)
        pads_S1x1_S1x128_000_01270 h_S_ := by
  show StableHlo.after hostOps1_7 (W25 m ρ c) (Proc.devRef .tc main_v58) = _
  after_results
  rfl

theorem b7p_apply : b7p m ρ c (ix2 0 0) = ab7 m c (ix1 0) := by
  rw [v58_eq, v57_eq, arg11_W24, pad_high2_apply, dif_pos ⟨Nat.zero_lt_one, Nat.zero_lt_one⟩]
  exact shapeCast_a_1a_apply (ab7 m c) shapeCasts_S1_S1x1 _ _

end Cert.KernelIdeal.KV

end
-- ==== Proof.SpecMlp.lean ====
/-
  The second kernel's arrangement of the closing two layers on one graph's zero-padded feature row, and that on the
  padded data it is the specification's `res`.
-/
import proofs.«409833_j29446295781426_1_alg».proof.Proof.Spec

noncomputable section

open scoped BigOperators

namespace Cert.Spec

open Idealize.ShloMosaic Idealize.ShloMosaic.ValueIdx

/-- `relu (x · W6p + b6p) · w7 + b7` over 256 padded features and 512 hidden units. -/
def mlpP (xg : Fin 256 → EReal) (W6p : Fin 256 → Fin 512 → EReal) (b6p : Fin 512 → EReal) (w7 : Fin 512 → EReal)
    (b7v : EReal) : EReal :=
  (∑ k : Fin 512, max ((∑ j : Fin 256, xg j * W6p j k) + b6p k) 0 * w7 k) + b7v

/-- A sum over 256 = 232 + 24 terms whose last 24 vanish is the sum of its first 232. -/
private theorem sum_pad (a : Fin 256 → EReal) (b : Fin 232 → EReal)
    (h : ∀ j : Fin 256, a j = if h : j.val < 232 then b ⟨j.val, h⟩ else 0) :
    ∑ j : Fin 256, a j = ∑ j : Fin 232, b j := by
  have hsplit : (∑ j : Fin 256, a j)
      = ∑ i : Fin 232, a (Fin.castAdd 24 i) + ∑ i : Fin 24, a (Fin.natAdd 232 i) :=
    Fin.sum_univ_add (a := 232) (b := 24) a
  rw [hsplit]
  have h1 : ∀ i : Fin 232, a (Fin.castAdd 24 i) = b i := by
    intro i
    rw [h]
    have hi : (Fin.castAdd 24 i).val < 232 := by simp only [Fin.coe_castAdd]; exact i.isLt
    rw [dif_pos hi]
    congr 1
  have h2 : ∀ i : Fin 24, a (Fin.natAdd 232 i) = 0 := by
    intro i
    rw [h]
    have hi : ¬ (Fin.natAdd 232 i).val < 232 := by simp only [Fin.coe_natAdd]; omega
    rw [dif_neg hi]
  simp only [h1, h2, Finset.sum_const_zero, add_zero]

/-- On a feature row and a weight matrix padded with zeros past 232, the padded arrangement is `res`. -/
theorem mlpP_eq_res (X : SX.Idx → EReal) (EI : SEI.Idx → BitVec 32) (EW : SEW.Idx → EReal)
    (W1 : SW.Idx → EReal) (b1 : Sb.Idx → EReal) (W2 : SW.Idx → EReal) (b2 : Sb.Idx → EReal)
    (W6 : SW6.Idx → EReal) (b6 : Sb6.Idx → EReal) (W7 : SW7.Idx → EReal) (b7 : Sb7.Idx → EReal) (g : Fin 256)
    (xg : Fin 256 → EReal) (W6p : Fin 256 → Fin 512 → EReal) (b6p : Fin 512 → EReal) (w7 : Fin 512 → EReal) (b7v : EReal)
    (hx : ∀ j : Fin 256, xg j = if h : j.val < 232 then feat X EI EW W1 b1 W2 b2 g ⟨j.val, h⟩ else 0)
    (hW : ∀ (j : Fin 256) (k : Fin 512), W6p j k = if h : j.val < 232 then W6 (ix2 ⟨j.val, h⟩ k) else 0)
    (hb : ∀ k : Fin 512, b6p k = b6 (ix1 k)) (hw7 : ∀ k : Fin 512, w7 k = W7 (ix2 k 0)) (hb7 : b7v = b7 (ix1 0)) :
    mlpP xg W6p b6p w7 b7v = res X EI EW W1 b1 W2 b2 W6 b6 W7 b7 g := by
  -- The padded inner product: past 232 both factors vanish, before 232 they are the feature and the weight.
  have hdot : ∀ k : Fin 512, (∑ j : Fin 256, xg j * W6p j k)
      = ∑ j : Fin 232, feat X EI EW W1 b1 W2 b2 g j * W6 (ix2 j k) := by
    intro k
    apply sum_pad
    intro j
    rw [hx j, hW j k]
    by_cases hj : j.val < 232
    · rw [dif_pos hj, dif_pos hj, dif_pos hj]
    · rw [dif_neg hj, dif_neg hj, dif_neg hj, zero_mul]
  unfold mlpP res hid
  rw [hb7]
  congr 1
  apply Finset.sum_congr rfl
  intro k _
  rw [hdot k, hb k, hw7 k]

end Cert.Spec

end
-- ==== Proof.Region1.lean ====
/-
  The program's result at the return, read at a graph: the second kernel's one grid point stores the whole
  `[256, 128]` block, whose column 0 the closing slice keeps; at row `g` it is the padded arrangement `Spec.mlpP` of
  the second kernel's operands.

  Three steps. The closing slice reads column 0 of the second kernel's output array. That array, after the kernel's
  one grid point has written its block back, is the stored block as a function of the five operand arrays, because
  every window's one block is its whole array. The stored block at `(g, o)` is two matrix products, each a sum over
  its one contracted axis, with a bias row added after each and the maximum with zero in between; the narrowing
  format changes are the identity on the extended reals.
-/
import proofs.«409833_j29446295781426_1_alg».proof.Proof.KArgs
import proofs.«409833_j29446295781426_1_alg».proof.Proof.SpecMlp
import Idealize.ShloMosaic.Lib.ValueLayout
import Idealize.ShloMosaic.PureOps.Ideal.Laws

noncomputable section

open scoped BigOperators

namespace Cert.KernelIdeal.KV

open Idealize.ShloMosaic Idealize.ShloMosaic.TcCoe Idealize.ShloMosaic.ValueIdx Idealize.SL.Sem Cert.KernelIdeal Cert.KernelIdeal.Gen

/-! ## The two matrix products at an index -/

private theorem lhsA_0 (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
private theorem lhsA_1 (i : S256x512.Idx) (q : dot_S256x256_S256x512_S256x512_1_0_0_1_n_n.contr.Idx) :
    (dot_S256x256_S256x512_S256x512_1_0_0_1_n_n.lhsIdx i q 1).val = (q ⟨0, by decide⟩).val :=
  dot_S256x256_S256x512_S256x512_1_0_0_1_n_n.lhsIdx_val_of_single rfl i q
private theorem rhsA_0 (i : S256x512.Idx) (q : dot_S256x256_S256x512_S256x512_1_0_0_1_n_n.contr.Idx) :
    (dot_S256x256_S256x512_S256x512_1_0_0_1_n_n.rhsIdx i q 0).val = (q ⟨0, by decide⟩).val :=
  dot_S256x256_S256x512_S256x512_1_0_0_1_n_n.rhsIdx_val_of_single rfl i q
private theorem rhsA_1 (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl

/-- The first product, into a zero accumulator: row `g` of the left factor against column `k` of the right. -/
private theorem matmulA_apply (a : FVec Ideal S256x256 .bf16) (b : FVec Ideal S256x512 .bf16) (g : Fin 256) (k : Fin 512) :
    matmul dot_S256x256_S256x512_S256x512_1_0_0_1_n_n none a b (constant (F := Ideal) S256x512 .f32 0x00000000#32) (ix2 g k)
      = ∑ j : Fin 256, a (ix2 g j) * b (ix2 j k) := by
  simp only [matmul]
  rw [Ideal.matmul_constant_zero_apply, ← Equiv.sum_comp (contrEquiv1 dot_S256x256_S256x512_S256x512_1_0_0_1_n_n 256 rfl rfl).symm]
  refine Finset.sum_congr rfl fun j _ => ?_
  have hj := contrEquiv1_symm_val dot_S256x256_S256x512_S256x512_1_0_0_1_n_n 256 rfl rfl j
  have el : dot_S256x256_S256x512_S256x512_1_0_0_1_n_n.lhsIdx (ix2 g k) ((contrEquiv1 dot_S256x256_S256x512_S256x512_1_0_0_1_n_n 256 rfl rfl).symm j) = ix2 g j := funext fun ax => Fin.ext (by
    match ax with
    | ⟨0, _⟩ => exact lhsA_0 _ _
    | ⟨1, _⟩ => exact (lhsA_1 _ _).trans hj)
  have er : dot_S256x256_S256x512_S256x512_1_0_0_1_n_n.rhsIdx (ix2 g k) ((contrEquiv1 dot_S256x256_S256x512_S256x512_1_0_0_1_n_n 256 rfl rfl).symm j) = ix2 j k := funext fun ax => Fin.ext (by
    match ax with
    | ⟨0, _⟩ => exact (rhsA_0 _ _).trans hj
    | ⟨1, _⟩ => exact rhsA_1 _ _)
  rw [el, er]

private theorem lhsB_0 (i : S256x128.Idx) (q : dot_S256x512_S512x128_S256x128_1_0_0_1_n_n.contr.Idx) :
    (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
private theorem lhsB_1 (i : S256x128.Idx) (q : dot_S256x512_S512x128_S256x128_1_0_0_1_n_n.contr.Idx) :
    (dot_S256x512_S512x128_S256x128_1_0_0_1_n_n.lhsIdx i q 1).val = (q ⟨0, by decide⟩).val :=
  dot_S256x512_S512x128_S256x128_1_0_0_1_n_n.lhsIdx_val_of_single rfl i q
private theorem rhsB_0 (i : S256x128.Idx) (q : dot_S256x512_S512x128_S256x128_1_0_0_1_n_n.contr.Idx) :
    (dot_S256x512_S512x128_S256x128_1_0_0_1_n_n.rhsIdx i q 0).val = (q ⟨0, by decide⟩).val :=
  dot_S256x512_S512x128_S256x128_1_0_0_1_n_n.rhsIdx_val_of_single rfl i q
private theorem rhsB_1 (i : S256x128.Idx) (q : dot_S256x512_S512x128_S256x128_1_0_0_1_n_n.contr.Idx) :
    (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

/-- The second product, into a zero accumulator: row `g` of the hidden layer against column `k` of the closing weights. -/
private theorem matmulB_apply (a : FVec Ideal S256x512 .bf16) (b : FVec Ideal S512x128 .bf16) (g : Fin 256) (k : Fin 128) :
    matmul dot_S256x512_S512x128_S256x128_1_0_0_1_n_n none a b (constant (F := Ideal) S256x128 .f32 0x00000000#32) (ix2 g k)
      = ∑ j : Fin 512, a (ix2 g j) * b (ix2 j k) := by
  simp only [matmul]
  rw [Ideal.matmul_constant_zero_apply, ← Equiv.sum_comp (contrEquiv1 dot_S256x512_S512x128_S256x128_1_0_0_1_n_n 512 rfl rfl).symm]
  refine Finset.sum_congr rfl fun j _ => ?_
  have hj := contrEquiv1_symm_val dot_S256x512_S512x128_S256x128_1_0_0_1_n_n 512 rfl rfl j
  have el : dot_S256x512_S512x128_S256x128_1_0_0_1_n_n.lhsIdx (ix2 g k) ((contrEquiv1 dot_S256x512_S512x128_S256x128_1_0_0_1_n_n 512 rfl rfl).symm j) = ix2 g j := funext fun ax => Fin.ext (by
    match ax with
    | ⟨0, _⟩ => exact lhsB_0 _ _
    | ⟨1, _⟩ => exact (lhsB_1 _ _).trans hj)
  have er : dot_S256x512_S512x128_S256x128_1_0_0_1_n_n.rhsIdx (ix2 g k) ((contrEquiv1 dot_S256x512_S512x128_S256x128_1_0_0_1_n_n 512 rfl rfl).symm j) = ix2 j k := funext fun ax => Fin.ext (by
    match ax with
    | ⟨0, _⟩ => exact (rhsB_0 _ _).trans hj
    | ⟨1, _⟩ => exact rhsB_1 _ _)
  rw [el, er]

/-! ## The kernel's payload at an index -/

/-- The stored block at `(g, o)`: the closing layer applied to the rectified hidden layer of row `g`. -/
private theorem pay_apply (x0 : Vec Ideal S256x256 .f32) (x1 : Vec Ideal S256x512 .f32) (x2 : Vec Ideal S1x512 .f32)
    (x3 : Vec Ideal S512x128 .f32) (x4 : Vec Ideal S1x128 .f32) (g : Fin 256) (o : Fin 128) :
    k1_pay1 (F := Ideal) x0 x1 x2 x3 x4 (ix2 g o)
      = (∑ k : Fin 512, max ((∑ j : Fin 256, x0 (ix2 g j) * x1 (ix2 j k)) + x2 (ix2 0 k)) 0 * x3 (ix2 k o)) + x4 (ix2 0 o) := by
  unfold k1_pay1
  simp only [shapeCast_self]
  rw [addf_apply, matmulB_apply, broadcastTo_1b_ab_apply]
  refine congrArg (· + x4 (ix2 0 o)) (Finset.sum_congr rfl fun k _ => ?_)
  rw [truncf_apply, truncf_apply, maximumf_apply, addf_apply, matmulA_apply, broadcastTo_1b_ab_apply, broadcast_apply]
  simp only [truncf_apply]
  rw [show (FloatOps.ofBits FTy.f32 0x00000000#32 : Ideal .f32) = 0 from Ideal.ofBits_zero_f32]

/-! ## The stored block at an index -/

private theorem zero_offsets : (![0, 0] : Fin 2 → Nat) = fun _ => 0 := funext fun a => by fin_cases a <;> rfl

/-- The one store covers the whole staging buffer and every load reads a whole one, so the buffer after the body at
    `(g, o)` is the payload of the five blocks there. -/
private theorem out1_5_apply (x0 : Vec Ideal S256x256 .f32) (x1 : Vec Ideal S256x512 .f32) (x2 : Vec Ideal S1x512 .f32)
    (x3 : Vec Ideal S512x128 .f32) (x4 : Vec Ideal S1x128 .f32) (g : Fin 256) (o : Fin 128) :
    out1_5 (F := Ideal) x0 x1 x2 x3 x4 (ix2 g o)
      = (∑ k : Fin 512, max ((∑ j : Fin 256, x0 (ix2 g j) * x1 (ix2 j k)) + x2 (ix2 0 k)) 0 * x3 (ix2 k o)) + x4 (ix2 0 o) := by
  unfold out1_5
  rw [View.canon_unit_zero zero_offsets]
  simp only [View.ld_unit_zero (S := S256x256) zero_offsets, View.ld_unit_zero (S := S256x512) zero_offsets,
    View.ld_unit_zero (S := S1x512) zero_offsets, View.ld_unit_zero (S := S512x128) zero_offsets,
    View.ld_unit_zero (S := S1x128) zero_offsets]
  exact pay_apply x0 x1 x2 x3 x4 g o

variable (m : (ℓ : Loc nD τ sig) → Buf (Elt Ideal) ℓ) (ρ : Dev nD → PrngReg) (c : Dev nD)

/-! ## The closing slice -/

/-- The result at `(g, 0)` is column 0 of the second kernel's output array at its exit. -/
private theorem resultK_eq_out (g : Fin 256) :
    resultK m ρ c (ix2 g 0) = W27 (F := Ideal) m ρ c (Proc.devRef .tc main_v59) (ix2 g 0) := by
  show StableHlo.after hostOps2 (W27 (F := Ideal) m ρ c) (Proc.devRef .tc main_v60) (ix2 g 0) = _
  after_results
  exact slice2_axis1_apply 0 _ slices_S256x128_S256x1_0_0 g 0 0 rfl

/-! ## Each window's one block is its whole array -/

section Blocks
variable (V : (c : Dev nD) → (b : Ref sig .tc) → Buf (Elt Ideal) ((c : Thread nD τ).loc b))

private theorem iblk1_0_eq (t : Fin cfg1.N) : (iblk1 V c 0 t : Vec Ideal S256x256 .f32) = V c main_v53 := by
  funext y
  show V c main_v53 (((cfg1.win 0).blk t).view.emb y) = V c main_v53 y
  refine congrArg _ (funext fun a => Fin.ext ?_)
  match a with
  | ⟨0, _⟩ => show 0 * 256 + 1 * (y 0).val = (y 0).val; omega
  | ⟨1, _⟩ => show 0 * 256 + 1 * (y 1).val = (y 1).val; omega

private theorem iblk1_1_eq (t : Fin cfg1.N) : (iblk1 V c 1 t : Vec Ideal S256x512 .f32) = V c main_v54 := by
  funext y
  show V c main_v54 (((cfg1.win 1).blk t).view.emb y) = V c main_v54 y
  refine congrArg _ (funext fun a => Fin.ext ?_)
  match a with
  | ⟨0, _⟩ => show 0 * 256 + 1 * (y 0).val = (y 0).val; omega
  | ⟨1, _⟩ => show 0 * 512 + 1 * (y 1).val = (y 1).val; omega

private theorem iblk1_2_eq (t : Fin cfg1.N) : (iblk1 V c 2 t : Vec Ideal S1x512 .f32) = V c main_v55 := by
  funext y
  show V c main_v55 (((cfg1.win 2).blk t).view.emb y) = V c main_v55 y
  refine congrArg _ (funext fun a => Fin.ext ?_)
  match a with
  | ⟨0, _⟩ => show 0 * 1 + 1 * (y 0).val = (y 0).val; omega
  | ⟨1, _⟩ => show 0 * 512 + 1 * (y 1).val = (y 1).val; omega

private theorem iblk1_3_eq (t : Fin cfg1.N) : (iblk1 V c 3 t : Vec Ideal S512x128 .f32) = V c main_v56 := by
  funext y
  show V c main_v56 (((cfg1.win 3).blk t).view.emb y) = V c main_v56 y
  refine congrArg _ (funext fun a => Fin.ext ?_)
  match a with
  | ⟨0, _⟩ => show 0 * 512 + 1 * (y 0).val = (y 0).val; omega
  | ⟨1, _⟩ => show 0 * 128 + 1 * (y 1).val = (y 1).val; omega

private theorem iblk1_4_eq (t : Fin cfg1.N) : (iblk1 V c 4 t : Vec Ideal S1x128 .f32) = V c main_v58 := by
  funext y
  show V c main_v58 (((cfg1.win 4).blk t).view.emb y) = V c main_v58 y
  refine congrArg _ (funext fun a => Fin.ext ?_)
  match a with
  | ⟨0, _⟩ => show 0 * 1 + 1 * (y 0).val = (y 0).val; omega
  | ⟨1, _⟩ => show 0 * 128 + 1 * (y 1).val = (y 1).val; omega

/-- What the one point writes back is the whole stored block, as a function of the five arrays. -/
private theorem flushed1_5_eq (t : Fin cfg1.N) :
    (dat1 V c).flushed 5 t
      = ((cfg1.win 5).blk t).view.read (Elt Ideal)
          (out1_5 (F := Ideal) (V c main_v53) (V c main_v54) (V c main_v55) (V c main_v56) (V c main_v58)) := by
  show (cfg1.win 5).cut (grid1.coords t) ((dat1 V c).after 5 t) = _
  rw [after1_5, iblk1_0_eq, iblk1_1_eq, iblk1_2_eq, iblk1_3_eq, iblk1_4_eq]
  funext j
  show out1_5 (F := Ideal) (V c main_v53) (V c main_v54) (V c main_v55) (V c main_v56) (V c main_v58) ((cfg1.win 5).xinj (grid1.coords t) j)
    = out1_5 (F := Ideal) (V c main_v53) (V c main_v54) (V c main_v55) (V c main_v56) (V c main_v58) (((cfg1.win 5).blk t).view.emb j)
  refine congrArg _ (funext fun a => Fin.ext ?_)
  match a with
  | ⟨0, _⟩ => show (j 0).val = 0 * 256 + 1 * (j 0).val; omega
  | ⟨1, _⟩ => show (j 1).val = 0 * 128 + 1 * (j 1).val; omega

/-- Every index of the output array lies in the one point's block. -/
private theorem cover1_5_all (i : S256x128.Idx) :
    ∃ t : Fin cfg1.N, (cfg1.win 5).flush t = true ∧ i ∈ ((cfg1.win 5).blk t).view.set := by
  refine ⟨t1_0, flush1_5 t1_0, ?_⟩
  show i ∈ ((View.whole main_v59).slice (win1_5.rect t1_0)).set
  rw [View.set_slice_whole, Rect.mem_set_unit]
  intro a
  match a with
  | ⟨0, _⟩ => show 0 * 256 ≤ (i 0).val ∧ (i 0).val < 0 * 256 + 256; have hi : (i 0).val < 256 := (i 0).isLt; omega
  | ⟨1, _⟩ => show 0 * 128 ≤ (i 1).val ∧ (i 1).val < 0 * 128 + 128; have hi : (i 1).val < 128 := (i 1).isLt; omega

end Blocks

/-- The second kernel's output array at its exit is the stored block of its five operand arrays at its entry. -/
private theorem out_eq :
    W27 (F := Ideal) m ρ c (Proc.devRef .tc main_v59)
      = out1_5 (F := Ideal) (featP m ρ c) (w6p m ρ c) (b6r m ρ c) (w7p m ρ c) (b7p m ρ c) :=
  (W27_arr (F := Ideal) m ρ c 5).trans
    ((dat1 (V26 m ρ) c).arrAt_eq_of_cover 5 _ (fun t _ => flushed1_5_eq c (V26 m ρ) t) cover1_5_all)

/-! ## The result at a graph -/

theorem resultK_apply (g : Fin 256) :
    resultK m ρ c (ix2 g 0)
      = Cert.Spec.mlpP (fun j => featP m ρ c (ix2 g j)) (fun j k => w6p m ρ c (ix2 j k)) (fun k => b6r m ρ c (ix2 0 k))
          (fun k => w7p m ρ c (ix2 k 0)) (b7p m ρ c (ix2 0 0)) := by
  rw [resultK_eq_out, out_eq]
  unfold Cert.Spec.mlpP
  exact out1_5_apply (featP m ρ c) (w6p m ρ c) (b6r m ρ c) (w7p m ρ c) (b7p m ρ c) g 0

end Cert.KernelIdeal.KV

end
-- ==== Proof.Dense.lean ====
/-
  The dense arrangement of the graph convolution on one graph's zero-padded data is the specification's: the
  adjacency matrix built from indicator rows collapses, edge by edge, to the sum over the edges that end at a node.
-/
import proofs.«409833_j29446295781426_1_alg».proof.Proof.Spec

noncomputable section

open scoped BigOperators

namespace Cert.Spec

open Idealize.ShloMosaic Idealize.ShloMosaic.ValueIdx

namespace DenseAux

/-! ### Two general facts about finite sums -/

/-- The embedding of the reals into the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over `Fin b` of a function that vanishes from `a` on is the sum over `Fin a`. -/
theorem sum_fin_trunc {M : Type*} [AddCommMonoid M] {a b : ℕ} (hab : a ≤ b) (F : Fin b → M)
    (hF : ∀ i : Fin b, a ≤ i.val → F i = 0) :
    ∑ i : Fin b, F i = ∑ i : Fin a, F ⟨i.val, lt_of_lt_of_le i.isLt hab⟩ := by
  obtain ⟨k, rfl⟩ := Nat.exists_eq_add_of_le hab
  rw [Fin.sum_trunc F (fun j => hF _ (by simp))]
  exact Finset.sum_congr rfl (fun i _ => rfl)

/-- The collapse of the indicator matrix, in the reals: summing, over the padded node range, the matrix entry
    `∑ e, ([dst e = N] · w e) · [src e = n']` against any `G n'` leaves the edges that end at `N`, each with `G` at
    its source. -/
theorem real_collapse {E : Type*} [Fintype E] (ls ld : E → Fin 116) (wr : E → ℝ) (G : Fin 128 → ℝ)
    (N : Fin 128) :
    ∑ n' : Fin 128, (∑ e : E, ((if (ld e).val = N.val then (1 : ℝ) else 0) * wr e)
        * (if (ls e).val = n'.val then (1 : ℝ) else 0)) * G n'
      = ∑ e ∈ Finset.univ.filter (fun e => (ld e).val = N.val),
          wr e * G ⟨(ls e).val, lt_trans (ls e).isLt (by norm_num)⟩ := by
  classical
  simp_rw [Finset.sum_mul]
  rw [Finset.sum_comm, Finset.sum_filter]
  refine Finset.sum_congr rfl (fun e _ => ?_)
  rw [Finset.sum_eq_single (⟨(ls e).val, lt_trans (ls e).isLt (by norm_num)⟩ : Fin 128)]
  · by_cases h : (ld e).val = N.val
    · simp [h]
    · simp [h]
  · intro n' _ hne
    have : ¬ (ls e).val = n'.val := fun h' => hne (Fin.ext h'.symm)
    simp [this]
  · intro h; exact absurd (Finset.mem_univ _) h

/-! ### An edge's endpoints inside its block -/

/-- Inside its block an edge's source word, counted from the block's first row, is its local source node. -/
theorem lsrc_val {EI : SEI.Idx → BitVec 32} (hIn : InBlock EI) (v : Fin 2) (g : Fin 256) (e : Fin 6670) :
    (srcW EI v g e).toInt - base v g = ((lsrc EI v g e).val : Int) := by
  have h := (hIn v g e).1
  simp only [lsrc]
  omega

/-- The same for the destination. -/
theorem ldst_val {EI : SEI.Idx → BitVec 32} (hIn : InBlock EI) (v : Fin 2) (g : Fin 256) (e : Fin 6670) :
    (dstW EI v g e).toInt - base v g = ((ldst EI v g e).val : Int) := by
  have h := (hIn v g e).2
  simp only [ldst]
  omega

/-- The indicator of a word whose signed value is the natural number `k`, as a real number. -/
theorem oneHot_of_toInt (x : BitVec 32) (k : ℕ) (hx : x.toInt = (k : Int)) (n : Fin 128) :
    oneHot x n = ((if k = n.val then (1 : ℝ) else 0 : ℝ) : EReal) := by
  unfold oneHot
  rw [hx]
  by_cases h : k = n.val
  · have h' : (k : Int) = (n.val : Int) := by exact_mod_cast h
    rw [if_pos h', if_pos h, EReal.coe_one]
  · have h' : ¬ (k : Int) = (n.val : Int) := by exact_mod_cast h
    rw [if_neg h', if_neg h, EReal.coe_zero]

end DenseAux

namespace DenseAux

/-! ### The padded arrays against the specification's -/

section Padded
variable {X : SX.Idx → EReal} {EI : SEI.Idx → BitVec 32} {EW : SEW.Idx → EReal} {W : SW.Idx → EReal}
  {v : Fin 2} {g : Fin 256}
  {xp Wp : Fin 128 → Fin 128 → EReal} {s d : Fin 6784 → BitVec 32} {w : Fin 6784 → EReal}

/-- On a real node the padded product `xp · Wp` is the specification's `x · W`: the padding columns add zeros. -/
theorem hP_eq_hfeat
    (hxp : ∀ n f : Fin 128, xp n f
      = if h : n.val < 116 ∧ f.val < 115 then X (ix2 (xrow v g ⟨n.val, h.1⟩) ⟨f.val, h.2⟩) else 0)
    (hWp : ∀ f c : Fin 128, Wp f c = if h : f.val < 115 then W (ix2 ⟨f.val, h⟩ c) else 0)
    (N : Fin 128) (m : Fin 116) (hN : N.val = m.val) (c : Fin 128) :
    hP xp Wp N c = hfeat X W v g m c := by
  obtain ⟨k, hk⟩ := N
  dsimp only at hN
  subst hN
  unfold hP hfeat
  rw [sum_fin_trunc (a := 115) (by norm_num) _ ?_]
  · refine Finset.sum_congr rfl (fun f _ => ?_)
    rw [hxp, hWp, dif_pos ⟨m.isLt, f.isLt⟩, dif_pos f.isLt]
  · intro f hf
    have hn : ¬ ((⟨m.val, hk⟩ : Fin 128).val < 116 ∧ f.val < 115) := by omega
    rw [hxp, dif_neg hn, zero_mul]

/-- On a padding row the padded product is zero. -/
theorem hP_zero
    (hxp : ∀ n f : Fin 128, xp n f
      = if h : n.val < 116 ∧ f.val < 115 then X (ix2 (xrow v g ⟨n.val, h.1⟩) ⟨f.val, h.2⟩) else 0)
    (N : Fin 128) (hN : 116 ≤ N.val) (c : Fin 128) :
    hP xp Wp N c = 0 := by
  unfold hP
  refine Finset.sum_eq_zero (fun f _ => ?_)
  have hn : ¬ (N.val < 116 ∧ f.val < 115) := by omega
  rw [hxp, dif_neg hn, zero_mul]

/-- An entry of the dense adjacency matrix as a real number: the padding edges weigh nothing, and inside its block an
    edge's two indicators test its local endpoints. -/
theorem adj_real (hIn : InBlock EI) (wr : Fin 6670 → ℝ) (hwr : ∀ e, wgt EW v g e = (wr e : EReal))
    (hs : ∀ e : Fin 6784, (s e).toInt = if h : e.val < 6670 then (srcW EI v g ⟨e.val, h⟩).toInt - base v g else 0)
    (hd : ∀ e : Fin 6784, (d e).toInt = if h : e.val < 6670 then (dstW EI v g ⟨e.val, h⟩).toInt - base v g else 0)
    (hw : ∀ e : Fin 6784, w e = if h : e.val < 6670 then wgt EW v g ⟨e.val, h⟩ else 0)
    (N n' : Fin 128) :
    adj s d w N n' = ((∑ e : Fin 6670,
        ((if (ldst EI v g e).val = N.val then (1 : ℝ) else 0) * wr e)
          * (if (lsrc EI v g e).val = n'.val then (1 : ℝ) else 0) : ℝ) : EReal) := by
  unfold adj
  rw [sum_fin_trunc (a := 6670) (by norm_num) _ ?_, coe_sum]
  · refine Finset.sum_congr rfl (fun e _ => ?_)
    have h1 : (d ⟨e.val, lt_of_lt_of_le e.isLt (by norm_num)⟩).toInt = ((ldst EI v g e).val : Int) := by
      rw [hd, dif_pos e.isLt]; exact ldst_val hIn v g e
    have h2 : (s ⟨e.val, lt_of_lt_of_le e.isLt (by norm_num)⟩).toInt = ((lsrc EI v g e).val : Int) := by
      rw [hs, dif_pos e.isLt]; exact lsrc_val hIn v g e
    have h3 : w ⟨e.val, lt_of_lt_of_le e.isLt (by norm_num)⟩ = (wr e : EReal) := by
      rw [hw, dif_pos e.isLt]; exact hwr e
    rw [oneHot_of_toInt _ _ h1, oneHot_of_toInt _ _ h2, h3, ← EReal.coe_mul, ← EReal.coe_mul]
  · intro e he
    have hn : ¬ e.val < 6670 := by omega
    rw [hw, dif_neg hn, mul_zero, zero_mul]

/-- The dense degree of a real node is the specification's: each edge's source indicator sums to one over the
    padded node range. -/
theorem degP_eq_deg (hIn : InBlock EI) (hEW : Finite EW)
    (hs : ∀ e : Fin 6784, (s e).toInt = if h : e.val < 6670 then (srcW EI v g ⟨e.val, h⟩).toInt - base v g else 0)
    (hd : ∀ e : Fin 6784, (d e).toInt = if h : e.val < 6670 then (dstW EI v g ⟨e.val, h⟩).toInt - base v g else 0)
    (hw : ∀ e : Fin 6784, w e = if h : e.val < 6670 then wgt EW v g ⟨e.val, h⟩ else 0)
    (N : Fin 128) (m : Fin 116) (hN : N.val = m.val) :
    degP s d w N = deg EI EW v g m := by
  choose wr hwr using (fun e : Fin 6670 => hEW (ix1 (ecol v g e)))
  have hwr' : ∀ e, wgt EW v g e = (wr e : EReal) := hwr
  unfold degP deg
  congr 1
  rw [Finset.sum_congr rfl (fun n' _ => adj_real hIn wr hwr' hs hd hw N n'), ← coe_sum]
  have hc := real_collapse (fun e => lsrc EI v g e) (fun e => ldst EI v g e) wr (fun _ => 1) N
  simp only [mul_one] at hc
  rw [hc, coe_sum]
  refine Finset.sum_congr (Finset.filter_congr ?_) (fun e _ => (hwr' e).symm)
  intro e _
  rw [hN]
  exact Fin.ext_iff.symm

/-- With a positive degree the specification's `deg ^ (-1/2)` is a real number. -/
theorem dinv_real (hEW : Finite EW) (hdeg : ∀ n : Fin 116, 0 < deg EI EW v g n) (m : Fin 116) :
    ∃ r : ℝ, dinv EI EW v g m = (r : EReal) := by
  choose wr hwr using (fun e : Fin 6670 => hEW (ix1 (ecol v g e)))
  have hwr' : ∀ e, wgt EW v g e = (wr e : EReal) := hwr
  have hd : deg EI EW v g m
      = (((∑ e ∈ Finset.univ.filter (fun e : Fin 6670 => ldst EI v g e = m), wr e) + 1 : ℝ) : EReal) := by
    unfold deg
    rw [EReal.coe_add, coe_sum, EReal.coe_one]
    congr 1
    exact Finset.sum_congr rfl (fun e _ => hwr' e)
  have hp := hdeg m
  unfold dinv
  rw [hd] at hp ⊢
  have hp' := EReal.coe_pos.mp hp
  exact ⟨_, by rw [Ideal.rsqrt_coe, if_neg (not_lt.mpr hp'.le), if_neg hp'.ne']⟩

end Padded

end DenseAux

namespace DenseAux

/-! ### The convolution at one node and channel -/

/-- At a real node and any channel the dense convolution is the specification's. Both sides are the embedding of a
    real number plus the bias; in the reals the indicator matrix collapses edge by edge. -/
theorem convP_eq_conv {X : SX.Idx → EReal} {EI : SEI.Idx → BitVec 32} {EW : SEW.Idx → EReal}
    {W : SW.Idx → EReal} {b : Sb.Idx → EReal} {v : Fin 2} {g : Fin 256}
    (hX : Finite X) (hEW : Finite EW) (hW : Finite W) (hIn : InBlock EI)
    (hdeg : ∀ n : Fin 116, 0 < deg EI EW v g n)
    {xp Wp : Fin 128 → Fin 128 → EReal} {s d : Fin 6784 → BitVec 32} {w : Fin 6784 → EReal} {bp : Fin 128 → EReal}
    (hxp : ∀ n f : Fin 128, xp n f
      = if h : n.val < 116 ∧ f.val < 115 then X (ix2 (xrow v g ⟨n.val, h.1⟩) ⟨f.val, h.2⟩) else 0)
    (hWp : ∀ f c : Fin 128, Wp f c = if h : f.val < 115 then W (ix2 ⟨f.val, h⟩ c) else 0)
    (hs : ∀ e : Fin 6784, (s e).toInt = if h : e.val < 6670 then (srcW EI v g ⟨e.val, h⟩).toInt - base v g else 0)
    (hd : ∀ e : Fin 6784, (d e).toInt = if h : e.val < 6670 then (dstW EI v g ⟨e.val, h⟩).toInt - base v g else 0)
    (hw : ∀ e : Fin 6784, w e = if h : e.val < 6670 then wgt EW v g ⟨e.val, h⟩ else 0)
    (hbp : ∀ c : Fin 128, bp c = b (ix1 c)) (n : Fin 116) (c : Fin 128) :
    convP xp Wp s d w bp ⟨n.val, by have := n.isLt; omega⟩ c = conv X EI EW W b v g n c := by
  -- real witnesses for the weights, the projected features and the normalisers
  choose wr hwr using (fun e : Fin 6670 => hEW (ix1 (ecol v g e)))
  have hwr' : ∀ e, wgt EW v g e = (wr e : EReal) := hwr
  choose xr hxr using hX
  choose Wr hWr using hW
  obtain ⟨hr, hhr⟩ : ∃ hr : Fin 116 → ℝ, ∀ m, hfeat X W v g m c = (hr m : EReal) := by
    refine ⟨fun m => ∑ f : Fin 115, xr (ix2 (xrow v g m) f) * Wr (ix2 f c), fun m => ?_⟩
    unfold hfeat
    rw [coe_sum]
    exact Finset.sum_congr rfl (fun f _ => by rw [hxr, hWr, EReal.coe_mul])
  choose ir hir using (fun m => dinv_real hEW hdeg m)
  have hdP : ∀ (N : Fin 128) (m : Fin 116), N.val = m.val → dinvP s d w N = (ir m : EReal) := by
    intro N m hN
    unfold dinvP
    rw [degP_eq_deg hIn hEW hs hd hw N m hN]
    exact hir m
  -- the aggregated factor at a node of the padded range
  have hG : ∀ n' : Fin 128, dinvP s d w n' * hP xp Wp n' c
      = ((if h : n'.val < 116 then ir ⟨n'.val, h⟩ * hr ⟨n'.val, h⟩ else 0 : ℝ) : EReal) := by
    intro n'
    by_cases h : n'.val < 116
    · rw [dif_pos h, hdP n' ⟨n'.val, h⟩ rfl, hP_eq_hfeat hxp hWp n' ⟨n'.val, h⟩ rfl c, hhr, EReal.coe_mul]
    · rw [dif_neg h, hP_zero hxp n' (by omega) c, mul_zero, EReal.coe_zero]
  generalize hNdef : (⟨n.val, by have := n.isLt; omega⟩ : Fin 128) = N
  have hN : N.val = n.val := by rw [← hNdef]
  have hsum : ∑ n' : Fin 128, adj s d w N n' * (dinvP s d w n' * hP xp Wp n' c)
      = ((∑ n' : Fin 128, (∑ e : Fin 6670,
            ((if (ldst EI v g e).val = N.val then (1 : ℝ) else 0) * wr e)
              * (if (lsrc EI v g e).val = n'.val then (1 : ℝ) else 0))
            * (if h : n'.val < 116 then ir ⟨n'.val, h⟩ * hr ⟨n'.val, h⟩ else 0) : ℝ) : EReal) := by
    rw [coe_sum]
    exact Finset.sum_congr rfl
      (fun n' _ => by rw [hG n', adj_real hIn wr hwr' hs hd hw N n', EReal.coe_mul])
  -- the law in the reals
  have hreal : ir n * (∑ n' : Fin 128, (∑ e : Fin 6670,
            ((if (ldst EI v g e).val = N.val then (1 : ℝ) else 0) * wr e)
              * (if (lsrc EI v g e).val = n'.val then (1 : ℝ) else 0))
            * (if h : n'.val < 116 then ir ⟨n'.val, h⟩ * hr ⟨n'.val, h⟩ else 0))
        + (ir n * ir n) * hr n
      = (∑ e ∈ Finset.univ.filter (fun e : Fin 6670 => ldst EI v g e = n),
            hr (lsrc EI v g e) * ((ir (lsrc EI v g e) * wr e) * ir n))
        + (ir n * ir n) * hr n := by
    rw [real_collapse (lsrc EI v g) (ldst EI v g) wr _ N, Finset.mul_sum]
    congr 1
    refine Finset.sum_congr (Finset.filter_congr (fun e _ => ?_)) (fun e _ => ?_)
    · rw [hN]; exact Fin.ext_iff.symm
    · rw [dif_pos (lsrc EI v g e).isLt]
      simp only [Fin.eta]
      ring
  have hL : (dinvP s d w N * ∑ n' : Fin 128, adj s d w N n' * (dinvP s d w n' * hP xp Wp n' c))
        + (dinvP s d w N * dinvP s d w N) * hP xp Wp N c
      = ((ir n * (∑ n' : Fin 128, (∑ e : Fin 6670,
            ((if (ldst EI v g e).val = N.val then (1 : ℝ) else 0) * wr e)
              * (if (lsrc EI v g e).val = n'.val then (1 : ℝ) else 0))
            * (if h : n'.val < 116 then ir ⟨n'.val, h⟩ * hr ⟨n'.val, h⟩ else 0))
        + (ir n * ir n) * hr n : ℝ) : EReal) := by
    rw [hsum, hdP N n hN, hP_eq_hfeat hxp hWp N n hN c, hhr n]
    simp only [EReal.coe_add, EReal.coe_mul]
  have hR : (∑ e ∈ Finset.univ.filter (fun e : Fin 6670 => ldst EI v g e = n),
          hfeat X W v g (lsrc EI v g e) c
            * ((dinv EI EW v g (lsrc EI v g e) * wgt EW v g e) * dinv EI EW v g n))
        + (dinv EI EW v g n * dinv EI EW v g n) * hfeat X W v g n c
      = (((∑ e ∈ Finset.univ.filter (fun e : Fin 6670 => ldst EI v g e = n),
            hr (lsrc EI v g e) * ((ir (lsrc EI v g e) * wr e) * ir n))
        + (ir n * ir n) * hr n : ℝ) : EReal) := by
    rw [EReal.coe_add, coe_sum]
    congr 1
    · exact Finset.sum_congr rfl (fun e _ => by simp only [hhr, hir, hwr', EReal.coe_mul])
    · simp only [hhr, hir, EReal.coe_mul]
  unfold convP conv
  rw [hbp, hL, hR, hreal]

end DenseAux

/-- One graph's view: padded node features, padded weight matrix, the edges' endpoints as nodes of the view (padding
    edges at node 0 with weight 0). With finite data, the edges inside their block and positive degrees, the dense
    pooled value at a real node is the specification's. -/
theorem poolP_eq_pool (X : SX.Idx → EReal) (EI : SEI.Idx → BitVec 32) (EW : SEW.Idx → EReal)
    (W : SW.Idx → EReal) (b : Sb.Idx → EReal) (v : Fin 2) (g : Fin 256)
    (hX : Finite X) (hEW : Finite EW) (hW : Finite W) (hIn : InBlock EI)
    (hdeg : ∀ n : Fin 116, 0 < deg EI EW v g n)
    (xp Wp : Fin 128 → Fin 128 → EReal) (s d : Fin 6784 → BitVec 32) (w : Fin 6784 → EReal) (bp : Fin 128 → EReal)
    (hxp : ∀ n f : Fin 128, xp n f
      = if h : n.val < 116 ∧ f.val < 115 then X (ix2 (xrow v g ⟨n.val, h.1⟩) ⟨f.val, h.2⟩) else 0)
    (hWp : ∀ f c : Fin 128, Wp f c = if h : f.val < 115 then W (ix2 ⟨f.val, h⟩ c) else 0)
    (hs : ∀ e : Fin 6784, (s e).toInt = if h : e.val < 6670 then (srcW EI v g ⟨e.val, h⟩).toInt - base v g else 0)
    (hd : ∀ e : Fin 6784, (d e).toInt = if h : e.val < 6670 then (dstW EI v g ⟨e.val, h⟩).toInt - base v g else 0)
    (hw : ∀ e : Fin 6784, w e = if h : e.val < 6670 then wgt EW v g ⟨e.val, h⟩ else 0)
    (hbp : ∀ c : Fin 128, bp c = b (ix1 c)) (n : Fin 116) :
    poolP xp Wp s d w bp ⟨n.val, by have := n.isLt; omega⟩ = pool X EI EW W b v g n := by
  have hfun : (fun c => convP xp Wp s d w bp ⟨n.val, by have := n.isLt; omega⟩ c)
      = (fun c => conv X EI EW W b v g n c) :=
    funext (fun c => DenseAux.convP_eq_conv hX hEW hW hIn hdeg hxp hWp hs hd hw hbp n c)
  unfold poolP pool
  rw [hfun]

end Cert.Spec

end
-- ==== Proof.KernelValue.lean ====
/-
  The kernel program's result is the specification's. Each view's pooled values after the first kernel are the dense
  arrangement of the operands' rows, which on the padded operands is the specification's `pool`; interleaved and padded
  they are the second kernel's feature rows, whose padded two-layer arrangement is `res`.
-/
import proofs.«409833_j29446295781426_1_alg».proof.Proof.Region0
import proofs.«409833_j29446295781426_1_alg».proof.Proof.HostEdges
import proofs.«409833_j29446295781426_1_alg».proof.Proof.HostNodes
import proofs.«409833_j29446295781426_1_alg».proof.Proof.HostMid
import proofs.«409833_j29446295781426_1_alg».proof.Proof.Region1
import proofs.«409833_j29446295781426_1_alg».proof.Proof.Dense
import proofs.«409833_j29446295781426_1_alg».proof.Proof.SpecMlp
import proofs.«409833_j29446295781426_1_alg».proof.Proof.KernelRun

noncomputable section

open scoped BigOperators

namespace Cert.KernelIdeal.KV

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- The specification's hypotheses at core `c`'s argument arrays. -/
abbrev GoodK : Prop :=
  Cert.Spec.Good (aX m c) (aEI m c) (aEW m c) (aW1 m c) (ab1 m c) (aW2 m c) (ab2 m c) (aW6 m c) (ab6 m c) (aW7 m c) (ab7 m c)

/-- The first view's pooled value of a real node after the first kernel. -/
theorem pooledFc_eq (hg : GoodK m c) (g : Fin 256) (n : Fin 116) :
    pooledFc m ρ c (ix3 g 0 ⟨n.val, by have := n.isLt; omega⟩)
      = Cert.Spec.pool (aX m c) (aEI m c) (aEW m c) (aW1 m c) (ab1 m c) 0 g n := by
  rw [pooledFc_apply]
  exact Cert.Spec.poolP_eq_pool (aX m c) (aEI m c) (aEW m c) (aW1 m c) (ab1 m c) 0 g hg.fX hg.fEW hg.fW1 hg.inBlock
    (hg.degPos 0 g) _ _ _ _ _ _
    (fun a f => nodeFc_apply m ρ c g a f) (fun f k => w1p_apply m ρ c f k)
    (fun e => srcFc_apply m ρ c hg.inBlock g e) (fun e => dstFc_apply m ρ c hg.inBlock g e)
    (fun e => wFc_apply m ρ c g e) (fun k => b1r_apply m ρ c k) n

/-- The second view's. -/
theorem pooledSc_eq (hg : GoodK m c) (g : Fin 256) (n : Fin 116) :
    pooledSc m ρ c (ix3 g 0 ⟨n.val, by have := n.isLt; omega⟩)
      = Cert.Spec.pool (aX m c) (aEI m c) (aEW m c) (aW2 m c) (ab2 m c) 1 g n := by
  rw [pooledSc_apply]
  exact Cert.Spec.poolP_eq_pool (aX m c) (aEI m c) (aEW m c) (aW2 m c) (ab2 m c) 1 g hg.fX hg.fEW hg.fW2 hg.inBlock
    (hg.degPos 1 g) _ _ _ _ _ _
    (fun a f => nodeSc_apply m ρ c g a f) (fun f k => w2p_apply m ρ c f k)
    (fun e => srcSc_apply m ρ c hg.inBlock g e) (fun e => dstSc_apply m ρ c hg.inBlock g e)
    (fun e => wSc_apply m ρ c g e) (fun k => b2r_apply m ρ c k) n

/-- The second kernel's feature rows: the specification's 232 features, then zeros. -/
theorem featP_eq (hg : GoodK m c) (g : Fin 256) (j : Fin 256) :
    featP m ρ c (ix2 g j)
      = if h : j.val < 232 then
          Cert.Spec.feat (aX m c) (aEI m c) (aEW m c) (aW1 m c) (ab1 m c) (aW2 m c) (ab2 m c) g ⟨j.val, h⟩
        else 0 := by
  rw [featP_apply]
  by_cases h : j.val < 232
  · rw [dif_pos h, dif_pos h]
    unfold Cert.Spec.feat
    by_cases h2 : j.val % 2 = 0
    · rw [if_pos h2, if_pos h2]
      exact pooledFc_eq m ρ c hg g ⟨j.val / 2, by omega⟩
    · rw [if_neg h2, if_neg h2]
      exact pooledSc_eq m ρ c hg g ⟨j.val / 2, by omega⟩
  · rw [dif_neg h, dif_neg h]

/-- The result array at the return is the specification's. -/
theorem resultK_eq (hg : GoodK m c) :
    resultK m ρ c
      = Cert.Spec.result (aX m c) (aEI m c) (aEW m c) (aW1 m c) (ab1 m c) (aW2 m c) (ab2 m c) (aW6 m c) (ab6 m c) (aW7 m c)
          (ab7 m c) := by
  funext i
  obtain ⟨g, z, rfl⟩ : ∃ (g : Fin 256) (z : Fin 1), i = ix2 g z := ⟨i 0, i 1, eq_ix2 i⟩
  obtain rfl : z = 0 := Subsingleton.elim _ _
  rw [resultK_apply]
  exact Cert.Spec.mlpP_eq_res (aX m c) (aEI m c) (aEW m c) (aW1 m c) (ab1 m c) (aW2 m c) (ab2 m c) (aW6 m c) (ab6 m c)
    (aW7 m c) (ab7 m c) g _ _ _ _ _ (fun j => featP_eq m ρ c hg g j) (fun j k => w6p_apply m ρ c j k)
    (fun k => b6r_apply m ρ c k) (fun k => w7p_apply m ρ c k) (b7p_apply m ρ c)

/-- The kernel program's run with its result named: under the hypotheses, the specification's result array. -/
theorem run_spec (hg : ∀ c : Dev nD, GoodK m c) :
    θ_run defs (onTc (τ := τ) (main (F := Ideal))) ⟨m, fun _ => 0, ρ⟩ (fun r => ∀ c : Dev nD,
      r.2.mem ((c.tc : Thread nD τ).loc main_v60)
        = Cert.Spec.result (aX m c) (aEI m c) (aEW m c) (aW1 m c) (ab1 m c) (aW2 m c) (ab2 m c) (aW6 m c) (ab6 m c)
            (aW7 m c) (ab7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (resultK_eq m ρ c (hg c)), (h c).2⟩)
    (Cert.KernelIdeal.GenP.run_result (F := Ideal) m ρ)

end Cert.KernelIdeal.KV

end
-- ==== Proof.RefRunEq.lean ====
/- The reference's result, two spellings of one value. The run of the reference program states the result buffer at ONE
   composed term of the launch contents of the arguments; the operation-by-operation reading states it as the last of a
   chain of stages, each stage one operation applied to the stages of its operands. Unfolding the composed term and every
   stage gives the same expression, for any float family. -/
import proofs.«409833_j29446295781426_1_alg».proof.Proof.RefRun
import proofs.«409833_j29446295781426_1_alg».proof.Proof.RefRead

noncomputable section

namespace Cert.ReferenceIdeal.RV

open Cert.ReferenceIdeal Cert.ReferenceIdeal.Gen Idealize.ShloMosaic Idealize.ShloMosaic.TcCoe Idealize.SL.Sem Idealize.ShloMosaic.StableHlo

/-- The composed term of the result buffer is the last stage of the reading, at the arguments' launch contents. -/
theorem res_eq {F : FTy → Type} [FloatOps F] (m : (ℓ : Loc nD τ sig) → Buf (Elt F) ℓ) (c : Dev nD) :
    Cert.ReferenceIdeal.ValueP.res_main_v138 m c = Cert.ReferenceIdeal.ReadP.val_main_v138 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v138; rfl

end Cert.ReferenceIdeal.RV

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.SegSum.lean ====
/-
  A sum over all 256 · 6670 edges of the edges whose destination is a given node of graph `g` is the sum over
  graph `g`'s own 6670 edges, when every edge's destination lies in its own graph's block of 116 nodes.
-/
import Mathlib.Algebra.BigOperators.Group.Finset.Basic
import Mathlib.Algebra.BigOperators.Fin
import Mathlib.Data.Fintype.BigOperators
import Mathlib.Logic.Equiv.Fin.Basic

open scoped BigOperators

namespace Cert.SegSum

/-- The flat position of edge `e` of graph `g`. -/
def flat (g : Fin 256) (e : Fin 6670) : Fin 1707520 := ⟨g.val * 6670 + e.val, by have := g.isLt; have := e.isLt; omega⟩

/-- The flat order is a bijection between (graph, edge) pairs and flat positions: quotient and remainder by 6670
    invert it. -/
private def flatEquiv : Fin 256 × Fin 6670 ≃ Fin 1707520 where
  toFun p := flat p.1 p.2
  invFun E := (⟨E.val / 6670, by have := E.isLt; omega⟩, ⟨E.val % 6670, by omega⟩)
  left_inv := by
    rintro ⟨g, e⟩
    have hg := g.isLt
    have he := e.isLt
    apply Prod.ext <;> apply Fin.ext <;> simp only [flat] <;> omega
  right_inv := by
    intro E
    apply Fin.ext
    simp only [flat]
    omega

/-- With every edge's destination `dst E` inside its own graph's block `[116 g, 116 g + 116)`, the edges that end at
    node `116 g + n` are edges of graph `g`. -/
theorem sum_filter_global_eq_local {M : Type*} [AddCommMonoid M] (f : Fin 1707520 → M) (dst : Fin 1707520 → Int)
    (hd : ∀ (g : Fin 256) (e : Fin 6670), 116 * (g.val : Int) ≤ dst (flat g e) ∧ dst (flat g e) < 116 * (g.val : Int) + 116)
    (g : Fin 256) (n : Fin 116) :
    ∑ E ∈ Finset.univ.filter (fun E : Fin 1707520 => dst E = ((116 * g.val + n.val : Nat) : Int)), f E
      = ∑ e ∈ Finset.univ.filter (fun e : Fin 6670 => dst (flat g e) = ((116 * g.val + n.val : Nat) : Int)), f (flat g e) := by
  classical
  -- Both sides as sums of an indicator; the left one re-indexed over (graph, edge) pairs and split by graph.
  rw [Finset.sum_filter, Finset.sum_filter,
    ← Equiv.sum_comp flatEquiv (fun E => if dst E = ((116 * g.val + n.val : Nat) : Int) then f E else 0),
    Fintype.sum_prod_type]
  -- Only graph `g` contributes: another graph's block of destinations does not contain `116 g + n`.
  rw [Finset.sum_eq_single g]
  · rfl
  · intro g' _ hne
    apply Finset.sum_eq_zero
    intro e _
    have h1 := hd g' e
    have hn := n.isLt
    have hv : g'.val ≠ g.val := fun h => hne (Fin.ext h)
    have hc : ¬ dst (flat g' e) = ((116 * g.val + n.val : Nat) : Int) := by
      intro h
      rw [h] at h1
      omega
    exact if_neg hc
  · intro h
    exact absurd (Finset.mem_univ g) h

end Cert.SegSum
-- ==== Proof.RefConv.lean ====
/-
  The reference's pooled value of a node, for each view: its `[29696]` array of row maxima read at node `116 g + n` is
  the specification's `pool` of graph `g` at node `n`. The scatter over all edges keeps only graph `g`'s own, the
  gathers at an edge's endpoints read inside the table, and the row maximum is the fold over the 128 channels.
-/
import proofs.«409833_j29446295781426_1_alg».proof.Proof.RefRead
import proofs.«409833_j29446295781426_1_alg».proof.Proof.Spec
import proofs.«409833_j29446295781426_1_alg».proof.Proof.LibIndexing
import proofs.«409833_j29446295781426_1_alg».proof.Proof.SegSum

noncomputable section

open scoped BigOperators

namespace Cert.ReferenceIdeal.RV

open Idealize.ShloMosaic Idealize.ShloMosaic.TcCoe Idealize.ShloMosaic.ValueIdx Idealize.SL.Sem Cert.ReferenceIdeal Cert.ReferenceIdeal.ReadP

/-- Node `116 g + n` of the reference's node table of one view. -/
def gnode (g : Fin 256) (n : Fin 116) : Fin 29696 := ⟨116 * g.val + n.val, by have := g.isLt; have := n.isLt; omega⟩

open Cert.Spec Cert.SegSum

/-! ## Words -/

/-- Subtracting `116 k` from a word whose signed reading is at least `116 k` does not wrap. -/
private theorem toInt_sub_block (a : BitVec 32) (k : Nat) (hk : k ≤ 256) (h : 116 * (k : Int) ≤ a.toInt) :
    (IntOp.subi a (IntOp.muli 116#32 (BitVec.ofNat 32 k))).toInt = a.toInt - 116 * (k : Int) := by
  have hb : (IntOp.muli 116#32 (BitVec.ofNat 32 k)).toNat = 116 * k := by
    show (116#32 * BitVec.ofNat 32 k).toNat = 116 * k
    rw [BitVec.toNat_mul, BitVec.toNat_ofNat, BitVec.toNat_ofNat]
    omega
  have ha : a.toInt = (a.toNat : Int) := by
    rw [BitVec.toInt_eq_toNat_cond] at h ⊢
    split at h <;> rename_i hc
    · rw [if_pos hc]
    · omega
  have ha2 : a.toNat < 2 ^ 31 := by
    have := a.toInt_lt
    omega
  have hs : (IntOp.subi a (IntOp.muli 116#32 (BitVec.ofNat 32 k))).toNat = a.toNat - 116 * k := by
    show (a - IntOp.muli 116#32 (BitVec.ofNat 32 k)).toNat = _
    rw [BitVec.toNat_sub, hb]
    omega
  rw [BitVec.toInt_eq_toNat_cond, hs, ha]
  split <;> omega

/-- The negative-index select `select (i < 0) (i + extent) i` is `i` where `i`, read signed, is not negative. -/
private theorem select_of_nonneg (a b : BitVec 32) (h : 0 ≤ a.toInt) :
    Scalar.select (IntOp.cmpi .slt a 0#32) b a = a := by
  have hlt : a.slt 0#32 = false := by
    simp only [BitVec.slt, BitVec.toInt_zero, decide_eq_false_iff_not, Int.not_lt]
    exact h
  show (if BitVec.ofBool (a.slt 0#32) = 1 then _ else _) = _
  rw [hlt]
  rfl

/-! ## The edge endpoints: graph `g`'s edge `e` sits at flat position `g · 6670 + e` -/

/-- The first view's shifted edge table `[2, 256, 6670]` at (row, graph, edge): the edge word minus `116 g`. -/
private theorem v8_at (x1 : SEI.Idx → BitVec 32) (r : Fin 2) (g : Fin 256) (e : Fin 6670) :
    val_main_v8 (F := Ideal) x1 (ix3 r g e)
      = IntOp.subi (x1 (ix2 r (ecol 0 g e))) (IntOp.muli 116#32 (BitVec.ofNat 32 g.val)) := by
  rw [val_main_v8_apply, val_main_v3_apply, val_main_v1_apply, val_main_v7_apply, val_main_v6_apply,
    val_main_v5_apply, val_main_v4_apply, val_main_c_apply, val_main_v0_apply]
  have e1 : idx_main_v1 (idx_main_v3 (ix3 r g e)) = ix2 r (ecol 0 g e) := by
    funext a
    have hr := r.isLt; have hg := g.isLt; have he := e.isLt
    match a with
    | ⟨0, _⟩ => exact Fin.ext (by show ((r.val * 256 + g.val) * 13456 + e.val) / 3444736 = r.val; omega)
    | ⟨1, _⟩ => exact Fin.ext (by
        show ((r.val * 256 + g.val) * 13456 + e.val) % 3444736 = 13456 * g.val + 6670 * 0 + e.val; omega)
  rw [e1]

/-- The second view's shifted edge table at (row, graph, edge): the edge word minus `116 (g + 1)`. -/
private theorem v17_at (x1 : SEI.Idx → BitVec 32) (r : Fin 2) (g : Fin 256) (e : Fin 6670) :
    val_main_v17 (F := Ideal) x1 (ix3 r g e)
      = IntOp.subi (x1 (ix2 r (ecol 1 g e))) (IntOp.muli 116#32 (BitVec.ofNat 32 (g.val + 1))) := by
  rw [val_main_v17_apply, val_main_v10_apply, val_main_v1_apply, val_main_v16_apply, val_main_v15_apply,
    val_main_v14_apply, val_main_v13_apply, val_main_c_1_apply, val_main_v12_apply, val_main_v0_apply,
    val_main_v11_apply, val_main_c_0_apply]
  have e1 : idx_main_v1 (idx_main_v10 (ix3 r g e)) = ix2 r (ecol 1 g e) := by
    funext a
    have hr := r.isLt; have hg := g.isLt; have he := e.isLt
    match a with
    | ⟨0, _⟩ => exact Fin.ext (by show ((r.val * 256 + g.val) * 13456 + (6670 + e.val)) / 3444736 = r.val; omega)
    | ⟨1, _⟩ => exact Fin.ext (by
        show ((r.val * 256 + g.val) * 13456 + (6670 + e.val)) % 3444736 = 13456 * g.val + 6670 * 1 + e.val; omega)
  rw [e1]
  show IntOp.subi _ (IntOp.muli 116#32 (BitVec.ofNat 32 g.val + BitVec.ofNat 32 1)) = _
  rw [← BitVec.ofNat_add]

/-- Row `r` of the flattened table `[2, 1707520]` at a flat position is the table at (row, graph, edge). -/
private theorem v9_at (x1 : SEI.Idx → BitVec 32) (r : Fin 2) (g : Fin 256) (e : Fin 6670) :
    val_main_v9 (F := Ideal) x1 (ix2 r (flat g e)) = val_main_v8 (F := Ideal) x1 (ix3 r g e) := by
  rw [val_main_v9_apply]
  refine congrArg _ (funext fun a => ?_)
  have hr := r.isLt; have hg := g.isLt; have he := e.isLt
  match a with
  | ⟨0, _⟩ => exact Fin.ext (by show (r.val * 1707520 + (g.val * 6670 + e.val)) / 1707520 = r.val; omega)
  | ⟨1, _⟩ => exact Fin.ext (by show (r.val * 1707520 + (g.val * 6670 + e.val)) / 6670 % 256 = g.val; omega)
  | ⟨2, _⟩ => exact Fin.ext (by show (r.val * 1707520 + (g.val * 6670 + e.val)) % 6670 = e.val; omega)

private theorem v18_at (x1 : SEI.Idx → BitVec 32) (r : Fin 2) (g : Fin 256) (e : Fin 6670) :
    val_main_v18 (F := Ideal) x1 (ix2 r (flat g e)) = val_main_v17 (F := Ideal) x1 (ix3 r g e) := by
  rw [val_main_v18_apply]
  refine congrArg _ (funext fun a => ?_)
  have hr := r.isLt; have hg := g.isLt; have he := e.isLt
  match a with
  | ⟨0, _⟩ => exact Fin.ext (by show (r.val * 1707520 + (g.val * 6670 + e.val)) / 1707520 = r.val; omega)
  | ⟨1, _⟩ => exact Fin.ext (by show (r.val * 1707520 + (g.val * 6670 + e.val)) / 6670 % 256 = g.val; omega)
  | ⟨2, _⟩ => exact Fin.ext (by show (r.val * 1707520 + (g.val * 6670 + e.val)) % 6670 = e.val; omega)

/-- The vector of sources is row 0 of the flattened table, the vector of destinations row 1. -/
private theorem v30_at (x1 : SEI.Idx → BitVec 32) (E : Fin 1707520) :
    val_main_v30 (F := Ideal) x1 (ix1 E) = val_main_v9 (F := Ideal) x1 (ix2 0 E) := by
  rw [val_main_v30_apply, val_main_v29_apply]
  refine congrArg _ (funext fun a => ?_)
  have hE := E.isLt
  match a with
  | ⟨0, _⟩ => exact Fin.ext rfl
  | ⟨1, _⟩ => exact Fin.ext (by show E.val % 1707520 = E.val; omega)

private theorem v32_at (x1 : SEI.Idx → BitVec 32) (E : Fin 1707520) :
    val_main_v32 (F := Ideal) x1 (ix1 E) = val_main_v9 (F := Ideal) x1 (ix2 1 E) := by
  rw [val_main_v32_apply, val_main_v31_apply]
  refine congrArg _ (funext fun a => ?_)
  have hE := E.isLt
  match a with
  | ⟨0, _⟩ => exact Fin.ext rfl
  | ⟨1, _⟩ => exact Fin.ext (by show E.val % 1707520 = E.val; omega)

private theorem v79_at (x1 : SEI.Idx → BitVec 32) (E : Fin 1707520) :
    val_main_v79 (F := Ideal) x1 (ix1 E) = val_main_v18 (F := Ideal) x1 (ix2 0 E) := by
  rw [val_main_v79_apply, val_main_v78_apply]
  refine congrArg _ (funext fun a => ?_)
  have hE := E.isLt
  match a with
  | ⟨0, _⟩ => exact Fin.ext rfl
  | ⟨1, _⟩ => exact Fin.ext (by show E.val % 1707520 = E.val; omega)

private theorem v81_at (x1 : SEI.Idx → BitVec 32) (E : Fin 1707520) :
    val_main_v81 (F := Ideal) x1 (ix1 E) = val_main_v18 (F := Ideal) x1 (ix2 1 E) := by
  rw [val_main_v81_apply, val_main_v80_apply]
  refine congrArg _ (funext fun a => ?_)
  have hE := E.isLt
  match a with
  | ⟨0, _⟩ => exact Fin.ext rfl
  | ⟨1, _⟩ => exact Fin.ext (by show E.val % 1707520 = E.val; omega)

section Endpoints
variable (x1 : SEI.Idx → BitVec 32) (hIn : InBlock x1)

private theorem base0 (g : Fin 256) : base 0 g = 232 * (g.val : Int) := by
  show 232 * (g.val : Int) + 116 * ((0 : Nat) : Int) = _
  omega

private theorem base1 (g : Fin 256) : base 1 g = 232 * (g.val : Int) + 116 := by
  show 232 * (g.val : Int) + 116 * ((1 : Nat) : Int) = _
  omega

include hIn

/-- First view: the shifted source of edge `(g, e)`, read signed, is row `116 g + lsrc` of the view's node table. -/
private theorem src0_toInt (g : Fin 256) (e : Fin 6670) :
    (val_main_v30 (F := Ideal) x1 (ix1 (flat g e))).toInt = ((116 * g.val + (lsrc x1 0 g e).val : Nat) : Int) := by
  obtain ⟨⟨h1, h2⟩, _⟩ := hIn 0 g e
  have hg := g.isLt
  rw [base0] at h1 h2
  rw [v30_at, v9_at, v8_at]
  show (IntOp.subi (srcW x1 0 g e) _).toInt = _
  rw [toInt_sub_block _ _ (by omega) (by omega)]
  show _ = ((116 * g.val + ((srcW x1 0 g e).toInt - base 0 g).toNat % 116 : Nat) : Int)
  rw [base0]
  omega

/-- First view: the shifted destination of edge `(g, e)`, read signed, is row `116 g + ldst`. -/
private theorem dst0_toInt (g : Fin 256) (e : Fin 6670) :
    (val_main_v32 (F := Ideal) x1 (ix1 (flat g e))).toInt = ((116 * g.val + (ldst x1 0 g e).val : Nat) : Int) := by
  obtain ⟨_, ⟨h1, h2⟩⟩ := hIn 0 g e
  have hg := g.isLt
  rw [base0] at h1 h2
  rw [v32_at, v9_at, v8_at]
  show (IntOp.subi (dstW x1 0 g e) _).toInt = _
  rw [toInt_sub_block _ _ (by omega) (by omega)]
  show _ = ((116 * g.val + ((dstW x1 0 g e).toInt - base 0 g).toNat % 116 : Nat) : Int)
  rw [base0]
  omega

/-- Second view: the same with the offset `116 (g + 1)` against the view's first row `232 g + 116`. -/
private theorem src1_toInt (g : Fin 256) (e : Fin 6670) :
    (val_main_v79 (F := Ideal) x1 (ix1 (flat g e))).toInt = ((116 * g.val + (lsrc x1 1 g e).val : Nat) : Int) := by
  obtain ⟨⟨h1, h2⟩, _⟩ := hIn 1 g e
  have hg := g.isLt
  rw [base1] at h1 h2
  rw [v79_at, v18_at, v17_at]
  show (IntOp.subi (srcW x1 1 g e) _).toInt = _
  rw [toInt_sub_block _ _ (by omega) (by push_cast; omega)]
  show _ = ((116 * g.val + ((srcW x1 1 g e).toInt - base 1 g).toNat % 116 : Nat) : Int)
  rw [base1]
  push_cast
  omega

private theorem dst1_toInt (g : Fin 256) (e : Fin 6670) :
    (val_main_v81 (F := Ideal) x1 (ix1 (flat g e))).toInt = ((116 * g.val + (ldst x1 1 g e).val : Nat) : Int) := by
  obtain ⟨_, ⟨h1, h2⟩⟩ := hIn 1 g e
  have hg := g.isLt
  rw [base1] at h1 h2
  rw [v81_at, v18_at, v17_at]
  show (IntOp.subi (dstW x1 1 g e) _).toInt = _
  rw [toInt_sub_block _ _ (by omega) (by push_cast; omega)]
  show _ = ((116 * g.val + ((dstW x1 1 g e).toInt - base 1 g).toNat % 116 : Nat) : Int)
  rw [base1]
  push_cast
  omega

end Endpoints

/-! ## The weights and the projected features -/

/-- The first view's weight vector at flat position `(g, e)`. -/
private theorem w0_at (x2 : SEW.Idx → EReal) (g : Fin 256) (e : Fin 6670) :
    val_main_v20 (F := Ideal) x2 (ix1 (flat g e)) = wgt x2 0 g e := by
  rw [val_main_v20_apply, val_main_v19_apply, val_main_v2_apply]
  show x2 _ = x2 (ix1 (ecol 0 g e))
  refine congrArg _ (funext fun a => ?_)
  have hg := g.isLt; have he := e.isLt
  match a with
  | ⟨0, _⟩ => exact Fin.ext (by
      show (g.val * 6670 + e.val) / 6670 * 13456 + (g.val * 6670 + e.val) % 6670 = 13456 * g.val + 6670 * 0 + e.val
      omega)

/-- The second view's weight vector at flat position `(g, e)`. -/
private theorem w1_at (x2 : SEW.Idx → EReal) (g : Fin 256) (e : Fin 6670) :
    val_main_v22 (F := Ideal) x2 (ix1 (flat g e)) = wgt x2 1 g e := by
  rw [val_main_v22_apply, val_main_v21_apply, val_main_v2_apply]
  show x2 _ = x2 (ix1 (ecol 1 g e))
  refine congrArg _ (funext fun a => ?_)
  have hg := g.isLt; have he := e.isLt
  match a with
  | ⟨0, _⟩ => exact Fin.ext (by
      show (g.val * 6670 + e.val) / 6670 * 13456 + (6670 + (g.val * 6670 + e.val) % 6670) = 13456 * g.val + 6670 * 1 + e.val
      omega)

/-- The first view's projected features at node `116 g + n`: row `232 g + n` of `X` times `W`. -/
private theorem h0_at (x0 : SX.Idx → EReal) (x4 : SW.Idx → EReal) (g : Fin 256) (n : Fin 116) (c : Fin 128) :
    val_main_v28 (F := Ideal) x0 x4 (ix2 (gnode g n) c) = hfeat x0 x4 0 g n c := by
  rw [val_main_v28_apply]
  refine Finset.sum_congr rfl fun k _ => ?_
  rw [val_main_v25_apply, val_main_v24_apply, val_main_v23_apply]
  have e1 : idx_main_v23 (idx_main_v24 (idx_main_v25 (lidx_main_v28 (ix2 (gnode g n) c) k))) = ix2 (xrow 0 g n) k := by
    funext a
    have hg := g.isLt; have hn := n.isLt; have hk := k.isLt
    match a with
    | ⟨0, _⟩ => exact Fin.ext (by
        show ((((116 * g.val + n.val) * 115 + k.val) / 13340 * 232 + ((116 * g.val + n.val) * 115 + k.val) / 115 % 116) * 115
            + ((116 * g.val + n.val) * 115 + k.val) % 115) / 115 = 232 * g.val + 116 * 0 + n.val
        omega)
    | ⟨1, _⟩ => exact Fin.ext (by
        show ((((116 * g.val + n.val) * 115 + k.val) / 13340 * 232 + ((116 * g.val + n.val) * 115 + k.val) / 115 % 116) * 115
            + ((116 * g.val + n.val) * 115 + k.val) % 115) % 115 = k.val
        omega)
  have e2 : ridx_main_v28 (ix2 (gnode g n) c) k = ix2 k c := by
    funext a
    match a with
    | ⟨0, _⟩ => rfl
    | ⟨1, _⟩ => rfl
  rw [e1, e2]

/-- The second view's projected features at node `116 g + n`: row `232 g + 116 + n` of `X` times `W`. -/
private theorem h1_at (x0 : SX.Idx → EReal) (x6 : SW.Idx → EReal) (g : Fin 256) (n : Fin 116) (c : Fin 128) :
    val_main_v77 (F := Ideal) x0 x6 (ix2 (gnode g n) c) = hfeat x0 x6 1 g n c := by
  rw [val_main_v77_apply]
  refine Finset.sum_congr rfl fun k _ => ?_
  rw [val_main_v27_apply, val_main_v26_apply, val_main_v23_apply]
  have e1 : idx_main_v23 (idx_main_v26 (idx_main_v27 (lidx_main_v77 (ix2 (gnode g n) c) k))) = ix2 (xrow 1 g n) k := by
    funext a
    have hg := g.isLt; have hn := n.isLt; have hk := k.isLt
    match a with
    | ⟨0, _⟩ => exact Fin.ext (by
        show ((((116 * g.val + n.val) * 115 + k.val) / 13340 * 232 + (116 + ((116 * g.val + n.val) * 115 + k.val) / 115 % 116)) * 115
            + ((116 * g.val + n.val) * 115 + k.val) % 115) / 115 = 232 * g.val + 116 * 1 + n.val
        omega)
    | ⟨1, _⟩ => exact Fin.ext (by
        show ((((116 * g.val + n.val) * 115 + k.val) / 13340 * 232 + (116 + ((116 * g.val + n.val) * 115 + k.val) / 115 % 116)) * 115
            + ((116 * g.val + n.val) * 115 + k.val) % 115) % 115 = k.val
        omega)
  have e2 : ridx_main_v77 (ix2 (gnode g n) c) k = ix2 k c := by
    funext a
    match a with
    | ⟨0, _⟩ => rfl
    | ⟨1, _⟩ => rfl
  rw [e1, e2]

/-! ## The program's gather and scatter records, and its float constants -/

private theorem scatterVec_eq : scatter_S29696_S1707520x1_S1707520_n_0_0_1
    = Cert.LibIndexing.vecScatterDims 29696 1707520 Gen.scatter_S29696_S1707520x1_S1707520_n_0_0_1_wf := rfl

private theorem scatterRows_eq : scatter_S29696x128_S1707520x1_S1707520x128_1_0_0_1
    = Cert.LibIndexing.rowScatterDims 29696 128 1707520 Gen.scatter_S29696x128_S1707520x1_S1707520x128_1_0_0_1_wf := rfl

private theorem gatherVec_eq : gather_S29696_S1707520x1_S1707520_n_0_n_n_0_1_1
    = Cert.LibIndexing.vecGatherDims 29696 1707520 Gen.gather_S29696_S1707520x1_S1707520_n_0_n_n_0_1_1_wf := rfl

private theorem gatherRows_eq : gather_S29696x128_S1707520x1_S1707520x128_1_0_n_n_0_1_1128
    = Cert.LibIndexing.rowGatherDims 29696 128 1707520 Gen.gather_S29696x128_S1707520x1_S1707520x128_1_0_n_n_0_1_1128_wf := rfl

/-- The word `0x3F800000` is the number one. -/
private theorem ofBits_one_f32 : Ideal.ofBits .f32 0x3F800000#32 = 1 := by
  simp [Ideal.ofBits, Ideal.ieee]
  rw [← EReal.coe_mul]
  norm_num

/-- The word `0xFF800000` is minus infinity. -/
private theorem ofBits_neg_inf_f32 : Ideal.ofBits .f32 0xFF800000#32 = ⊥ := by
  simp [Ideal.ofBits, Ideal.ieee]

/-- A row maximum of a `[29696, 128]` array from an initial value: the fold of `max` over the 128 columns. -/
private theorem rowMax_apply (x : (⟨S29696x128, .f32⟩ : BufTy).Contents (Elt Ideal))
    (init : (⟨S_, .f32⟩ : BufTy).Contents (Elt Ideal)) (N : Fin 29696) :
    Host.reduce (FloatOps.maximumf (F := Ideal) (φ := .f32)) x init Gen.reducesTo_S29696x128_S29696_d1 Gen.h_S_ (ix1 N)
      = (Finset.univ : Finset (Fin 128)).fold max (init (Shape.Idx.first Gen.h_S_)) (fun c => x (ix2 N c)) := by
  have hR : S29696x128.Reduces [1] S29696 := by decide
  rw [Host.reduce_eq_fold_single (FloatOps.maximumf (F := Ideal) (φ := .f32)) x init _ hR _]
  exact Finset.fold_congr (fun c _ => congrArg x (funext fun a => match a with
    | ⟨0, _⟩ => Fin.ext rfl
    | ⟨1, _⟩ => Fin.ext rfl))

/-! ## First view: degrees, normalisation, messages, pooled value -/

section View0
variable (x0 : SX.Idx → EReal) (x1 : SEI.Idx → BitVec 32) (x2 : SEW.Idx → EReal) (x4 : SW.Idx → EReal)
  (x5 : Sb.Idx → EReal) (hIn : InBlock x1)

/-- The degree scatter's column of indices is the vector of destinations. -/
private theorem v34_at (E : Fin 1707520) :
    val_main_v34 (F := Ideal) x1 (ix2 E 0) = val_main_v32 (F := Ideal) x1 (ix1 E) := by
  rw [val_main_v34_apply]
  refine congrArg _ (funext fun a => ?_)
  match a with
  | ⟨0, _⟩ => rfl

/-- So is the message scatter's. -/
private theorem v66_at (E : Fin 1707520) :
    val_main_v66 (F := Ideal) x1 (ix2 E 0) = val_main_v32 (F := Ideal) x1 (ix1 E) := by
  rw [val_main_v66_apply]
  refine congrArg _ (funext fun a => ?_)
  match a with
  | ⟨0, _⟩ => rfl

include hIn

/-- Every edge's destination row lies in its own graph's block of 116 rows. -/
private theorem dst0_block (g' : Fin 256) (e' : Fin 6670) :
    116 * (g'.val : Int) ≤ (val_main_v32 (F := Ideal) x1 (ix1 (flat g' e'))).toInt
      ∧ (val_main_v32 (F := Ideal) x1 (ix1 (flat g' e'))).toInt < 116 * (g'.val : Int) + 116 := by
  rw [dst0_toInt x1 hIn]
  have := (ldst x1 0 g' e').isLt
  push_cast
  omega

/-- Among graph `g`'s edges, those whose destination row is `116 g + n` are those ending at node `n`. -/
private theorem dst0_iff (g : Fin 256) (n : Fin 116) (e : Fin 6670) :
    (val_main_v32 (F := Ideal) x1 (ix1 (flat g e))).toInt = ((116 * g.val + n.val : Nat) : Int) ↔ ldst x1 0 g e = n := by
  rw [dst0_toInt x1 hIn]
  constructor
  · intro h
    exact Fin.ext (by omega)
  · intro h
    rw [h]

/-- The degree array at node `116 g + n`: the scatter over all edges keeps graph `g`'s edges ending at `n`. -/
private theorem deg0_at (g : Fin 256) (n : Fin 116) :
    val_main_v37 (F := Ideal) x1 x2 (ix1 (gnode g n)) = deg x1 x2 0 g n := by
  rw [val_main_v37_apply, val_main_v36_apply, val_main_cst_2_apply]
  unfold val_main_v35
  rw [scatterVec_eq, Cert.LibIndexing.scatterAdd_vec_apply, val_main_v33_apply, val_main_cst_apply]
  have hS : ∑ E ∈ Finset.univ.filter (fun E : Fin 1707520 =>
        (val_main_v34 (F := Ideal) x1 (ix2 E 0)).toInt = ((gnode g n).val : Int)), val_main_v20 (F := Ideal) x2 (ix1 E)
      = ∑ e ∈ Finset.univ.filter (fun e : Fin 6670 => ldst x1 0 g e = n), wgt x2 0 g e := by
    rw [Finset.filter_congr (fun E _ => show (val_main_v34 (F := Ideal) x1 (ix2 E 0)).toInt = ((gnode g n).val : Int)
        ↔ (val_main_v32 (F := Ideal) x1 (ix1 E)).toInt = ((116 * g.val + n.val : Nat) : Int) by rw [v34_at]; exact Iff.rfl)]
    refine (sum_filter_global_eq_local (fun E => val_main_v20 (F := Ideal) x2 (ix1 E))
      (fun E => (val_main_v32 (F := Ideal) x1 (ix1 E)).toInt) (dst0_block x1 hIn) g n).trans ?_
    exact Finset.sum_congr (Finset.filter_congr fun e _ => dst0_iff x1 hIn g n e) (fun e _ => w0_at x2 g e)
  rw [hS]
  show (Ideal.ofBits .f32 0x00000000#32 + _) + Ideal.ofBits .f32 0x3F800000#32 = _
  rw [Ideal.ofBits_zero_f32, zero_add, ofBits_one_f32]
  rfl

/-- The normalisation array at node `116 g + n`. -/
private theorem dinv0_at (g : Fin 256) (n : Fin 116) :
    val_main_v38 (F := Ideal) x1 x2 (ix1 (gnode g n)) = dinv x1 x2 0 g n := by
  rw [val_main_v38_apply, deg0_at x1 x2 hIn]
  rfl

/-- The start index of the normalisation gather at an edge's source is the source row itself. -/
private theorem v44_at (g : Fin 256) (e : Fin 6670) :
    val_main_v44 (F := Ideal) x1 (ix2 (flat g e) 0) = val_main_v30 (F := Ideal) x1 (ix1 (flat g e)) := by
  rw [val_main_v44_apply, val_main_v43_apply, val_main_v40_apply, val_main_v39_apply, val_main_c_3_apply]
  have e1 : idx_main_v44 (ix2 (flat g e) 0) = ix1 (flat g e) := funext fun a => match a with | ⟨0, _⟩ => rfl
  rw [e1]
  exact select_of_nonneg _ _ (by rw [src0_toInt x1 hIn]; omega)

/-- The start index of the normalisation gather at an edge's destination is the destination row itself. -/
private theorem v52_at (g : Fin 256) (e : Fin 6670) :
    val_main_v52 (F := Ideal) x1 (ix2 (flat g e) 0) = val_main_v32 (F := Ideal) x1 (ix1 (flat g e)) := by
  rw [val_main_v52_apply, val_main_v51_apply, val_main_v48_apply, val_main_v47_apply, val_main_c_5_apply]
  have e1 : idx_main_v52 (ix2 (flat g e) 0) = ix1 (flat g e) := funext fun a => match a with | ⟨0, _⟩ => rfl
  rw [e1]
  exact select_of_nonneg _ _ (by rw [dst0_toInt x1 hIn]; omega)

/-- The start index of the feature gather at an edge is its source row itself. -/
private theorem v60_at (g : Fin 256) (e : Fin 6670) :
    val_main_v60 (F := Ideal) x1 (ix2 (flat g e) 0) = val_main_v30 (F := Ideal) x1 (ix1 (flat g e)) := by
  rw [val_main_v60_apply, val_main_v59_apply, val_main_v56_apply, val_main_v55_apply, val_main_c_7_apply]
  have e1 : idx_main_v60 (ix2 (flat g e) 0) = ix1 (flat g e) := funext fun a => match a with | ⟨0, _⟩ => rfl
  rw [e1]
  exact select_of_nonneg _ _ (by rw [src0_toInt x1 hIn]; omega)

/-- The normalisation gathered at an edge's source: the clamp is the identity inside the table. -/
private theorem v45_at (g : Fin 256) (e : Fin 6670) :
    val_main_v45 (F := Ideal) x1 x2 (ix1 (flat g e)) = dinv x1 x2 0 g (lsrc x1 0 g e) := by
  unfold val_main_v45
  rw [gatherVec_eq, Cert.LibIndexing.gather_vec_apply (show (0 : Nat) < 29696 by decide), ← dinv0_at x1 x2 hIn]
  refine congrArg (fun t => val_main_v38 (F := Ideal) x1 x2 (ix1 t)) (Fin.ext ?_)
  show min (val_main_v44 (F := Ideal) x1 (ix2 (flat g e) 0)).toInt.toNat (29696 - 1) = 116 * g.val + (lsrc x1 0 g e).val
  rw [v44_at x1 hIn, src0_toInt x1 hIn]
  have := g.isLt; have := (lsrc x1 0 g e).isLt
  omega

/-- The normalisation gathered at an edge's destination. -/
private theorem v53_at (g : Fin 256) (e : Fin 6670) :
    val_main_v53 (F := Ideal) x1 x2 (ix1 (flat g e)) = dinv x1 x2 0 g (ldst x1 0 g e) := by
  unfold val_main_v53
  rw [gatherVec_eq, Cert.LibIndexing.gather_vec_apply (show (0 : Nat) < 29696 by decide), ← dinv0_at x1 x2 hIn]
  refine congrArg (fun t => val_main_v38 (F := Ideal) x1 x2 (ix1 t)) (Fin.ext ?_)
  show min (val_main_v52 (F := Ideal) x1 (ix2 (flat g e) 0)).toInt.toNat (29696 - 1) = 116 * g.val + (ldst x1 0 g e).val
  rw [v52_at x1 hIn, dst0_toInt x1 hIn]
  have := g.isLt; have := (ldst x1 0 g e).isLt
  omega

/-- The projected features gathered at an edge's source. -/
private theorem v61_at (g : Fin 256) (e : Fin 6670) (c : Fin 128) :
    val_main_v61 (F := Ideal) x0 x1 x4 (ix2 (flat g e) c) = hfeat x0 x4 0 g (lsrc x1 0 g e) c := by
  unfold val_main_v61
  rw [gatherRows_eq, Cert.LibIndexing.gather_rows_apply (show (0 : Nat) < 29696 by decide), ← h0_at]
  refine congrArg (fun t => val_main_v28 (F := Ideal) x0 x4 (ix2 t c)) (Fin.ext ?_)
  show min (val_main_v60 (F := Ideal) x1 (ix2 (flat g e) 0)).toInt.toNat (29696 - 1) = 116 * g.val + (lsrc x1 0 g e).val
  rw [v60_at x1 hIn, src0_toInt x1 hIn]
  have := g.isLt; have := (lsrc x1 0 g e).isLt
  omega

/-- The coefficient of an edge: normalisation at the source times weight, times normalisation at the destination. -/
private theorem v54_at (g : Fin 256) (e : Fin 6670) :
    val_main_v54 (F := Ideal) x1 x2 (ix1 (flat g e))
      = (dinv x1 x2 0 g (lsrc x1 0 g e) * wgt x2 0 g e) * dinv x1 x2 0 g (ldst x1 0 g e) := by
  rw [val_main_v54_apply, val_main_v46_apply, v45_at x1 x2 hIn, v53_at x1 x2 hIn, w0_at]
  rfl

/-- The message of an edge at a channel. -/
private theorem v64_at (g : Fin 256) (e : Fin 6670) (c : Fin 128) :
    val_main_v64 (F := Ideal) x0 x1 x2 x4 (ix2 (flat g e) c)
      = hfeat x0 x4 0 g (lsrc x1 0 g e) c
        * ((dinv x1 x2 0 g (lsrc x1 0 g e) * wgt x2 0 g e) * dinv x1 x2 0 g (ldst x1 0 g e)) := by
  rw [val_main_v64_apply, v61_at x0 x1 x4 hIn, val_main_v63_apply, val_main_v62_apply]
  have e1 : idx_main_v62 (idx_main_v63 (ix2 (flat g e) c)) = ix1 (flat g e) :=
    funext fun a => match a with | ⟨0, _⟩ => rfl
  rw [e1, v54_at x1 x2 hIn]
  rfl

/-- The aggregated messages at node `116 g + n`: the scatter over all edges keeps graph `g`'s edges ending at `n`. -/
private theorem v67_at (g : Fin 256) (n : Fin 116) (c : Fin 128) :
    val_main_v67 (F := Ideal) x0 x1 x2 x4 (ix2 (gnode g n) c)
      = ∑ e ∈ Finset.univ.filter (fun e : Fin 6670 => ldst x1 0 g e = n),
          hfeat x0 x4 0 g (lsrc x1 0 g e) c * ((dinv x1 x2 0 g (lsrc x1 0 g e) * wgt x2 0 g e) * dinv x1 x2 0 g n) := by
  unfold val_main_v67
  rw [scatterRows_eq, Cert.LibIndexing.scatterAdd_rows_apply, val_main_v65_apply, val_main_cst_9_apply]
  have hS : ∑ E ∈ Finset.univ.filter (fun E : Fin 1707520 =>
        (val_main_v66 (F := Ideal) x1 (ix2 E 0)).toInt = ((gnode g n).val : Int)),
          val_main_v64 (F := Ideal) x0 x1 x2 x4 (ix2 E c)
      = ∑ e ∈ Finset.univ.filter (fun e : Fin 6670 => ldst x1 0 g e = n),
          hfeat x0 x4 0 g (lsrc x1 0 g e) c * ((dinv x1 x2 0 g (lsrc x1 0 g e) * wgt x2 0 g e) * dinv x1 x2 0 g n) := by
    rw [Finset.filter_congr (fun E _ => show (val_main_v66 (F := Ideal) x1 (ix2 E 0)).toInt = ((gnode g n).val : Int)
        ↔ (val_main_v32 (F := Ideal) x1 (ix1 E)).toInt = ((116 * g.val + n.val : Nat) : Int) by rw [v66_at]; exact Iff.rfl)]
    refine (sum_filter_global_eq_local (fun E => val_main_v64 (F := Ideal) x0 x1 x2 x4 (ix2 E c))
      (fun E => (val_main_v32 (F := Ideal) x1 (ix1 E)).toInt) (dst0_block x1 hIn) g n).trans ?_
    refine Finset.sum_congr (Finset.filter_congr fun e _ => dst0_iff x1 hIn g n e) (fun e he => ?_)
    rw [v64_at x0 x1 x2 x4 hIn, (Finset.mem_filter.mp he).2]
  rw [hS]
  show Ideal.ofBits .f32 0x00000000#32 + _ = _
  rw [Ideal.ofBits_zero_f32, zero_add]

/-- The convolution at node `116 g + n` and channel `c`. -/
private theorem conv0_at (g : Fin 256) (n : Fin 116) (c : Fin 128) :
    val_main_v75 (F := Ideal) x0 x1 x2 x4 x5 (ix2 (gnode g n) c) = conv x0 x1 x2 x4 x5 0 g n c := by
  rw [val_main_v75_apply, val_main_v72_apply, v67_at x0 x1 x2 x4 hIn, val_main_v71_apply, val_main_v70_apply,
    val_main_v69_apply, val_main_v68_apply, val_main_v74_apply, val_main_v73_apply, h0_at]
  have e1 : idx_main_v69 (idx_main_v70 (ix2 (gnode g n) c)) = ix1 (gnode g n) :=
    funext fun a => match a with | ⟨0, _⟩ => rfl
  have e2 : idx_main_v73 (idx_main_v74 (ix2 (gnode g n) c)) = ix1 c :=
    funext fun a => match a with | ⟨0, _⟩ => rfl
  rw [e1, e2, dinv0_at x1 x2 hIn]
  rfl

/-- The row maximum at node `116 g + n`: the fold of `max` from `⊥` over the 128 channels. -/
private theorem pool0_at (g : Fin 256) (n : Fin 116) :
    val_main_v76 (F := Ideal) x0 x1 x2 x4 x5 (ix1 (gnode g n)) = Cert.Spec.pool x0 x1 x2 x4 x5 0 g n := by
  unfold val_main_v76
  refine (rowMax_apply (val_main_v75 (F := Ideal) x0 x1 x2 x4 x5) (val_main_cst_10 (F := Ideal)) (gnode g n)).trans ?_
  rw [val_main_cst_10_apply, Ideal.ofBits_def, ofBits_neg_inf_f32]
  unfold Cert.Spec.pool
  exact Finset.fold_congr (fun c _ => conv0_at x0 x1 x2 x4 x5 hIn g n c)

end View0

/-! ## Second view: degrees, normalisation, messages, pooled value -/

section View1
variable (x0 : SX.Idx → EReal) (x1 : SEI.Idx → BitVec 32) (x2 : SEW.Idx → EReal) (x6 : SW.Idx → EReal)
  (x7 : Sb.Idx → EReal) (hIn : InBlock x1)

/-- The degree scatter's column of indices is the vector of destinations. -/
private theorem v83_at (E : Fin 1707520) :
    val_main_v83 (F := Ideal) x1 (ix2 E 0) = val_main_v81 (F := Ideal) x1 (ix1 E) := by
  rw [val_main_v83_apply]
  refine congrArg _ (funext fun a => ?_)
  match a with
  | ⟨0, _⟩ => rfl

/-- So is the message scatter's. -/
private theorem v115_at (E : Fin 1707520) :
    val_main_v115 (F := Ideal) x1 (ix2 E 0) = val_main_v81 (F := Ideal) x1 (ix1 E) := by
  rw [val_main_v115_apply]
  refine congrArg _ (funext fun a => ?_)
  match a with
  | ⟨0, _⟩ => rfl

include hIn

/-- Every edge's destination row lies in its own graph's block of 116 rows. -/
private theorem dst1_block (g' : Fin 256) (e' : Fin 6670) :
    116 * (g'.val : Int) ≤ (val_main_v81 (F := Ideal) x1 (ix1 (flat g' e'))).toInt
      ∧ (val_main_v81 (F := Ideal) x1 (ix1 (flat g' e'))).toInt < 116 * (g'.val : Int) + 116 := by
  rw [dst1_toInt x1 hIn]
  have := (ldst x1 1 g' e').isLt
  push_cast
  omega

/-- Among graph `g`'s edges, those whose destination row is `116 g + n` are those ending at node `n`. -/
private theorem dst1_iff (g : Fin 256) (n : Fin 116) (e : Fin 6670) :
    (val_main_v81 (F := Ideal) x1 (ix1 (flat g e))).toInt = ((116 * g.val + n.val : Nat) : Int) ↔ ldst x1 1 g e = n := by
  rw [dst1_toInt x1 hIn]
  constructor
  · intro h
    exact Fin.ext (by omega)
  · intro h
    rw [h]

/-- The degree array at node `116 g + n`: the scatter over all edges keeps graph `g`'s edges ending at `n`. -/
private theorem deg1_at (g : Fin 256) (n : Fin 116) :
    val_main_v86 (F := Ideal) x1 x2 (ix1 (gnode g n)) = deg x1 x2 1 g n := by
  rw [val_main_v86_apply, val_main_v85_apply, val_main_cst_12_apply]
  unfold val_main_v84
  rw [scatterVec_eq, Cert.LibIndexing.scatterAdd_vec_apply, val_main_v82_apply, val_main_cst_11_apply]
  have hS : ∑ E ∈ Finset.univ.filter (fun E : Fin 1707520 =>
        (val_main_v83 (F := Ideal) x1 (ix2 E 0)).toInt = ((gnode g n).val : Int)), val_main_v22 (F := Ideal) x2 (ix1 E)
      = ∑ e ∈ Finset.univ.filter (fun e : Fin 6670 => ldst x1 1 g e = n), wgt x2 1 g e := by
    rw [Finset.filter_congr (fun E _ => show (val_main_v83 (F := Ideal) x1 (ix2 E 0)).toInt = ((gnode g n).val : Int)
        ↔ (val_main_v81 (F := Ideal) x1 (ix1 E)).toInt = ((116 * g.val + n.val : Nat) : Int) by rw [v83_at]; exact Iff.rfl)]
    refine (sum_filter_global_eq_local (fun E => val_main_v22 (F := Ideal) x2 (ix1 E))
      (fun E => (val_main_v81 (F := Ideal) x1 (ix1 E)).toInt) (dst1_block x1 hIn) g n).trans ?_
    exact Finset.sum_congr (Finset.filter_congr fun e _ => dst1_iff x1 hIn g n e) (fun e _ => w1_at x2 g e)
  rw [hS]
  show (Ideal.ofBits .f32 0x00000000#32 + _) + Ideal.ofBits .f32 0x3F800000#32 = _
  rw [Ideal.ofBits_zero_f32, zero_add, ofBits_one_f32]
  rfl

/-- The normalisation array at node `116 g + n`. -/
private theorem dinv1_at (g : Fin 256) (n : Fin 116) :
    val_main_v87 (F := Ideal) x1 x2 (ix1 (gnode g n)) = dinv x1 x2 1 g n := by
  rw [val_main_v87_apply, deg1_at x1 x2 hIn]
  rfl

/-- The start index of the normalisation gather at an edge's source is the source row itself. -/
private theorem v93_at (g : Fin 256) (e : Fin 6670) :
    val_main_v93 (F := Ideal) x1 (ix2 (flat g e) 0) = val_main_v79 (F := Ideal) x1 (ix1 (flat g e)) := by
  rw [val_main_v93_apply, val_main_v92_apply, val_main_v89_apply, val_main_v88_apply, val_main_c_13_apply]
  have e1 : idx_main_v93 (ix2 (flat g e) 0) = ix1 (flat g e) := funext fun a => match a with | ⟨0, _⟩ => rfl
  rw [e1]
  exact select_of_nonneg _ _ (by rw [src1_toInt x1 hIn]; omega)

/-- The start index of the normalisation gather at an edge's destination is the destination row itself. -/
private theorem v101_at (g : Fin 256) (e : Fin 6670) :
    val_main_v101 (F := Ideal) x1 (ix2 (flat g e) 0) = val_main_v81 (F := Ideal) x1 (ix1 (flat g e)) := by
  rw [val_main_v101_apply, val_main_v100_apply, val_main_v97_apply, val_main_v96_apply, val_main_c_15_apply]
  have e1 : idx_main_v101 (ix2 (flat g e) 0) = ix1 (flat g e) := funext fun a => match a with | ⟨0, _⟩ => rfl
  rw [e1]
  exact select_of_nonneg _ _ (by rw [dst1_toInt x1 hIn]; omega)

/-- The start index of the feature gather at an edge is its source row itself. -/
private theorem v109_at (g : Fin 256) (e : Fin 6670) :
    val_main_v109 (F := Ideal) x1 (ix2 (flat g e) 0) = val_main_v79 (F := Ideal) x1 (ix1 (flat g e)) := by
  rw [val_main_v109_apply, val_main_v108_apply, val_main_v105_apply, val_main_v104_apply, val_main_c_17_apply]
  have e1 : idx_main_v109 (ix2 (flat g e) 0) = ix1 (flat g e) := funext fun a => match a with | ⟨0, _⟩ => rfl
  rw [e1]
  exact select_of_nonneg _ _ (by rw [src1_toInt x1 hIn]; omega)

/-- The normalisation gathered at an edge's source: the clamp is the identity inside the table. -/
private theorem v94_at (g : Fin 256) (e : Fin 6670) :
    val_main_v94 (F := Ideal) x1 x2 (ix1 (flat g e)) = dinv x1 x2 1 g (lsrc x1 1 g e) := by
  unfold val_main_v94
  rw [gatherVec_eq, Cert.LibIndexing.gather_vec_apply (show (0 : Nat) < 29696 by decide), ← dinv1_at x1 x2 hIn]
  refine congrArg (fun t => val_main_v87 (F := Ideal) x1 x2 (ix1 t)) (Fin.ext ?_)
  show min (val_main_v93 (F := Ideal) x1 (ix2 (flat g e) 0)).toInt.toNat (29696 - 1) = 116 * g.val + (lsrc x1 1 g e).val
  rw [v93_at x1 hIn, src1_toInt x1 hIn]
  have := g.isLt; have := (lsrc x1 1 g e).isLt
  omega

/-- The normalisation gathered at an edge's destination. -/
private theorem v102_at (g : Fin 256) (e : Fin 6670) :
    val_main_v102 (F := Ideal) x1 x2 (ix1 (flat g e)) = dinv x1 x2 1 g (ldst x1 1 g e) := by
  unfold val_main_v102
  rw [gatherVec_eq, Cert.LibIndexing.gather_vec_apply (show (0 : Nat) < 29696 by decide), ← dinv1_at x1 x2 hIn]
  refine congrArg (fun t => val_main_v87 (F := Ideal) x1 x2 (ix1 t)) (Fin.ext ?_)
  show min (val_main_v101 (F := Ideal) x1 (ix2 (flat g e) 0)).toInt.toNat (29696 - 1) = 116 * g.val + (ldst x1 1 g e).val
  rw [v101_at x1 hIn, dst1_toInt x1 hIn]
  have := g.isLt; have := (ldst x1 1 g e).isLt
  omega

/-- The projected features gathered at an edge's source. -/
private theorem v110_at (g : Fin 256) (e : Fin 6670) (c : Fin 128) :
    val_main_v110 (F := Ideal) x0 x1 x6 (ix2 (flat g e) c) = hfeat x0 x6 1 g (lsrc x1 1 g e) c := by
  unfold val_main_v110
  rw [gatherRows_eq, Cert.LibIndexing.gather_rows_apply (show (0 : Nat) < 29696 by decide), ← h1_at]
  refine congrArg (fun t => val_main_v77 (F := Ideal) x0 x6 (ix2 t c)) (Fin.ext ?_)
  show min (val_main_v109 (F := Ideal) x1 (ix2 (flat g e) 0)).toInt.toNat (29696 - 1) = 116 * g.val + (lsrc x1 1 g e).val
  rw [v109_at x1 hIn, src1_toInt x1 hIn]
  have := g.isLt; have := (lsrc x1 1 g e).isLt
  omega

/-- The coefficient of an edge: normalisation at the source times weight, times normalisation at the destination. -/
private theorem v103_at (g : Fin 256) (e : Fin 6670) :
    val_main_v103 (F := Ideal) x1 x2 (ix1 (flat g e))
      = (dinv x1 x2 1 g (lsrc x1 1 g e) * wgt x2 1 g e) * dinv x1 x2 1 g (ldst x1 1 g e) := by
  rw [val_main_v103_apply, val_main_v95_apply, v94_at x1 x2 hIn, v102_at x1 x2 hIn, w1_at]
  rfl

/-- The message of an edge at a channel. -/
private theorem v113_at (g : Fin 256) (e : Fin 6670) (c : Fin 128) :
    val_main_v113 (F := Ideal) x0 x1 x2 x6 (ix2 (flat g e) c)
      = hfeat x0 x6 1 g (lsrc x1 1 g e) c
        * ((dinv x1 x2 1 g (lsrc x1 1 g e) * wgt x2 1 g e) * dinv x1 x2 1 g (ldst x1 1 g e)) := by
  rw [val_main_v113_apply, v110_at x0 x1 x6 hIn, val_main_v112_apply, val_main_v111_apply]
  have e1 : idx_main_v111 (idx_main_v112 (ix2 (flat g e) c)) = ix1 (flat g e) :=
    funext fun a => match a with | ⟨0, _⟩ => rfl
  rw [e1, v103_at x1 x2 hIn]
  rfl

/-- The aggregated messages at node `116 g + n`: the scatter over all edges keeps graph `g`'s edges ending at `n`. -/
private theorem v116_at (g : Fin 256) (n : Fin 116) (c : Fin 128) :
    val_main_v116 (F := Ideal) x0 x1 x2 x6 (ix2 (gnode g n) c)
      = ∑ e ∈ Finset.univ.filter (fun e : Fin 6670 => ldst x1 1 g e = n),
          hfeat x0 x6 1 g (lsrc x1 1 g e) c * ((dinv x1 x2 1 g (lsrc x1 1 g e) * wgt x2 1 g e) * dinv x1 x2 1 g n) := by
  unfold val_main_v116
  rw [scatterRows_eq, Cert.LibIndexing.scatterAdd_rows_apply, val_main_v114_apply, val_main_cst_19_apply]
  have hS : ∑ E ∈ Finset.univ.filter (fun E : Fin 1707520 =>
        (val_main_v115 (F := Ideal) x1 (ix2 E 0)).toInt = ((gnode g n).val : Int)),
          val_main_v113 (F := Ideal) x0 x1 x2 x6 (ix2 E c)
      = ∑ e ∈ Finset.univ.filter (fun e : Fin 6670 => ldst x1 1 g e = n),
          hfeat x0 x6 1 g (lsrc x1 1 g e) c * ((dinv x1 x2 1 g (lsrc x1 1 g e) * wgt x2 1 g e) * dinv x1 x2 1 g n) := by
    rw [Finset.filter_congr (fun E _ => show (val_main_v115 (F := Ideal) x1 (ix2 E 0)).toInt = ((gnode g n).val : Int)
        ↔ (val_main_v81 (F := Ideal) x1 (ix1 E)).toInt = ((116 * g.val + n.val : Nat) : Int) by rw [v115_at]; exact Iff.rfl)]
    refine (sum_filter_global_eq_local (fun E => val_main_v113 (F := Ideal) x0 x1 x2 x6 (ix2 E c))
      (fun E => (val_main_v81 (F := Ideal) x1 (ix1 E)).toInt) (dst1_block x1 hIn) g n).trans ?_
    refine Finset.sum_congr (Finset.filter_congr fun e _ => dst1_iff x1 hIn g n e) (fun e he => ?_)
    rw [v113_at x0 x1 x2 x6 hIn, (Finset.mem_filter.mp he).2]
  rw [hS]
  show Ideal.ofBits .f32 0x00000000#32 + _ = _
  rw [Ideal.ofBits_zero_f32, zero_add]

/-- The convolution at node `116 g + n` and channel `c`. -/
private theorem conv1_at (g : Fin 256) (n : Fin 116) (c : Fin 128) :
    val_main_v124 (F := Ideal) x0 x1 x2 x6 x7 (ix2 (gnode g n) c) = conv x0 x1 x2 x6 x7 1 g n c := by
  rw [val_main_v124_apply, val_main_v121_apply, v116_at x0 x1 x2 x6 hIn, val_main_v120_apply, val_main_v119_apply,
    val_main_v118_apply, val_main_v117_apply, val_main_v123_apply, val_main_v122_apply, h1_at]
  have e1 : idx_main_v118 (idx_main_v119 (ix2 (gnode g n) c)) = ix1 (gnode g n) :=
    funext fun a => match a with | ⟨0, _⟩ => rfl
  have e2 : idx_main_v122 (idx_main_v123 (ix2 (gnode g n) c)) = ix1 c :=
    funext fun a => match a with | ⟨0, _⟩ => rfl
  rw [e1, e2, dinv1_at x1 x2 hIn]
  rfl

/-- The row maximum at node `116 g + n`: the fold of `max` from `⊥` over the 128 channels. -/
private theorem pool1_at (g : Fin 256) (n : Fin 116) :
    val_main_v125 (F := Ideal) x0 x1 x2 x6 x7 (ix1 (gnode g n)) = Cert.Spec.pool x0 x1 x2 x6 x7 1 g n := by
  unfold val_main_v125
  refine (rowMax_apply (val_main_v124 (F := Ideal) x0 x1 x2 x6 x7) (val_main_cst_20 (F := Ideal)) (gnode g n)).trans ?_
  rw [val_main_cst_20_apply, Ideal.ofBits_def, ofBits_neg_inf_f32]
  unfold Cert.Spec.pool
  exact Finset.fold_congr (fun c _ => conv1_at x0 x1 x2 x6 x7 hIn g n c)

end View1

theorem poolFc_apply (x0 : Cert.Spec.SX.Idx → EReal) (x1 : Cert.Spec.SEI.Idx → BitVec 32) (x2 : Cert.Spec.SEW.Idx → EReal)
    (x4 : Cert.Spec.SW.Idx → EReal) (x5 : Cert.Spec.Sb.Idx → EReal) (hIn : Cert.Spec.InBlock x1) (g : Fin 256) (n : Fin 116) :
    val_main_v76 (F := Ideal) x0 x1 x2 x4 x5 (ix1 (gnode g n)) = Cert.Spec.pool x0 x1 x2 x4 x5 0 g n :=
  pool0_at x0 x1 x2 x4 x5 hIn g n

theorem poolSc_apply (x0 : Cert.Spec.SX.Idx → EReal) (x1 : Cert.Spec.SEI.Idx → BitVec 32) (x2 : Cert.Spec.SEW.Idx → EReal)
    (x6 : Cert.Spec.SW.Idx → EReal) (x7 : Cert.Spec.Sb.Idx → EReal) (hIn : Cert.Spec.InBlock x1) (g : Fin 256) (n : Fin 116) :
    val_main_v125 (F := Ideal) x0 x1 x2 x6 x7 (ix1 (gnode g n)) = Cert.Spec.pool x0 x1 x2 x6 x7 1 g n :=
  pool1_at x0 x1 x2 x6 x7 hIn g n

end Cert.ReferenceIdeal.RV

end
-- ==== Proof.RefTail.lean ====
/-
  The reference's result from its two arrays of pooled values: stacked node by node, reshaped to 232 features a graph,
  through the two closing layers: the specification's `result`.
-/
import proofs.«409833_j29446295781426_1_alg».proof.Proof.RefConv

noncomputable section

open scoped BigOperators

namespace Cert.ReferenceIdeal.RV

open Idealize.ShloMosaic Idealize.ShloMosaic.TcCoe Idealize.ShloMosaic.ValueIdx Idealize.SL.Sem Cert.ReferenceIdeal Cert.ReferenceIdeal.ReadP

/-- The stacked array `[29696, 2]` read in column 0: the first operand at the same row. -/
private theorem cat_col0 (a b : S29696x1.Idx → EReal) (h : Shape.Concatenates [S29696x1, S29696x1] S29696x2 1) (N : Fin 29696) :
    concatenate S29696x2 1 [⟨S29696x1, a⟩, ⟨S29696x1, b⟩] h (ix2 N (0 : Fin 2))
      = a (ix2 N (0 : Fin 1)) :=
  concatenate_pair_apply_left (1 : Fin S29696x2.rank) a b h (ix2 N (0 : Fin 2)) rfl (ix2 N (0 : Fin 1))
    (fun c => by match c with | ⟨0, _⟩ => rfl | ⟨1, _⟩ => rfl)

/-- The stacked array read in column 1: the second operand at the same row, its column the first extent less. -/
private theorem cat_col1 (a b : S29696x1.Idx → EReal) (h : Shape.Concatenates [S29696x1, S29696x1] S29696x2 1) (N : Fin 29696) :
    concatenate S29696x2 1 [⟨S29696x1, a⟩, ⟨S29696x1, b⟩] h (ix2 N (1 : Fin 2))
      = b (ix2 N (0 : Fin 1)) :=
  concatenate_pair_apply_right (1 : Fin S29696x2.rank) a b h (ix2 N (1 : Fin 2)) rfl rfl (ix2 N (0 : Fin 1))
    (fun c hc => by match c, hc with | ⟨0, _⟩, _ => rfl | ⟨1, _⟩, hc => exact absurd rfl hc)
    rfl

section
variable (x0 : Cert.Spec.SX.Idx → EReal) (x1 : Cert.Spec.SEI.Idx → BitVec 32) (x2 : Cert.Spec.SEW.Idx → EReal)
    (x4 : Cert.Spec.SW.Idx → EReal) (x5 : Cert.Spec.Sb.Idx → EReal) (x6 : Cert.Spec.SW.Idx → EReal) (x7 : Cert.Spec.Sb.Idx → EReal)
    (x8 : Cert.Spec.SW6.Idx → EReal) (x9 : Cert.Spec.Sb6.Idx → EReal) (x10 : Cert.Spec.SW7.Idx → EReal) (x11 : Cert.Spec.Sb7.Idx → EReal)

/-- Row `N`, column 0 of the stacked array is the first view's pooled value of node `N`. -/
private theorem stack_col0 (N : Fin 29696) :
    val_main_v128 (F := Ideal) x0 x1 x2 x4 x5 x6 x7 (ix2 N (0 : Fin 2)) = val_main_v76 (F := Ideal) x0 x1 x2 x4 x5 (ix1 N) := by
  unfold val_main_v128
  rw [cat_col0, val_main_v126_apply]
  generalize val_main_v76 (F := Ideal) x0 x1 x2 x4 x5 = y
  exact congrArg y (funext fun a => match a with | ⟨0, _⟩ => rfl)

/-- Row `N`, column 1 of the stacked array is the second view's pooled value of node `N`. -/
private theorem stack_col1 (N : Fin 29696) :
    val_main_v128 (F := Ideal) x0 x1 x2 x4 x5 x6 x7 (ix2 N (1 : Fin 2)) = val_main_v125 (F := Ideal) x0 x1 x2 x6 x7 (ix1 N) := by
  unfold val_main_v128
  rw [cat_col1, val_main_v127_apply]
  generalize val_main_v125 (F := Ideal) x0 x1 x2 x6 x7 = y
  exact congrArg y (funext fun a => match a with | ⟨0, _⟩ => rfl)

/-- Feature `j` of graph `g`: the flat position `232 g + j` of the `[29696, 2]` array is row `116 g + j / 2`,
    column `j % 2`, so it is node `j / 2`'s pooled value in view `j % 2`. -/
private theorem feat_apply (hIn : Cert.Spec.InBlock x1) (g : Fin 256) (j : Fin 232) :
    val_main_v129 (F := Ideal) x0 x1 x2 x4 x5 x6 x7 (ix2 g j) = Cert.Spec.feat x0 x1 x2 x4 x5 x6 x7 g j := by
  have hg := g.isLt
  have hj := j.isLt
  rw [val_main_v129_apply]
  unfold Cert.Spec.feat
  by_cases h : j.val % 2 = 0
  · rw [if_pos h]
    have e : idx_main_v129 (ix2 g j) = ix2 (gnode g ⟨j.val / 2, by omega⟩) (0 : Fin 2) :=
      funext fun a => Fin.ext (by
        match a with
        | ⟨0, _⟩ => show (g.val * 232 + j.val) / 2 = 116 * g.val + j.val / 2; omega
        | ⟨1, _⟩ => show (g.val * 232 + j.val) % 2 = 0; omega)
    rw [e, stack_col0, poolFc_apply x0 x1 x2 x4 x5 hIn]
  · rw [if_neg h]
    have e : idx_main_v129 (ix2 g j) = ix2 (gnode g ⟨j.val / 2, by omega⟩) (1 : Fin 2) :=
      funext fun a => Fin.ext (by
        match a with
        | ⟨0, _⟩ => show (g.val * 232 + j.val) / 2 = 116 * g.val + j.val / 2; omega
        | ⟨1, _⟩ => show (g.val * 232 + j.val) % 2 = 1; omega)
    rw [e, stack_col1, poolSc_apply x0 x1 x2 x6 x7 hIn]

/-- The hidden layer: the features times `W6`, plus `b6`, cut below at zero. -/
private theorem hid_apply (hIn : Cert.Spec.InBlock x1) (g : Fin 256) (k : Fin 512) :
    val_main_v134 (F := Ideal) x0 x1 x2 x4 x5 x6 x7 x8 x9 (ix2 g k) = Cert.Spec.hid x0 x1 x2 x4 x5 x6 x7 x8 x9 g k := by
  rw [val_main_v134_apply, val_main_v133_apply, val_main_v130_apply, val_main_v132_apply, val_main_v131_apply,
    val_main_call0_v0_apply, val_main_call0_cst_apply]
  simp only [Ideal.maximumf_def, Ideal.addf_def, Ideal.ofBits_def, Ideal.ofBits_zero_f32]
  unfold Cert.Spec.hid
  congr 2
  · refine Finset.sum_congr rfl fun j _ => ?_
    have el : lidx_main_v130 (ix2 g k) j = ix2 g j :=
      funext fun a => Fin.ext (by match a with | ⟨0, _⟩ => rfl | ⟨1, _⟩ => rfl)
    have er : ridx_main_v130 (ix2 g k) j = ix2 j k :=
      funext fun a => Fin.ext (by match a with | ⟨0, _⟩ => rfl | ⟨1, _⟩ => rfl)
    rw [el, er, feat_apply x0 x1 x2 x4 x5 x6 x7 hIn]
  · exact congrArg x9 (funext fun a => match a with | ⟨0, _⟩ => rfl)

end

theorem result_eq (x0 : Cert.Spec.SX.Idx → EReal) (x1 : Cert.Spec.SEI.Idx → BitVec 32) (x2 : Cert.Spec.SEW.Idx → EReal)
    (x4 : Cert.Spec.SW.Idx → EReal) (x5 : Cert.Spec.Sb.Idx → EReal) (x6 : Cert.Spec.SW.Idx → EReal) (x7 : Cert.Spec.Sb.Idx → EReal)
    (x8 : Cert.Spec.SW6.Idx → EReal) (x9 : Cert.Spec.Sb6.Idx → EReal) (x10 : Cert.Spec.SW7.Idx → EReal) (x11 : Cert.Spec.Sb7.Idx → EReal)
    (hIn : Cert.Spec.InBlock x1) :
    val_main_v138 (F := Ideal) x0 x1 x2 x4 x5 x6 x7 x8 x9 x10 x11 = Cert.Spec.result x0 x1 x2 x4 x5 x6 x7 x8 x9 x10 x11 := by
  funext i
  obtain ⟨g, q, rfl⟩ : ∃ (g : Fin 256) (q : Fin 1), i = ix2 g q := ⟨i 0, i 1, eq_ix2 i⟩
  obtain rfl : q = 0 := Subsingleton.elim _ _
  rw [val_main_v138_apply, val_main_v135_apply, val_main_v137_apply, val_main_v136_apply]
  simp only [Ideal.addf_def]
  unfold Cert.Spec.result Cert.Spec.res
  congr 1
  · refine Finset.sum_congr rfl fun k _ => ?_
    have el : lidx_main_v135 (ix2 g (0 : Fin 1)) k = ix2 g k :=
      funext fun a => Fin.ext (by match a with | ⟨0, _⟩ => rfl | ⟨1, _⟩ => rfl)
    have er : ridx_main_v135 (ix2 g (0 : Fin 1)) k = ix2 k (0 : Fin 1) :=
      funext fun a => Fin.ext (by match a with | ⟨0, _⟩ => rfl | ⟨1, _⟩ => rfl)
    rw [el, er, hid_apply x0 x1 x2 x4 x5 x6 x7 x8 x9 hIn]
  · exact congrArg x11 (funext fun a => match a with | ⟨0, _⟩ => rfl)

end Cert.ReferenceIdeal.RV

end
-- ==== Proof.RefValue.lean ====
/-
  The reference program's run with its result named: the specification's result array, when every edge lies in its
  own graph's block; and its frame.
-/
import proofs.«409833_j29446295781426_1_alg».proof.Proof.RefRunEq
import proofs.«409833_j29446295781426_1_alg».proof.Proof.RefTail

noncomputable section

open scoped BigOperators

namespace Cert.ReferenceIdeal.RV

open Idealize.ShloMosaic Idealize.ShloMosaic.TcCoe Idealize.ShloMosaic.ValueIdx Idealize.SL.Sem Cert.ReferenceIdeal Cert.ReferenceIdeal.ReadP

variable (m : (ℓ : Loc nD τ sig) → Buf (Elt Ideal) ℓ) (ρ : Dev nD → PrngReg)

/-- The reference's run: the result buffer at the specification's result of the argument arrays, the arguments
    unchanged. -/
theorem run_spec (hIn : ∀ c : Dev nD, Cert.Spec.InBlock (m ((c.tc : Thread nD τ).loc main_arg1))) :
    θ_run defs (onTc (τ := τ) (main (F := Ideal))) ⟨m, fun _ => 0, ρ⟩ (fun r => ∀ c : Dev nD,
      r.2.mem ((c.tc : Thread nD τ).loc main_v138)
        = Cert.Spec.result (m ((c.tc : Thread nD τ).loc main_arg0)) (m ((c.tc : Thread nD τ).loc main_arg1))
            (m ((c.tc : Thread nD τ).loc main_arg2)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono
    (fun r h c => ⟨(h c).1.trans ((res_eq (F := Ideal) m c).trans (result_eq _ _ _ _ _ _ _ _ _ _ _ (hIn c))), (h c).2⟩)
    (Cert.ReferenceIdeal.ValueP.run (F := Ideal) m ρ)

/-- The reference's frame: its run with the result dropped. -/
theorem frame :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (Cert.ReferenceIdeal.ValueP.run (F := Ideal) m ρ)

end Cert.ReferenceIdeal.RV

end
-- ==== Proof.PreDecode.lean ====
/-
  What the precondition says of the argument arrays: every float entry is a real number; every edge of a graph's view
  joins two nodes of that graph's own view; and the degree of every node, one plus the weights of the edges that end
  there, is positive.
-/
import proofs.«409833_j29446295781426_1_alg».proof.Pre_finite_inputs
import proofs.«409833_j29446295781426_1_alg».proof.Proof.Spec
import proofs.«409833_j29446295781426_1_alg».proof.Proof.LibIndexing
import proofs.«409833_j29446295781426_1_alg».proof.Proof.SegSum
import Idealize.ShloMosaic.Lib.ReduceAll
import Idealize.ShloMosaic.Lib.StableHlo.Predicate
import Idealize.ShloMosaic.Lib.Pipeline.Value
import Idealize.ShloMosaic.PureOps.Ideal.Laws

noncomputable section

open scoped BigOperators

namespace Cert.PreDecode

open Idealize.ShloMosaic Idealize.ShloMosaic.ValueIdx Cert.Pre_finite_inputs

/-! ## Every entry of a tested array is a real number -/

/-- A reduction by `and` to the one-index shape that came out 1 met a 1 at every index. -/
private theorem all_ones {S : Shape} {axes : List (Fin S.rank)} (x : IVec S 1) (init : IVec S_ 1)
    (hr : S.ReducesTo axes S_) (h0 : 0 < S_.numel) (h : Host.reduce IntOp.andi x init hr h0 ix0 = 1#1) (i : S.Idx) :
    x i = 1#1 :=
  haveI : Subsingleton S_.Idx := ⟨fun a b => funext fun d => d.elim0⟩
  Host.reduce_andi_all x init hr h0 ix0 h i

/-- On the extended reals `max x (-x) < +∞` says `x` is a real number. -/
private theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := of_decide_eq_true ((StableHlo.Predicate.ofBool_eq_one_iff _).1 h)
  induction x using EReal.rec with
  | bot => simp at hlt
  | coe r => exact ⟨r, rfl⟩
  | top => simp at hlt

/-- An array whose `|x| < +∞` test is all ones holds real numbers only. -/
private theorem finite_of_test {S : Shape} {axes : List (Fin S.rank)} (x : FVec Ideal S .f32)
    (hb : S_.BroadcastsInDim S (![] : Fin 0 → Fin S.rank)) (hr : S.ReducesTo axes S_) (h0 : 0 < S_.numel)
    (h : Host.reduce IntOp.andi
        (cmpf .olt (Host.absf x) (broadcastInDim S ![] hb (constant (F := Ideal) S_ .f32 0x7F800000#32)))
        (constantI S_ 1 1#1) hr h0 ix0 = 1#1) : Cert.Spec.Finite x := fun i =>
  real_of_abs_lt_top (x i) (all_ones _ _ hr h0 h i)

/-! ## The bound words at an index -/

section Words
variable (hb0 : S_.BroadcastsInDim S256 (![] : Fin 0 → Fin S256.rank))
  (hb1 : S256.BroadcastsInDim S1x256x1 (![1] : Fin 1 → Fin S1x256x1.rank))
  (hbs : S_.BroadcastsInDim S1x256x1 (![] : Fin 0 → Fin S1x256x1.rank))
  (hb2 : S1x256x1.BroadcastsInDim S2x256x6670 (![0, 1, 2] : Fin 3 → Fin S2x256x6670.rank))

/-- The word `232 · g`, laid along the graphs' axis, at entry `(r, g, e)`. -/
private theorem lo_read (r : Fin 2) (g : Fin 256) (e : Fin 6670) :
    broadcastInDim S2x256x6670 ![0, 1, 2] hb2 (broadcastInDim S1x256x1 ![1] hb1
      (muli (broadcastInDim S256 ![] hb0 (constantI S_ 32 232#32)) (iotaInDim S256 32 0))) (ix3 r g e)
      = IntOp.muli 232#32 (BitVec.ofNat 32 g.val) := rfl

/-- The word `232 · g + c` at entry `(r, g, e)`. -/
private theorem hi_read (c : BitVec 32) (r : Fin 2) (g : Fin 256) (e : Fin 6670) :
    broadcastInDim S2x256x6670 ![0, 1, 2] hb2 (addi (broadcastInDim S1x256x1 ![1] hb1
      (muli (broadcastInDim S256 ![] hb0 (constantI S_ 32 232#32)) (iotaInDim S256 32 0)))
      (broadcastInDim S1x256x1 ![] hbs (constantI S_ 32 c))) (ix3 r g e)
      = IntOp.addi (IntOp.muli 232#32 (BitVec.ofNat 32 g.val)) c := rfl

/-- The word `116 · g` at entry `(r, g, e)`. -/
private theorem off1_read (r : Fin 2) (g : Fin 256) (e : Fin 6670) :
    broadcastInDim S2x256x6670 ![0, 1, 2] hb2 (muli (broadcastInDim S1x256x1 ![] hbs (constantI S_ 32 116#32))
      (broadcastInDim S1x256x1 ![1] hb1 (iotaInDim S256 32 0))) (ix3 r g e)
      = IntOp.muli 116#32 (BitVec.ofNat 32 g.val) := rfl

/-- The word `116 · (g + 1)` at entry `(r, g, e)`. -/
private theorem off2_read (r : Fin 2) (g : Fin 256) (e : Fin 6670) :
    broadcastInDim S2x256x6670 ![0, 1, 2] hb2 (muli (broadcastInDim S1x256x1 ![] hbs (constantI S_ 32 116#32))
      (broadcastInDim S1x256x1 ![1] hb1 (addi (iotaInDim S256 32 0) (broadcastInDim S256 ![] hb0 (constantI S_ 32 1#32)))))
      (ix3 r g e)
      = IntOp.muli 116#32 (IntOp.addi (BitVec.ofNat 32 g.val) 1#32) := rfl

end Words

/-! ## The bound words read signed -/

private theorem bmod32 {n : Int} (h₁ : -2 ^ 31 ≤ n) (h₂ : n < 2 ^ 31) : n.bmod (2 ^ 32) = n :=
  Int.bmod_eq_of_le (by omega) (by omega)

/-- A product of two small words does not wrap. -/
private theorem toInt_muli_small (c k : Nat) (hc : c ≤ 232) (hk : k ≤ 256) :
    (IntOp.muli (BitVec.ofNat 32 c) (BitVec.ofNat 32 k)).toInt = ((c * k : Nat) : Int) := by
  have h1 : (BitVec.ofNat 32 c).toInt = c := StableHlo.Predicate.toInt_ofNat_small c (by omega)
  have h2 : (BitVec.ofNat 32 k).toInt = k := StableHlo.Predicate.toInt_ofNat_small k (by omega)
  have hck : c * k ≤ 232 * 256 := Nat.mul_le_mul hc hk
  show (BitVec.ofNat 32 c * BitVec.ofNat 32 k).toInt = _
  rw [BitVec.toInt_mul, h1, h2, ← Nat.cast_mul]
  exact bmod32 (by omega) (by omega)

/-- A small word plus a small literal does not wrap. -/
private theorem toInt_addi_small (x : BitVec 32) (m c : Nat) (hx : x.toInt = (m : Int)) (hm : m ≤ 2 ^ 20) (hc : c ≤ 2 ^ 20) :
    (IntOp.addi x (BitVec.ofNat 32 c)).toInt = ((m + c : Nat) : Int) := by
  have h2 : (BitVec.ofNat 32 c).toInt = c := StableHlo.Predicate.toInt_ofNat_small c (by omega)
  show (x + BitVec.ofNat 32 c).toInt = _
  rw [BitVec.toInt_add, hx, h2, ← Nat.cast_add]
  exact bmod32 (by omega) (by omega)

/-- A difference of words that stays in range does not wrap. -/
private theorem toInt_subi_small (x y : BitVec 32) (h₁ : -2 ^ 31 ≤ x.toInt - y.toInt) (h₂ : x.toInt - y.toInt < 2 ^ 31) :
    (IntOp.subi x y).toInt = x.toInt - y.toInt := by
  show (x - y).toInt = _
  rw [BitVec.toInt_sub]
  exact bmod32 h₁ h₂

private theorem toInt_lo (g : Fin 256) : (IntOp.muli 232#32 (BitVec.ofNat 32 g.val)).toInt = 232 * (g.val : Int) := by
  rw [toInt_muli_small 232 g.val (by omega) (by omega)]; push_cast; ring

private theorem toInt_hi (g : Fin 256) (c : Nat) (hc : c ≤ 232) :
    (IntOp.addi (IntOp.muli 232#32 (BitVec.ofNat 32 g.val)) (BitVec.ofNat 32 c)).toInt = 232 * (g.val : Int) + c := by
  rw [toInt_addi_small _ (232 * g.val) c (toInt_muli_small 232 g.val (by omega) (by omega)) (by omega) (by omega)]
  push_cast; ring

private theorem toInt_off1 (g : Fin 256) : (IntOp.muli 116#32 (BitVec.ofNat 32 g.val)).toInt = 116 * (g.val : Int) := by
  rw [toInt_muli_small 116 g.val (by omega) (by omega)]; push_cast; ring

private theorem toInt_off2 (g : Fin 256) :
    (IntOp.muli 116#32 (IntOp.addi (BitVec.ofNat 32 g.val) 1#32)).toInt = 116 * (g.val : Int) + 116 := by
  have : IntOp.addi (BitVec.ofNat 32 g.val) 1#32 = BitVec.ofNat 32 (g.val + 1) := (BitVec.ofNat_add _ _).symm
  rw [this, toInt_muli_small 116 (g.val + 1) (by omega) (by omega)]; push_cast; ring

/-! ## The reshaped edge table and weights at an index -/

/-- The view's slice of the edge table reshaped per graph: entry `(r, g, e)` is row `r`, column `13456 g + off + e`. -/
private theorem ei_read (a1 : IVec S2x3444736 32) (hc : S2x3444736.ShapeCasts S2x256x13456)
    (off : Nat) (hoff : off + 6670 ≤ 13456) (hs : S2x256x13456.Slices ![0, 0, off] S2x256x6670)
    (r : Fin 2) (g : Fin 256) (e : Fin 6670) :
    extractStridedSlice S2x256x6670 ![0, 0, off] (shapeCast S2x256x13456 a1 hc) hs (ix3 r g e)
      = a1 (ix2 r ⟨13456 * g.val + off + e.val, by have := g.isLt; have := e.isLt; omega⟩) := by
  have hg := g.isLt; have he := e.isLt; have hr := r.isLt
  refine (extractStridedSlice_apply _ _ hs (ix3 r g e) (ix3 r g ⟨off + e.val, by omega⟩) ?_).trans ?_
  · intro a
    match a with
    | ⟨0, _⟩ => show r.val = 0 + r.val; omega
    | ⟨1, _⟩ => show g.val = 0 + g.val; omega
    | ⟨2, _⟩ => rfl
  · refine shapeCast_apply _ hc _ _ ?_
    rw [Shape.rowMajor_val_two, Shape.rowMajor_val_three]
    show r.val * 3444736 + (13456 * g.val + off + e.val) = (r.val * 256 + g.val) * 13456 + (off + e.val)
    omega

/-- The view's slice of the weights reshaped per graph and flattened: entry `6670 g + e` is weight `13456 g + off + e`. -/
private theorem ew_read (a2 : FVec Ideal S3444736 .f32) (hc : S3444736.ShapeCasts S256x13456)
    (off : Nat) (hoff : off + 6670 ≤ 13456) (hs : S256x13456.Slices ![0, off] S256x6670)
    (hc2 : S256x6670.ShapeCasts S1707520) (g : Fin 256) (e : Fin 6670) :
    shapeCast S1707520 (extractStridedSlice S256x6670 ![0, off] (shapeCast S256x13456 a2 hc) hs) hc2 (ix1 (Cert.SegSum.flat g e))
      = a2 (ix1 ⟨13456 * g.val + off + e.val, by have := g.isLt; have := e.isLt; omega⟩) := by
  have hg := g.isLt; have he := e.isLt
  refine (shapeCast_apply _ hc2 _ (ix2 g e) ?_).trans ?_
  · rw [Shape.rowMajor_val_two, Shape.rowMajor_val_one]
    show g.val * 6670 + e.val = g.val * 6670 + e.val
    rfl
  refine (extractStridedSlice_apply _ _ hs (ix2 g e) (ix2 g ⟨off + e.val, by omega⟩) ?_).trans ?_
  · intro a
    match a with
    | ⟨0, _⟩ => show g.val = 0 + g.val; omega
    | ⟨1, _⟩ => rfl
  · refine shapeCast_apply _ hc _ _ ?_
    rw [Shape.rowMajor_val_one, Shape.rowMajor_val_two]
    show 13456 * g.val + off + e.val = g.val * 13456 + (off + e.val)
    omega

/-- Row 1 of the per-graph destinations flattened to one column: entry `6670 g + e` is entry `(1, g, e)`. -/
private theorem dst_read (D : IVec S2x256x6670 32) (hc1 : S2x256x6670.ShapeCasts S2x1707520)
    (hs : S2x1707520.Slices ![1, 0] S1x1707520) (hc2 : S1x1707520.ShapeCasts S1707520)
    (hb : S1707520.BroadcastsInDim S1707520x1 (![0] : Fin 1 → Fin S1707520x1.rank)) (g : Fin 256) (e : Fin 6670) :
    broadcastInDim S1707520x1 ![0] hb
        (shapeCast S1707520 (extractStridedSlice S1x1707520 ![1, 0] (shapeCast S2x1707520 D hc1) hs) hc2)
        (ix2 (Cert.SegSum.flat g e) 0)
      = D (ix3 1 g e) := by
  have hg := g.isLt; have he := e.isLt
  refine (broadcastInDim_apply _ hb _ _ (ix1 (Cert.SegSum.flat g e)) ?_).trans ?_
  · intro a
    match a with
    | ⟨0, _⟩ => rfl
  refine (shapeCast_apply _ hc2 _ (ix2 0 (Cert.SegSum.flat g e)) ?_).trans ?_
  · rw [Shape.rowMajor_val_two, Shape.rowMajor_val_one]
    show 0 * 1707520 + (g.val * 6670 + e.val) = g.val * 6670 + e.val
    omega
  refine (extractStridedSlice_apply _ _ hs _ (ix2 1 (Cert.SegSum.flat g e)) ?_).trans ?_
  · intro a
    match a with
    | ⟨0, _⟩ => rfl
    | ⟨1, _⟩ => show g.val * 6670 + e.val = 0 + (g.val * 6670 + e.val); omega
  · refine shapeCast_apply _ hc1 _ _ ?_
    rw [Shape.rowMajor_val_three, Shape.rowMajor_val_two]
    show (1 * 256 + g.val) * 6670 + e.val = 1 * 1707520 + (g.val * 6670 + e.val)
    omega

/-! ## The block tests -/

/-- A pair of signed comparisons under `all`: at every index the word lies between its bounds. -/
private theorem between_of_test {A LO HI : IVec S2x256x6670 32} {axes : List (Fin S2x256x6670.rank)}
    (hr : S2x256x6670.ReducesTo axes S_) (h0 : 0 < S_.numel)
    (h : Host.reduce IntOp.andi (andi (cmpi .sge A LO) (cmpi .slt A HI)) (constantI S_ 1 1#1) hr h0 ix0 = 1#1)
    (i : S2x256x6670.Idx) : (LO i).toInt ≤ (A i).toInt ∧ (A i).toInt < (HI i).toInt := by
  obtain ⟨h1, h2⟩ := IntOp.andi_eq_one.1 (all_ones _ _ hr h0 h i)
  exact ⟨IntOp.cmpi_sge.1 h1, IntOp.cmpi_slt.1 h2⟩

/-- The specification's edge column. -/
private theorem ecol_eq (v : Fin 2) (g : Fin 256) (e : Fin 6670) (off : Nat) (hoff : off = 6670 * v.val)
    (hlt : 13456 * g.val + off + e.val < 3444736) :
    (⟨13456 * g.val + off + e.val, hlt⟩ : Fin 3444736) = Cert.Spec.ecol v g e := Fin.ext (by subst hoff; rfl)

/-! ## The degree tests -/

private theorem ofBits_one : Ideal.ofBits .f32 0x3F800000#32 = 1 := by
  simp [Ideal.ofBits, Ideal.ieee, -EReal.coe_mul]; norm_num

/-- On the extended reals the comparison `x > y` that came out 1 says `y < x`. -/
private theorem lt_of_ogt (x y : EReal) (h : Ideal.cmp .ogt x y = 1#1) : y < x :=
  of_decide_eq_true ((StableHlo.Predicate.ofBool_eq_one_iff _).1 h)

/-- A vector whose `x + 1 > 0` test is all ones has `0 < x + 1` at every entry. -/
private theorem pos_of_test (sc : FVec Ideal S29696 .f32)
    (hb : S_.BroadcastsInDim S29696 (![] : Fin 0 → Fin S29696.rank)) {axes : List (Fin S29696.rank)}
    (hr : S29696.ReducesTo axes S_) (h0 : 0 < S_.numel)
    (h : Host.reduce IntOp.andi
        (cmpf .ogt
          (addf sc (broadcastInDim S29696 ![] hb (constant (F := Ideal) S_ .f32 0x3F800000#32)))
          (broadcastInDim S29696 ![] hb (constant (F := Ideal) S_ .f32 0x00000000#32)))
        (constantI S_ 1 1#1) hr h0 ix0 = 1#1) (N : Fin 29696) : 0 < sc (ix1 N) + 1 := by
  have h1 : Ideal.ofBits .f32 0x00000000#32 < sc (ix1 N) + Ideal.ofBits .f32 0x3F800000#32 :=
    lt_of_ogt _ _ (all_ones _ _ hr h0 h (ix1 N))
  rwa [Ideal.ofBits_zero_f32, ofBits_one] at h1

section Degree
variable [Cert.Pre_finite_inputs.Facts]

/-- The scatter-add into zeros read at a node: the sum of the updates sent there. -/
private theorem scatter_read (idx : IVec S1707520x1 32) (upd : FVec Ideal S1707520 .f32)
    (hb : S_.BroadcastsInDim S29696 (![] : Fin 0 → Fin S29696.rank)) (N : Fin 29696) :
    Host.scatterAdd scatter_S29696_S1707520x1_S1707520_n_0_0_1
        (broadcastInDim S29696 ![] hb (constant (F := Ideal) S_ .f32 0x00000000#32)) idx upd (ix1 N)
      = ∑ E ∈ Finset.univ.filter (fun E : Fin 1707520 => (idx (ix2 E 0)).toInt = (N.val : Int)), upd (ix1 E) := by
  have hd : scatter_S29696_S1707520x1_S1707520_n_0_0_1
      = Cert.LibIndexing.vecScatterDims 29696 1707520 Facts.scatter_S29696_S1707520x1_S1707520_n_0_0_1_wf := rfl
  rw [hd, Cert.LibIndexing.scatterAdd_vec_apply]
  show Ideal.ofBits .f32 0x00000000#32 + _ = _
  rw [Ideal.ofBits_zero_f32, zero_add]

/-- One view's degree test gives the positivity of that view's degrees. -/
private theorem degPos_of_test (EI : Cert.Spec.SEI.Idx → BitVec 32) (EW : Cert.Spec.SEW.Idx → EReal) (v : Fin 2)
    (idx : IVec S1707520x1 32) (upd : FVec Ideal S1707520 .f32)
    (hb : S_.BroadcastsInDim S29696 (![] : Fin 0 → Fin S29696.rank)) {axes : List (Fin S29696.rank)}
    (hr : S29696.ReducesTo axes S_) (h0 : 0 < S_.numel)
    (hin : Cert.Spec.InBlock EI)
    (hidx : ∀ g e, (idx (ix2 (Cert.SegSum.flat g e) 0)).toInt
      = (Cert.Spec.dstW EI v g e).toInt - 116 * (g.val : Int) - 116 * (v.val : Int))
    (hupd : ∀ g e, upd (ix1 (Cert.SegSum.flat g e)) = Cert.Spec.wgt EW v g e)
    (h : Host.reduce IntOp.andi
        (cmpf .ogt
          (addf (Host.scatterAdd scatter_S29696_S1707520x1_S1707520_n_0_0_1
              (broadcastInDim S29696 ![] hb (constant (F := Ideal) S_ .f32 0x00000000#32)) idx upd)
            (broadcastInDim S29696 ![] hb (constant (F := Ideal) S_ .f32 0x3F800000#32)))
          (broadcastInDim S29696 ![] hb (constant (F := Ideal) S_ .f32 0x00000000#32)))
        (constantI S_ 1 1#1) hr h0 ix0 = 1#1)
    (g : Fin 256) (n : Fin 116) : 0 < Cert.Spec.deg EI EW v g n := by
  have hg := g.isLt; have hn := n.isLt; have hv := v.isLt
  have hN : 116 * g.val + n.val < 29696 := by omega
  have h2 := pos_of_test _ hb hr h0 h ⟨116 * g.val + n.val, hN⟩
  have hd : ∀ (g : Fin 256) (e : Fin 6670),
      116 * (g.val : Int) ≤ (idx (ix2 (Cert.SegSum.flat g e) 0)).toInt
        ∧ (idx (ix2 (Cert.SegSum.flat g e) 0)).toInt < 116 * (g.val : Int) + 116 := by
    intro g e
    have := (hin v g e).2
    unfold Cert.Spec.base at this
    rw [hidx]
    omega
  rw [scatter_read] at h2
  have h3 := Cert.SegSum.sum_filter_global_eq_local (fun E => upd (ix1 E)) (fun E => (idx (ix2 E 0)).toInt) hd g n
  rw [show (((⟨116 * g.val + n.val, hN⟩ : Fin 29696).val : Nat) : Int) = ((116 * g.val + n.val : Nat) : Int) from rfl, h3] at h2
  have key : (∑ e ∈ Finset.univ.filter (fun e : Fin 6670 => Cert.Spec.ldst EI v g e = n), Cert.Spec.wgt EW v g e)
      = ∑ e ∈ Finset.univ.filter (fun e : Fin 6670 =>
          (idx (ix2 (Cert.SegSum.flat g e) 0)).toInt = ((116 * g.val + n.val : Nat) : Int)), upd (ix1 (Cert.SegSum.flat g e)) := by
    refine Finset.sum_congr (Finset.filter_congr fun e _ => ?_) (fun e _ => (hupd g e).symm)
    have := (hin v g e).2
    unfold Cert.Spec.base at this
    rw [hidx, Fin.ext_iff]
    show ((Cert.Spec.dstW EI v g e).toInt - Cert.Spec.base v g).toNat % 116 = n.val ↔ _
    unfold Cert.Spec.base
    push_cast
    omega
  unfold Cert.Spec.deg
  rw [key]
  exact h2

end Degree

private theorem subi_apply {s : Shape} {w : Nat} (x y : IVec s w) (i : s.Idx) : subi x y i = IntOp.subi (x i) (y i) := rfl

/-! ## The precondition decoded -/

/-- The printed precondition, all ones at the ideal values, gives the specification's hypotheses. -/
theorem good_of_fn [Cert.Pre_finite_inputs.Facts]
    (a0 : FVec Ideal S59392x115 .f32) (a1 : IVec S2x3444736 32) (a2 : FVec Ideal S3444736 .f32) (a3 : IVec S59392 32)
    (a4 : FVec Ideal S115x128 .f32) (a5 : FVec Ideal S128 .f32) (a6 : FVec Ideal S115x128 .f32) (a7 : FVec Ideal S128 .f32)
    (a8 : FVec Ideal S232x512 .f32) (a9 : FVec Ideal S512 .f32) (a10 : FVec Ideal S512x1 .f32) (a11 : FVec Ideal S1 .f32)
    (h : Cert.Pre_finite_inputs.fn (F := Ideal) a0 a1 a2 a3 a4 a5 a6 a7 a8 a9 a10 a11 = (fun _ => 1#1)) :
    Cert.Spec.Good a0 a1 a2 a4 a5 a6 a7 a8 a9 a10 a11 := by
  -- the conjunction, test by test
  have h := congrFun h ix0
  dsimp only [fn, fn_part1, fn_part2, fn_part3, fn_part4, fn_part5, fn_part6] at h
  obtain ⟨h75, h119⟩ := IntOp.andi_eq_one.1 h
  obtain ⟨h48, h74⟩ := IntOp.andi_eq_one.1 h75
  obtain ⟨h63, h73⟩ := IntOp.andi_eq_one.1 h74
  obtain ⟨h115, h118⟩ := IntOp.andi_eq_one.1 h119
  obtain ⟨h43, h47⟩ := IntOp.andi_eq_one.1 h48
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  clear h h75 h119 h48 h74 h43 h38 h33 h28 h23 h18 h13 h8
  -- the first view's edges lie in `[232 g, 232 g + 116)`
  have b0 : ∀ (r : Fin 2) (g : Fin 256) (e : Fin 6670),
      232 * (g.val : Int) ≤ (a1 (ix2 r (Cert.Spec.ecol 0 g e))).toInt
        ∧ (a1 (ix2 r (Cert.Spec.ecol 0 g e))).toInt < 232 * (g.val : Int) + 116 := by
    intro r g e
    have := between_of_test _ _ h63 (ix3 r g e)
    rw [ei_read a1 _ 0 (by norm_num) _ r g e, lo_read, hi_read, toInt_lo, toInt_hi g 116 (by norm_num),
      ecol_eq 0 g e 0 rfl] at this
    exact_mod_cast this
  -- the second view's in `[232 g + 116, 232 g + 232)`
  have b1 : ∀ (r : Fin 2) (g : Fin 256) (e : Fin 6670),
      232 * (g.val : Int) + 116 ≤ (a1 (ix2 r (Cert.Spec.ecol 1 g e))).toInt
        ∧ (a1 (ix2 r (Cert.Spec.ecol 1 g e))).toInt < 232 * (g.val : Int) + 232 := by
    intro r g e
    have := between_of_test _ _ h73 (ix3 r g e)
    rw [ei_read a1 _ 6670 (by norm_num) _ r g e, hi_read, hi_read, toInt_hi g 116 (by norm_num),
      toInt_hi g 232 (by norm_num), ecol_eq 1 g e 6670 rfl] at this
    exact_mod_cast this
  have hin : Cert.Spec.InBlock a1 := by
    unfold Cert.Spec.InBlock
    rw [Fin.forall_fin_two]
    refine ⟨fun g e => ?_, fun g e => ?_⟩
    · have s := b0 0 g e
      have d := b0 1 g e
      simp only [Cert.Spec.base, Cert.Spec.srcW, Cert.Spec.dstW, Fin.val_zero, Fin.val_one, Nat.cast_zero, Nat.cast_one]
      refine ⟨⟨?_, ?_⟩, ⟨?_, ?_⟩⟩ <;> omega
    · have s := b1 0 g e
      have d := b1 1 g e
      simp only [Cert.Spec.base, Cert.Spec.srcW, Cert.Spec.dstW, Fin.val_zero, Fin.val_one, Nat.cast_zero, Nat.cast_one]
      refine ⟨⟨?_, ?_⟩, ⟨?_, ?_⟩⟩ <;> omega
  -- the degrees
  have d0 : ∀ (g : Fin 256) (n : Fin 116), 0 < Cert.Spec.deg a1 a2 0 g n := by
    refine degPos_of_test a1 a2 0 _ _ _ _ _ hin (fun g e => ?_) (fun g e => ?_) h115
    · have hb := b0 1 g e
      have ho := toInt_off1 g
      rw [dst_read, subi_apply, ei_read a1 _ 0 (by norm_num) _ 1 g e, off1_read, ecol_eq 0 g e 0 rfl,
        toInt_subi_small _ _ (by rw [ho]; omega) (by rw [ho]; omega), ho]
      simp only [Cert.Spec.dstW, Fin.val_zero, Nat.cast_zero]
      omega
    · rw [ew_read a2 _ 0 (by norm_num) _ _ g e, ecol_eq 0 g e 0 rfl]
      rfl
  have d1 : ∀ (g : Fin 256) (n : Fin 116), 0 < Cert.Spec.deg a1 a2 1 g n := by
    refine degPos_of_test a1 a2 1 _ _ _ _ _ hin (fun g e => ?_) (fun g e => ?_) h118
    · have hb := b1 1 g e
      have ho := toInt_off2 g
      rw [dst_read, subi_apply, ei_read a1 _ 6670 (by norm_num) _ 1 g e, off2_read, ecol_eq 1 g e 6670 rfl,
        toInt_subi_small _ _ (by rw [ho]; omega) (by rw [ho]; omega), ho]
      simp only [Cert.Spec.dstW, Fin.val_one, Nat.cast_one]
      omega
    · rw [ew_read a2 _ 6670 (by norm_num) _ _ g e, ecol_eq 1 g e 6670 rfl]
      rfl
  exact
    { fX := finite_of_test a0 _ _ _ h3
      fEW := finite_of_test a2 _ _ _ h7
      fW1 := finite_of_test a4 _ _ _ h12
      fb1 := finite_of_test a5 _ _ _ h17
      fW2 := finite_of_test a6 _ _ _ h22
      fb2 := finite_of_test a7 _ _ _ h27
      fW6 := finite_of_test a8 _ _ _ h32
      fb6 := finite_of_test a9 _ _ _ h37
      fW7 := finite_of_test a10 _ _ _ h42
      fb7 := finite_of_test a11 _ _ _ h47
      inBlock := hin
      degPos := by
        rw [Fin.forall_fin_two]
        exact ⟨d0, d1⟩ }

end Cert.PreDecode

end
-- ==== Proof.lean ====
/-
  A graph network over 256 graphs of two views, 116 nodes a view: per view a normalised graph convolution
  (degree = 1 + the weights of the edges ending at a node; messages `h (src) · dinv (src) · w · dinv (dst)` summed at the
  destination, plus the self-loop `dinv² · h`, plus a bias), the maximum over the 128 channels, the two views' node
  values interleaved into 232 features a graph, then `relu (· W6 + b6) · W7 + b7`.

  The reference scatters over all edges of all graphs at once. The kernel works graph by graph on zero-padded
  blocks and never scatters: it builds the weighted adjacency matrix of a graph from indicator rows of the edges'
  local endpoints and multiplies. Over the extended reals the two agree when the float inputs are finite, every edge
  joins two nodes of its own graph's own view (the kernel's indicator rows see no other node), and every degree is
  positive (so that `deg ^ (-1/2)` is a real number and the sums can be regrouped): the precondition states exactly
  these. Both results are the specification's `Spec.result` of the argument arrays (Proof/Spec.lean): the kernel's by
  Proof/KernelValue.lean, the reference's by Proof/RefValue.lean; Proof/PreDecode.lean reads the precondition.
  Changes of float format are the identity over the extended reals and the ideal pass rewrote nothing, so
  `preserves` has no conjunct.
-/
import proofs.«409833_j29446295781426_1_alg».proof.Defs
import proofs.«409833_j29446295781426_1_alg».proof.Proof.Gen.Kernel
import proofs.«409833_j29446295781426_1_alg».proof.Proof.Gen.Kernel.Skeleton
import proofs.«409833_j29446295781426_1_alg».proof.Proof.Gen.Kernel.Launch
import proofs.«409833_j29446295781426_1_alg».proof.Proof.Gen.Kernel.Points
import proofs.«409833_j29446295781426_1_alg».proof.Proof.Gen.Kernel.Frame
import proofs.«409833_j29446295781426_1_alg».proof.Proof.Gen.KernelIdeal
import proofs.«409833_j29446295781426_1_alg».proof.Proof.Gen.KernelIdeal.Skeleton
import proofs.«409833_j29446295781426_1_alg».proof.Proof.Gen.KernelIdeal.Launch
import proofs.«409833_j29446295781426_1_alg».proof.Proof.Gen.KernelIdeal.Points
import proofs.«409833_j29446295781426_1_alg».proof.Proof.Gen.KernelIdeal.Frame
import proofs.«409833_j29446295781426_1_alg».proof.Proof.Gen.ReferenceIdeal
import proofs.«409833_j29446295781426_1_alg».proof.Proof.Gen.Pre_finite_inputs
import proofs.«409833_j29446295781426_1_alg».proof.Proof.KernelValue
import proofs.«409833_j29446295781426_1_alg».proof.Proof.RefValue
import proofs.«409833_j29446295781426_1_alg».proof.Proof.PreDecode
import Idealize.ShloMosaic.Adequacy
import Idealize.ShloMosaic.Init

noncomputable section

namespace Cert.Proof

open Idealize.ShloMosaic Idealize.ShloMosaic.TcCoe Idealize.SL.Sem

/-- The two idealized programs, from memories that agree on the arguments, both end with the specification's result
    array of those arguments. -/
theorem algebraic : Cert.algebraic_KernelIdeal_ReferenceIdeal := by
  intro m ρ m' ρ' hpre hagree
  have hg : ∀ c : Dev Cert.KernelIdeal.nD, Cert.KernelIdeal.KV.GoodK m c := fun c =>
    Cert.PreDecode.good_of_fn _ _ _ _ _ _ _ _ _ _ _ _ (hpre c)
  have hIn : ∀ c : Dev Cert.ReferenceIdeal.nD, Cert.Spec.InBlock (m' ((c.tc : Thread Cert.ReferenceIdeal.nD Cert.ReferenceIdeal.τ).loc Cert.ReferenceIdeal.main_arg1)) := fun c => by
    rw [(hagree c).2.1]; exact (hg c).inBlock
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.KV.run_spec m ρ hg, ?_⟩
  refine (θ_run Cert.ReferenceIdeal.defs _ _).mono (fun r h c => ⟨(h c).1.trans ?_, (h c).2⟩)
    (Cert.ReferenceIdeal.RV.run_spec m' ρ' hIn)
  obtain ⟨h0, h1, h2, -, h4, h5, h6, h7, h8, h9, h10, h11⟩ := hagree c
  rw [h0, h1, h2, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.RV.frame m ρ,
    trivial,
    algebraic⟩

end Cert.Proof

end
